-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x500000 : S_.BroadcastsInDim S2x500000 (![] : Fin 0 → Fin S2x500000.rank)
  reducesTo_S2x500000_S_d0_1 : S2x500000.ReducesTo [0, 1] S_

variable [Facts]

def fn_part5 {F : FTy → Type} [FloatOps F] (main_arg1 : IVec S2x500000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 4294867296#32
  let main_v89 : IVec S2x500000 32 := broadcastInDim S2x500000 ![] bcast_S_S2x500000 main_c_34
  let main_v90 : IVec S2x500000 1 := cmpi .sge main_arg1 main_v89
  let main_c_35 : IVec S_ 1 := constantI S_ 1 1#1
  let main_v91 : IVec S_ 1 := (fun x v => Host.reduce IntOp.andi x v reducesTo_S2x500000_S_d0_1 h_S_) main_v90 main_c_35
  let main_v92 : IVec S_ 1 := andi main_v88 main_v91
  let main_c_36 : IVec S_ 32 := constantI S_ 32 100000#32
  let main_v93 : IVec S2x500000 32 := broadcastInDim S2x500000 ![] bcast_S_S2x500000 main_c_36
  let main_v94 : IVec S2x500000 1 := cmpi .slt main_arg1 main_v93
  let main_c_37 : IVec S_ 1 := constantI S_ 1 1#1
  let main_v95 : IVec S_ 1 := (fun x v => Host.reduce IntOp.andi x v reducesTo_S2x500000_S_d0_1 h_S_) main_v94 main_c_37
  let main_v96 : IVec S_ 1 := andi main_v92 main_v95
  main_v96

def fn_part4 {F : FTy → Type} [FloatOps F] (main_arg1 : IVec S2x500000 32) (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x500000 32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x500000 32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg12 main_arg13 main_arg14 main_arg15 main_arg16 main_arg17 main_arg18 main_v48 main_v49 main_v50

def fn_part1 {F : FTy → Type} [FloatOps F] (main_arg1 : IVec S2x500000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x500000 32) (main_arg2 : FVec F S500000x128 .f32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S1x128 : Shape := ⟨2, ![1, 128]⟩
abbrev S5000x128 : Shape := ⟨2, ![5000, 128]⟩
abbrev S100000 : Shape := ⟨1, ![100000]⟩
abbrev S100000x1 : Shape := ⟨2, ![100000, 1]⟩

abbrev nBuf : Space → Nat
  | .hbm => 103
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x500000, .i32⟩
  | .hbm, ⟨20, _⟩ => ⟨S500000, .i32⟩
  | .hbm, ⟨21, _⟩ => ⟨S1x500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S1, .i32⟩
  | .hbm, ⟨32, _⟩ => ⟨S_, .i32⟩
  | .hbm, ⟨33, _⟩ => ⟨S500000x1, .i32⟩
  | .hbm, ⟨34, _⟩ => ⟨S500000x1, .i1⟩
  | .hbm, ⟨35, _⟩ => ⟨S1x1, .i32⟩
  | .hbm, ⟨36, _⟩ => ⟨S500000x1, .i32⟩
  | .hbm, ⟨37, _⟩ => ⟨S500000x1, .i1⟩
  | .hbm, ⟨38, _⟩ => ⟨S500000x1, .i1⟩
  | .hbm, ⟨39, _⟩ => ⟨S_, .i1⟩
  | .hbm, ⟨40, _⟩ => ⟨S500000, .i1⟩
  | .hbm, ⟨41, _⟩ => ⟨S500000x128, .f32⟩
  | .hbm, ⟨42, _⟩ => ⟨S500000x128, .i1⟩
  | .hbm, ⟨43, _⟩ => ⟨S_, .f32⟩
  | .hbm, ⟨44, _⟩ => ⟨S500000x128, .f32⟩
  | .hbm, ⟨45, _⟩ => ⟨S500000x128, .f32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S1, .i32⟩
  | .hbm, ⟨55, _⟩ => ⟨S_, .i32⟩
  | .hbm, ⟨56, _⟩ => ⟨S500000x1, .i32⟩
  | .hbm, ⟨57, _⟩ => ⟨S500000x1, .i1⟩
  | .hbm, ⟨58, _⟩ => ⟨S1x1, .i32⟩
  | .hbm, ⟨59, _⟩ => ⟨S500000x1, .i32⟩
  | .hbm, ⟨60, _⟩ => ⟨S500000x1, .i1⟩
  | .hbm, ⟨61, _⟩ => ⟨S500000x1, .i1⟩
  | .hbm, ⟨62, _⟩ => ⟨S_, .i1⟩
  | .hbm, ⟨63, _⟩ => ⟨S500000, .i1⟩
  | .hbm, ⟨64, _⟩ => ⟨S500000x128, .f32⟩
  | .hbm, ⟨65, _⟩ => ⟨S500000x128, .i1⟩
  | .hbm, ⟨66, _⟩ => ⟨S_, .f32⟩
  | .hbm, ⟨67, _⟩ => ⟨S500000x128, .f32⟩
  | .hbm, ⟨68, _⟩ => ⟨S500000x128, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S500000x128, .f32⟩
  | .hbm, ⟨85, _⟩ => ⟨S500000x128, .f32⟩
  | .hbm, ⟨86, _⟩ => ⟨S_, .f32⟩
  | .hbm, ⟨87, _⟩ => ⟨S100000x128, .f32⟩
  | .hbm, ⟨88, _⟩ => ⟨S500000x1, .i32⟩
  | .hbm, ⟨89, _⟩ => ⟨S100000x128, .f32⟩
  | .hbm, ⟨90, _⟩ => ⟨S_, .f32⟩
  | .hbm, ⟨91, _⟩ => ⟨S500000, .f32⟩
  | .hbm, ⟨92, _⟩ => ⟨S_, .f32⟩
  | .hbm, ⟨93, _⟩ => ⟨S100000, .f32⟩
  | .hbm, ⟨94, _⟩ => ⟨S500000x1, .i32⟩
  | .hbm, ⟨95, _⟩ => ⟨S100000, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21_0 : Ref sig .tc := ⟨.hbm, 84, rfl⟩
abbrev main_v21_1 : Ref sig .tc := ⟨.hbm, 85, rfl⟩
abbrev main_cst : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_cst_0 : Ref sig .tc := ⟨.hbm, 90, rfl⟩
abbrev main_v25 : Ref sig .tc := ⟨.hbm, 91, rfl⟩
abbrev main_cst_1 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_2 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S5000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x128.size a ≤ S500000x128.size a
  hwx0_14 : ∀ i : grid0.Coords, EltTy.bits .f32 = 32 ∨ (Rect.block (s := S500000x128) S5000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x128.size a ≤ S500000x128.size a
  hwx0_15 : ∀ i : grid0.Coords, EltTy.bits .f32 = 32 ∨ (Rect.block (s := S500000x128) S5000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S100000x128.size a
  hwx1_11 : ∀ i : grid1.Coords, EltTy.bits .f32 = 32 ∨ (Rect.block (s := S100000x128) S5000x128.size (cc1_transform_11 i) (hinb1_11 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21_0) S5000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v21_1) S5000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v34) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S500000x256 : Shape := ⟨2, ![500000, 256]⟩
abbrev S100000 : Shape := ⟨1, ![100000]⟩
abbrev S100000x1 : Shape := ⟨2, ![100000, 1]⟩
abbrev S100000x256 : Shape := ⟨2, ![100000, 256]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x500000, .i32⟩
  | .hbm, ⟨20, _⟩ => ⟨S500000, .i32⟩
  | .hbm, ⟨21, _⟩ => ⟨S1x500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x128, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x128, .f32⟩
  | .hbm, ⟨41, _⟩ => ⟨S500000x384, .f32⟩
  | .hbm, ⟨42, _⟩ => ⟨S500000x128, .f32⟩
  | .hbm, ⟨43, _⟩ => ⟨S1x128, .f32⟩
  | .hbm, ⟨44, _⟩ => ⟨S500000x128, .f32⟩
  | .hbm, ⟨45, _⟩ => ⟨S500000x128, .f32⟩
  | .hbm, ⟨46, _⟩ => ⟨S_, .f32⟩
  | .hbm, ⟨47, _⟩ => ⟨S500000x128, .f32⟩
  | .hbm, ⟨48, _⟩ => ⟨S500000x128, .f32⟩
  | .hbm, ⟨49, _⟩ => ⟨S500000x128, .f32⟩
  | .hbm, ⟨50, _⟩ => ⟨S1x128, .f32⟩
  | .hbm, ⟨51, _⟩ => ⟨S500000x128, .f32⟩
  | .hbm, ⟨52, _⟩ => ⟨S500000x128, .f32⟩
  | .hbm, ⟨53, _⟩ => ⟨S500000x256, .f32⟩
  | .hbm, ⟨54, _⟩ => ⟨S500000x128, .f32⟩
  | .hbm, ⟨55, _⟩ => ⟨S1x128, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S500000x128, .f32⟩
  | .hbm, ⟨60, _⟩ => ⟨S500000x128, .f32⟩
  | .hbm, ⟨61, _⟩ => ⟨S500000x128, .f32⟩
  | .hbm, ⟨62, _⟩ => ⟨S1x128, .f32⟩
  | .hbm, ⟨63, _⟩ => ⟨S500000x128, .f32⟩
  | .hbm, ⟨64, _⟩ => ⟨S500000x128, .f32⟩
  | .hbm, ⟨65, _⟩ => ⟨S_, .f32⟩
  | .hbm, ⟨66, _⟩ => ⟨S100000x128, .f32⟩
  | .hbm, ⟨67, _⟩ => ⟨S500000x1, .i32⟩
  | .hbm, ⟨68, _⟩ => ⟨S100000x128, .f32⟩
  | .hbm, ⟨69, _⟩ => ⟨S_, .f32⟩
  | .hbm, ⟨70, _⟩ => ⟨S500000, .f32⟩
  | .hbm, ⟨71, _⟩ => ⟨S_, .f32⟩
  | .hbm, ⟨72, _⟩ => ⟨S100000, .f32⟩
  | .hbm, ⟨73, _⟩ => ⟨S500000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x256, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_cst : Ref sig .tc := ⟨.hbm, 58, rfl⟩
abbrev main_call1_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call2_cst : Ref sig .tc := ⟨.hbm, 86, rfl⟩
abbrev main_call2_v0 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call3_cst : Ref sig .tc := ⟨.hbm, 97, rfl⟩
abbrev main_call3_v0 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  concatenates_S500000x128_S500000x128_S500000x256_d1 : Shape.Concatenates [S500000x128, S500000x128] S500000x256 1
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  dot_S500000x256_S256x128_S500000x128_1_0_0_1_n_n_wf : DotDims.WF S500000x256 S256x128 S500000x128 [1] [0] [0] [1] [] []
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostFold.lean ====
/-
  The host side of the kernel's program: what each pallas_call is entered with, and where its results end.

  Between the launch and the first call the host splits the edge index into its two rows, gathers the node rows by each
  (the filling gather of `jnp.take`), slices the first-layer matrices into row-blocks of 128 rows and reshapes each bias
  vector to a `1 × 128` row; between the two calls it takes the scatter-mean of the messages over the source index. No
  host operation and no call writes an argument array. Each buffer a call reads is therefore a fixed term of the
  launch contents, read back through the fold of the stretches and calls.
-/
import proofs.«424816_j40346922778973_1_alg».proof.Proof.Gen.KernelIdeal.Frame
import Idealize.ShloMosaic.Lib.StableHlo.Run
import Idealize.ShloMosaic.PureOps.Ideal

set_option maxRecDepth 16384

noncomputable section

namespace Cert.KernelIdeal.HostFold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer that a stretch of host operations does not write keeps its contents across the stretch. -/
local macro "stretch_keeps" : tactic =>
  `(tactic| (refine StableHlo.after_of_forall_not_mem _ _ (List.forall_iff_forall_mem.mp (by
      simp only [hostOps0, hostOps0_1, hostOps0_2, hostOps0_3, hostOps1, List.Forall, StableHlo.nullary_writes, StableHlo.unary_writes,
        StableHlo.binary_writes, StableHlo.ternary_writes, StableHlo.quaternary_writes, StableHlo.reshape_writes, Finset.mem_singleton]
      repeat' apply And.intro
      all_goals exact StableHlo.devRef_ne_of_ne (by decide)))))

/-- Reads a buffer back through a stretch of host operations: each operation's result at its own buffer is its function
    of its operands, and at any other buffer what was there. -/
local macro "read_back" : tactic =>
  `(tactic| (simp only [hostOps0, hostOps0_1, hostOps0_2, hostOps0_3, hostOps1, after_cons, after_nil]
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The edge index's rows and the gathers -/

/-- Row `r` of the edge index (0: the source nodes, 1: the target nodes) as a vector of 500000 words. -/
abbrev srcIdx (a1 : IVec S2x500000 32) : IVec S500000 32 :=
  shapeCast S500000 (extractStridedSlice S1x500000 ![0, 0] a1 slices_S2x500000_S1x500000_0_0) shapeCasts_S1x500000_S500000
abbrev dstIdx (a1 : IVec S2x500000 32) : IVec S500000 32 :=
  shapeCast S500000 (extractStridedSlice S1x500000 ![1, 0] a1 slices_S2x500000_S1x500000_1_0) shapeCasts_S1x500000_S500000

/-- An index vector with its negative words wrapped (`i < 0 ↦ i + 100000`), as a column. -/
abbrev wrapped (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32))) idx)

/-- The plain gather of the node rows by a wrapped index column. -/
abbrev gathered (x : FVec Ideal S100000x128 .f32) (idx : IVec S500000 32) : FVec Ideal S500000x128 .f32 :=
  Host.gather gather_S100000x128_S500000x1_S500000x128_1_0_n_n_0_1_1128 x (wrapped idx)

/-- The filling gather as the host computes it: the gathered row where the wrapped index is in `[0, 99999]`, a fill
    value elsewhere. -/
def takeRows (x : FVec Ideal S100000x128 .f32) (idx : IVec S500000 32) : FVec Ideal S500000x128 .f32 :=
  select (broadcastInDim S500000x128 ![0] bcast_S500000_S500000x128_0
      (Host.reduce IntOp.andi
        (andi (cmpi .sge (wrapped idx) (broadcastInDim S500000x1 ![] bcast_S_S500000x1 (constantI S_ 32 0#32)))
          (cmpi .sle (wrapped idx)
            (broadcastInDim S500000x1 ![0, 1] bcast_S1x1_S500000x1_0_1
              (broadcastInDim S1x1 ![1] bcast_S1_S1x1_1 (constantI S1 32 99999#32)))))
        (constantI S_ 1 1#1) reducesTo_S500000x1_S500000_d1 h_S_))
    (gathered x idx)
    (broadcastInDim S500000x128 ![] bcast_S_S500000x128 (constant (F := Ideal) S_ .f32 0x7FC00000#32))

/-! ## The stretches, from any contents -/

section Stretches

variable (U : Valuation τ sig (Elt Ideal))

/-- The first stretch splits the edge index into its source row and its target row. -/
theorem rows_src : StableHlo.after hostOps0 U (Proc.devRef .tc main_v1) = srcIdx (U (Proc.devRef .tc main_arg1)) := by
  generalize hT : srcIdx (U (Proc.devRef .tc main_arg1)) = T
  read_back
  subst hT
  rfl

theorem rows_dst : StableHlo.after hostOps0 U (Proc.devRef .tc main_v3) = dstIdx (U (Proc.devRef .tc main_arg1)) := by
  generalize hT : dstIdx (U (Proc.devRef .tc main_arg1)) = T
  read_back
  subst hT
  rfl

set_option maxHeartbeats 1000000 in
/-- The second stretch is the filling gather of the node rows by the source row. -/
theorem take_src : StableHlo.after hostOps0_1 U (Proc.devRef .tc main_v4) = takeRows (U (Proc.devRef .tc main_arg0)) (U (Proc.devRef .tc main_v1)) := by
  generalize hT : takeRows (U (Proc.devRef .tc main_arg0)) (U (Proc.devRef .tc main_v1)) = T
  simp only [hostOps0_1]
  after_results_simp
  try simp only [TRef.ofBuf, TRef.toBuf, cast_eq]
  subst hT
  rfl

set_option maxHeartbeats 1000000 in
/-- The third stretch is the filling gather of the node rows by the target row. -/
theorem take_dst : StableHlo.after hostOps0_2 U (Proc.devRef .tc main_v5) = takeRows (U (Proc.devRef .tc main_arg0)) (U (Proc.devRef .tc main_v3)) := by
  generalize hT : takeRows (U (Proc.devRef .tc main_arg0)) (U (Proc.devRef .tc main_v3)) = T
  simp only [hostOps0_2]
  after_results_simp
  try simp only [TRef.ofBuf, TRef.toBuf, cast_eq]
  subst hT
  rfl

/-! The fourth stretch slices the first-layer matrices into row-blocks and reshapes the bias vectors to rows. -/
theorem prep_v6 : StableHlo.after hostOps0_3 U (Proc.devRef .tc main_v6) = extractStridedSlice S128x128 ![0, 0] (U (Proc.devRef .tc main_arg3)) slices_S384x128_S128x128_0_0 := by
  generalize hT : extractStridedSlice S128x128 ![0, 0] (U (Proc.devRef .tc main_arg3)) slices_S384x128_S128x128_0_0 = T
  read_back
  subst hT
  rfl
theorem prep_v7 : StableHlo.after hostOps0_3 U (Proc.devRef .tc main_v7) = extractStridedSlice S128x128 ![128, 0] (U (Proc.devRef .tc main_arg3)) slices_S384x128_S128x128_128_0 := by
  generalize hT : extractStridedSlice S128x128 ![128, 0] (U (Proc.devRef .tc main_arg3)) slices_S384x128_S128x128_128_0 = T
  read_back
  subst hT
  rfl
theorem prep_v8 : StableHlo.after hostOps0_3 U (Proc.devRef .tc main_v8) = extractStridedSlice S128x128 ![256, 0] (U (Proc.devRef .tc main_arg3)) slices_S384x128_S128x128_256_0 := by
  generalize hT : extractStridedSlice S128x128 ![256, 0] (U (Proc.devRef .tc main_arg3)) slices_S384x128_S128x128_256_0 = T
  read_back
  subst hT
  rfl
theorem prep_v9 : StableHlo.after hostOps0_3 U (Proc.devRef .tc main_v9) = extractStridedSlice S128x128 ![0, 0] (U (Proc.devRef .tc main_arg7)) slices_S256x128_S128x128_0_0 := by
  generalize hT : extractStridedSlice S128x128 ![0, 0] (U (Proc.devRef .tc main_arg7)) slices_S256x128_S128x128_0_0 = T
  read_back
  subst hT
  rfl
theorem prep_v10 : StableHlo.after hostOps0_3 U (Proc.devRef .tc main_v10) = extractStridedSlice S128x128 ![128, 0] (U (Proc.devRef .tc main_arg7)) slices_S256x128_S128x128_128_0 := by
  generalize hT : extractStridedSlice S128x128 ![128, 0] (U (Proc.devRef .tc main_arg7)) slices_S256x128_S128x128_128_0 = T
  read_back
  subst hT
  rfl
theorem prep_v11 : StableHlo.after hostOps0_3 U (Proc.devRef .tc main_v11) = extractStridedSlice S128x128 ![0, 0] (U (Proc.devRef .tc main_arg11)) slices_S256x128_S128x128_0_0 := by
  generalize hT : extractStridedSlice S128x128 ![0, 0] (U (Proc.devRef .tc main_arg11)) slices_S256x128_S128x128_0_0 = T
  read_back
  subst hT
  rfl
theorem prep_v12 : StableHlo.after hostOps0_3 U (Proc.devRef .tc main_v12) = extractStridedSlice S128x128 ![128, 0] (U (Proc.devRef .tc main_arg11)) slices_S256x128_S128x128_128_0 := by
  generalize hT : extractStridedSlice S128x128 ![128, 0] (U (Proc.devRef .tc main_arg11)) slices_S256x128_S128x128_128_0 = T
  read_back
  subst hT
  rfl
theorem prep_v13 : StableHlo.after hostOps0_3 U (Proc.devRef .tc main_v13) = shapeCast S1x128 (U (Proc.devRef .tc main_arg4)) shapeCasts_S128_S1x128 := by
  generalize hT : shapeCast S1x128 (U (Proc.devRef .tc main_arg4)) shapeCasts_S128_S1x128 = T
  read_back
  subst hT
  rfl
theorem prep_v14 : StableHlo.after hostOps0_3 U (Proc.devRef .tc main_v14) = shapeCast S1x128 (U (Proc.devRef .tc main_arg6)) shapeCasts_S128_S1x128 := by
  generalize hT : shapeCast S1x128 (U (Proc.devRef .tc main_arg6)) shapeCasts_S128_S1x128 = T
  read_back
  subst hT
  rfl
theorem prep_v15 : StableHlo.after hostOps0_3 U (Proc.devRef .tc main_v15) = shapeCast S1x128 (U (Proc.devRef .tc main_arg8)) shapeCasts_S128_S1x128 := by
  generalize hT : shapeCast S1x128 (U (Proc.devRef .tc main_arg8)) shapeCasts_S128_S1x128 = T
  read_back
  subst hT
  rfl
theorem prep_v16 : StableHlo.after hostOps0_3 U (Proc.devRef .tc main_v16) = shapeCast S1x128 (U (Proc.devRef .tc main_arg10)) shapeCasts_S128_S1x128 := by
  generalize hT : shapeCast S1x128 (U (Proc.devRef .tc main_arg10)) shapeCasts_S128_S1x128 = T
  read_back
  subst hT
  rfl
theorem prep_v17 : StableHlo.after hostOps0_3 U (Proc.devRef .tc main_v17) = shapeCast S1x128 (U (Proc.devRef .tc main_arg12)) shapeCasts_S128_S1x128 := by
  generalize hT : shapeCast S1x128 (U (Proc.devRef .tc main_arg12)) shapeCasts_S128_S1x128 = T
  read_back
  subst hT
  rfl
theorem prep_v18 : StableHlo.after hostOps0_3 U (Proc.devRef .tc main_v18) = shapeCast S1x128 (U (Proc.devRef .tc main_arg14)) shapeCasts_S128_S1x128 := by
  generalize hT : shapeCast S1x128 (U (Proc.devRef .tc main_arg14)) shapeCasts_S128_S1x128 = T
  read_back
  subst hT
  rfl
theorem prep_v19 : StableHlo.after hostOps0_3 U (Proc.devRef .tc main_v19) = shapeCast S1x128 (U (Proc.devRef .tc main_arg16)) shapeCasts_S128_S1x128 := by
  generalize hT : shapeCast S1x128 (U (Proc.devRef .tc main_arg16)) shapeCasts_S128_S1x128 = T
  read_back
  subst hT
  rfl
theorem prep_v20 : StableHlo.after hostOps0_3 U (Proc.devRef .tc main_v20) = shapeCast S1x128 (U (Proc.devRef .tc main_arg18)) shapeCasts_S128_S1x128 := by
  generalize hT : shapeCast S1x128 (U (Proc.devRef .tc main_arg18)) shapeCasts_S128_S1x128 = T
  read_back
  subst hT
  rfl

/-- The scatter-mean of the messages `msg` over the index vector `idx`: the sums of the message rows by index, divided by
    the larger of the count of each index and one. -/
def aggOf (idx : IVec S500000 32) (msg : FVec Ideal S500000x128 .f32) : FVec Ideal S100000x128 .f32 :=
  Host.divf
    (Host.scatterAdd scatter_S100000x128_S500000x1_S500000x128_1_0_0_1
      (broadcastInDim S100000x128 ![] bcast_S_S100000x128 (constant (F := Ideal) S_ .f32 0x00000000#32))
      (broadcastInDim S500000x1 ![0] bcast_S500000_S500000x1_0 idx) msg)
    (broadcastInDim S100000x128 ![0, 1] bcast_S100000x1_S100000x128_0_1
      (broadcastInDim S100000x1 ![0] bcast_S100000_S100000x1_0
        (maximumf
          (Host.scatterAdd scatter_S100000_S500000x1_S500000_n_0_0_1
            (broadcastInDim S100000 ![] bcast_S_S100000 (constant (F := Ideal) S_ .f32 0x00000000#32))
            (broadcastInDim S500000x1 ![0] bcast_S500000_S500000x1_0 idx)
            (broadcastInDim S500000 ![] bcast_S_S500000 (constant (F := Ideal) S_ .f32 0x3F800000#32)))
          (broadcastInDim S100000 ![] bcast_S_S100000 (constant (F := Ideal) S_ .f32 0x3F800000#32)))))

set_option maxHeartbeats 1000000 in
/-- The stretch between the two calls is the scatter-mean of the first call's messages over the source row. -/
theorem agg_stretch : StableHlo.after hostOps1 U (Proc.devRef .tc main_v33) = aggOf (U (Proc.devRef .tc main_v1)) (U (Proc.devRef .tc main_v21_1)) := by
  generalize hT : aggOf (U (Proc.devRef .tc main_v1)) (U (Proc.devRef .tc main_v21_1)) = T
  simp only [hostOps1]
  after_results_simp
  subst hT
  rfl

end Stretches

/-! ## The launch contents, read through the stretches -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by stretch_keeps
    _ = W1 m ρ c (Proc.devRef .tc main_arg1) := by stretch_keeps
    _ = W0 m ρ c (Proc.devRef .tc main_arg1) := by stretch_keeps
    _ = m ((c : Thread nD τ).loc main_arg1) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by stretch_keeps
    _ = W1 m ρ c (Proc.devRef .tc main_arg4) := by stretch_keeps
    _ = W0 m ρ c (Proc.devRef .tc main_arg4) := by stretch_keeps
    _ = m ((c : Thread nD τ).loc main_arg4) := rfl
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by stretch_keeps
    _ = W1 m ρ c (Proc.devRef .tc main_arg6) := by stretch_keeps
    _ = W0 m ρ c (Proc.devRef .tc main_arg6) := by stretch_keeps
    _ = m ((c : Thread nD τ).loc main_arg6) := rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by stretch_keeps
    _ = W1 m ρ c (Proc.devRef .tc main_arg7) := by stretch_keeps
    _ = W0 m ρ c (Proc.devRef .tc main_arg7) := by stretch_keeps
    _ = m ((c : Thread nD τ).loc main_arg7) := rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by stretch_keeps
    _ = W1 m ρ c (Proc.devRef .tc main_arg8) := by stretch_keeps
    _ = W0 m ρ c (Proc.devRef .tc main_arg8) := by stretch_keeps
    _ = m ((c : Thread nD τ).loc main_arg8) := rfl
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by stretch_keeps
    _ = W1 m ρ c (Proc.devRef .tc main_arg10) := by stretch_keeps
    _ = W0 m ρ c (Proc.devRef .tc main_arg10) := by stretch_keeps
    _ = m ((c : Thread nD τ).loc main_arg10) := rfl
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by stretch_keeps
    _ = W1 m ρ c (Proc.devRef .tc main_arg11) := by stretch_keeps
    _ = W0 m ρ c (Proc.devRef .tc main_arg11) := by stretch_keeps
    _ = m ((c : Thread nD τ).loc main_arg11) := rfl
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by stretch_keeps
    _ = W1 m ρ c (Proc.devRef .tc main_arg12) := by stretch_keeps
    _ = W0 m ρ c (Proc.devRef .tc main_arg12) := by stretch_keeps
    _ = m ((c : Thread nD τ).loc main_arg12) := rfl
theorem W3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := by stretch_keeps
    _ = W1 m ρ c (Proc.devRef .tc main_arg14) := by stretch_keeps
    _ = W0 m ρ c (Proc.devRef .tc main_arg14) := by stretch_keeps
    _ = m ((c : Thread nD τ).loc main_arg14) := rfl
theorem W3_arg16 (c : Dev nD) : W3 m ρ c (Proc.devRef .tc main_arg16) = m ((c : Thread nD τ).loc main_arg16) :=
  calc W3 m ρ c (Proc.devRef .tc main_arg16)
    _ = W2 m ρ c (Proc.devRef .tc main_arg16) := by stretch_keeps
    _ = W1 m ρ c (Proc.devRef .tc main_arg16) := by stretch_keeps
    _ = W0 m ρ c (Proc.devRef .tc main_arg16) := by stretch_keeps
    _ = m ((c : Thread nD τ).loc main_arg16) := rfl
theorem W3_arg18 (c : Dev nD) : W3 m ρ c (Proc.devRef .tc main_arg18) = m ((c : Thread nD τ).loc main_arg18) :=
  calc W3 m ρ c (Proc.devRef .tc main_arg18)
    _ = W2 m ρ c (Proc.devRef .tc main_arg18) := by stretch_keeps
    _ = W1 m ρ c (Proc.devRef .tc main_arg18) := by stretch_keeps
    _ = W0 m ρ c (Proc.devRef .tc main_arg18) := by stretch_keeps
    _ = m ((c : Thread nD τ).loc main_arg18) := rfl
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by stretch_keeps
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by stretch_keeps
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by stretch_keeps
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := by stretch_keeps
    _ = W2 m ρ c (Proc.devRef .tc main_arg9) := by stretch_keeps
    _ = W1 m ρ c (Proc.devRef .tc main_arg9) := by stretch_keeps
    _ = W0 m ρ c (Proc.devRef .tc main_arg9) := by stretch_keeps
    _ = m ((c : Thread nD τ).loc main_arg9) := rfl
theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := by stretch_keeps
    _ = W2 m ρ c (Proc.devRef .tc main_arg13) := by stretch_keeps
    _ = W1 m ρ c (Proc.devRef .tc main_arg13) := by stretch_keeps
    _ = W0 m ρ c (Proc.devRef .tc main_arg13) := by stretch_keeps
    _ = m ((c : Thread nD τ).loc main_arg13) := rfl
theorem W4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := by stretch_keeps
    _ = W2 m ρ c (Proc.devRef .tc main_arg15) := by stretch_keeps
    _ = W1 m ρ c (Proc.devRef .tc main_arg15) := by stretch_keeps
    _ = W0 m ρ c (Proc.devRef .tc main_arg15) := by stretch_keeps
    _ = m ((c : Thread nD τ).loc main_arg15) := rfl
theorem W4_arg17 (c : Dev nD) : W4 m ρ c (Proc.devRef .tc main_arg17) = m ((c : Thread nD τ).loc main_arg17) :=
  calc W4 m ρ c (Proc.devRef .tc main_arg17)
    _ = W3 m ρ c (Proc.devRef .tc main_arg17) := by stretch_keeps
    _ = W2 m ρ c (Proc.devRef .tc main_arg17) := by stretch_keeps
    _ = W1 m ρ c (Proc.devRef .tc main_arg17) := by stretch_keeps
    _ = W0 m ρ c (Proc.devRef .tc main_arg17) := by stretch_keeps
    _ = m ((c : Thread nD τ).loc main_arg17) := rfl

theorem W3_v1 (c : Dev nD) : W3 m ρ c (Proc.devRef .tc main_v1) = srcIdx (m ((c : Thread nD τ).loc main_arg1)) :=
  calc W3 m ρ c (Proc.devRef .tc main_v1)
    _ = W2 m ρ c (Proc.devRef .tc main_v1) := by stretch_keeps
    _ = W1 m ρ c (Proc.devRef .tc main_v1) := by stretch_keeps
    _ = srcIdx (W0 m ρ c (Proc.devRef .tc main_arg1)) := rows_src (W0 m ρ c)
    _ = _ := rfl

/-! ## What the first call is entered with -/

theorem V4_v4 (c : Dev nD) : V4 m ρ c main_v4 = takeRows (m ((c : Thread nD τ).loc main_arg0)) (srcIdx (m ((c : Thread nD τ).loc main_arg1))) :=
  calc W4 m ρ c (Proc.devRef .tc main_v4)
    _ = W3 m ρ c (Proc.devRef .tc main_v4) := by stretch_keeps
    _ = W2 m ρ c (Proc.devRef .tc main_v4) := by stretch_keeps
    _ = takeRows (W1 m ρ c (Proc.devRef .tc main_arg0)) (W1 m ρ c (Proc.devRef .tc main_v1)) := take_src (W1 m ρ c)
    _ = takeRows (W0 m ρ c (Proc.devRef .tc main_arg0)) (srcIdx (W0 m ρ c (Proc.devRef .tc main_arg1))) := by
        rw [show W1 m ρ c (Proc.devRef .tc main_arg0) = W0 m ρ c (Proc.devRef .tc main_arg0) from by stretch_keeps,
          show W1 m ρ c (Proc.devRef .tc main_v1) = srcIdx (W0 m ρ c (Proc.devRef .tc main_arg1)) from rows_src (W0 m ρ c)]
    _ = _ := rfl

theorem V4_v5 (c : Dev nD) : V4 m ρ c main_v5 = takeRows (m ((c : Thread nD τ).loc main_arg0)) (dstIdx (m ((c : Thread nD τ).loc main_arg1))) :=
  calc W4 m ρ c (Proc.devRef .tc main_v5)
    _ = W3 m ρ c (Proc.devRef .tc main_v5) := by stretch_keeps
    _ = takeRows (W2 m ρ c (Proc.devRef .tc main_arg0)) (W2 m ρ c (Proc.devRef .tc main_v3)) := take_dst (W2 m ρ c)
    _ = takeRows (W0 m ρ c (Proc.devRef .tc main_arg0)) (dstIdx (W0 m ρ c (Proc.devRef .tc main_arg1))) := by
        rw [show W2 m ρ c (Proc.devRef .tc main_arg0) = W1 m ρ c (Proc.devRef .tc main_arg0) from by stretch_keeps,
          show W1 m ρ c (Proc.devRef .tc main_arg0) = W0 m ρ c (Proc.devRef .tc main_arg0) from by stretch_keeps,
          show W2 m ρ c (Proc.devRef .tc main_v3) = W1 m ρ c (Proc.devRef .tc main_v3) from by stretch_keeps,
          show W1 m ρ c (Proc.devRef .tc main_v3) = dstIdx (W0 m ρ c (Proc.devRef .tc main_arg1)) from rows_dst (W0 m ρ c)]
    _ = _ := rfl

theorem V4_arg2 (c : Dev nD) : V4 m ρ c main_arg2 = m ((c : Thread nD τ).loc main_arg2) := W4_arg2 m ρ c
theorem V4_arg5 (c : Dev nD) : V4 m ρ c main_arg5 = m ((c : Thread nD τ).loc main_arg5) := W4_arg5 m ρ c
theorem V4_arg9 (c : Dev nD) : V4 m ρ c main_arg9 = m ((c : Thread nD τ).loc main_arg9) := W4_arg9 m ρ c
theorem W4_v6 (c : Dev nD) : W4 m ρ c (Proc.devRef .tc main_v6) = extractStridedSlice S128x128 ![0, 0] (m ((c : Thread nD τ).loc main_arg3)) slices_S384x128_S128x128_0_0 :=
  (prep_v6 (W3 m ρ c)).trans (by rw [W3_arg3 m ρ c])
theorem W4_v7 (c : Dev nD) : W4 m ρ c (Proc.devRef .tc main_v7) = extractStridedSlice S128x128 ![128, 0] (m ((c : Thread nD τ).loc main_arg3)) slices_S384x128_S128x128_128_0 :=
  (prep_v7 (W3 m ρ c)).trans (by rw [W3_arg3 m ρ c])
theorem W4_v8 (c : Dev nD) : W4 m ρ c (Proc.devRef .tc main_v8) = extractStridedSlice S128x128 ![256, 0] (m ((c : Thread nD τ).loc main_arg3)) slices_S384x128_S128x128_256_0 :=
  (prep_v8 (W3 m ρ c)).trans (by rw [W3_arg3 m ρ c])
theorem W4_v9 (c : Dev nD) : W4 m ρ c (Proc.devRef .tc main_v9) = extractStridedSlice S128x128 ![0, 0] (m ((c : Thread nD τ).loc main_arg7)) slices_S256x128_S128x128_0_0 :=
  (prep_v9 (W3 m ρ c)).trans (by rw [W3_arg7 m ρ c])
theorem W4_v10 (c : Dev nD) : W4 m ρ c (Proc.devRef .tc main_v10) = extractStridedSlice S128x128 ![128, 0] (m ((c : Thread nD τ).loc main_arg7)) slices_S256x128_S128x128_128_0 :=
  (prep_v10 (W3 m ρ c)).trans (by rw [W3_arg7 m ρ c])
theorem W4_v11 (c : Dev nD) : W4 m ρ c (Proc.devRef .tc main_v11) = extractStridedSlice S128x128 ![0, 0] (m ((c : Thread nD τ).loc main_arg11)) slices_S256x128_S128x128_0_0 :=
  (prep_v11 (W3 m ρ c)).trans (by rw [W3_arg11 m ρ c])
theorem W4_v12 (c : Dev nD) : W4 m ρ c (Proc.devRef .tc main_v12) = extractStridedSlice S128x128 ![128, 0] (m ((c : Thread nD τ).loc main_arg11)) slices_S256x128_S128x128_128_0 :=
  (prep_v12 (W3 m ρ c)).trans (by rw [W3_arg11 m ρ c])
theorem W4_v13 (c : Dev nD) : W4 m ρ c (Proc.devRef .tc main_v13) = shapeCast S1x128 (m ((c : Thread nD τ).loc main_arg4)) shapeCasts_S128_S1x128 :=
  (prep_v13 (W3 m ρ c)).trans (by rw [W3_arg4 m ρ c])
theorem W4_v14 (c : Dev nD) : W4 m ρ c (Proc.devRef .tc main_v14) = shapeCast S1x128 (m ((c : Thread nD τ).loc main_arg6)) shapeCasts_S128_S1x128 :=
  (prep_v14 (W3 m ρ c)).trans (by rw [W3_arg6 m ρ c])
theorem W4_v15 (c : Dev nD) : W4 m ρ c (Proc.devRef .tc main_v15) = shapeCast S1x128 (m ((c : Thread nD τ).loc main_arg8)) shapeCasts_S128_S1x128 :=
  (prep_v15 (W3 m ρ c)).trans (by rw [W3_arg8 m ρ c])
theorem W4_v16 (c : Dev nD) : W4 m ρ c (Proc.devRef .tc main_v16) = shapeCast S1x128 (m ((c : Thread nD τ).loc main_arg10)) shapeCasts_S128_S1x128 :=
  (prep_v16 (W3 m ρ c)).trans (by rw [W3_arg10 m ρ c])
theorem W4_v17 (c : Dev nD) : W4 m ρ c (Proc.devRef .tc main_v17) = shapeCast S1x128 (m ((c : Thread nD τ).loc main_arg12)) shapeCasts_S128_S1x128 :=
  (prep_v17 (W3 m ρ c)).trans (by rw [W3_arg12 m ρ c])
theorem W4_v18 (c : Dev nD) : W4 m ρ c (Proc.devRef .tc main_v18) = shapeCast S1x128 (m ((c : Thread nD τ).loc main_arg14)) shapeCasts_S128_S1x128 :=
  (prep_v18 (W3 m ρ c)).trans (by rw [W3_arg14 m ρ c])
theorem W4_v19 (c : Dev nD) : W4 m ρ c (Proc.devRef .tc main_v19) = shapeCast S1x128 (m ((c : Thread nD τ).loc main_arg16)) shapeCasts_S128_S1x128 :=
  (prep_v19 (W3 m ρ c)).trans (by rw [W3_arg16 m ρ c])
theorem W4_v20 (c : Dev nD) : W4 m ρ c (Proc.devRef .tc main_v20) = shapeCast S1x128 (m ((c : Thread nD τ).loc main_arg18)) shapeCasts_S128_S1x128 :=
  (prep_v20 (W3 m ρ c)).trans (by rw [W3_arg18 m ρ c])
theorem V4_v6 (c : Dev nD) : V4 m ρ c main_v6 = extractStridedSlice S128x128 ![0, 0] (m ((c : Thread nD τ).loc main_arg3)) slices_S384x128_S128x128_0_0 := W4_v6 m ρ c
theorem V4_v7 (c : Dev nD) : V4 m ρ c main_v7 = extractStridedSlice S128x128 ![128, 0] (m ((c : Thread nD τ).loc main_arg3)) slices_S384x128_S128x128_128_0 := W4_v7 m ρ c
theorem V4_v8 (c : Dev nD) : V4 m ρ c main_v8 = extractStridedSlice S128x128 ![256, 0] (m ((c : Thread nD τ).loc main_arg3)) slices_S384x128_S128x128_256_0 := W4_v8 m ρ c
theorem V4_v9 (c : Dev nD) : V4 m ρ c main_v9 = extractStridedSlice S128x128 ![0, 0] (m ((c : Thread nD τ).loc main_arg7)) slices_S256x128_S128x128_0_0 := W4_v9 m ρ c
theorem V4_v10 (c : Dev nD) : V4 m ρ c main_v10 = extractStridedSlice S128x128 ![128, 0] (m ((c : Thread nD τ).loc main_arg7)) slices_S256x128_S128x128_128_0 := W4_v10 m ρ c
theorem V4_v13 (c : Dev nD) : V4 m ρ c main_v13 = shapeCast S1x128 (m ((c : Thread nD τ).loc main_arg4)) shapeCasts_S128_S1x128 := W4_v13 m ρ c
theorem V4_v14 (c : Dev nD) : V4 m ρ c main_v14 = shapeCast S1x128 (m ((c : Thread nD τ).loc main_arg6)) shapeCasts_S128_S1x128 := W4_v14 m ρ c
theorem V4_v15 (c : Dev nD) : V4 m ρ c main_v15 = shapeCast S1x128 (m ((c : Thread nD τ).loc main_arg8)) shapeCasts_S128_S1x128 := W4_v15 m ρ c
theorem V4_v16 (c : Dev nD) : V4 m ρ c main_v16 = shapeCast S1x128 (m ((c : Thread nD τ).loc main_arg10)) shapeCasts_S128_S1x128 := W4_v16 m ρ c

/-! ## What the second call is entered with -/

theorem V6_arg0 (c : Dev nD) : V6 m ρ c main_arg0 = m ((c : Thread nD τ).loc main_arg0) :=
  calc W6 m ρ c (Proc.devRef .tc main_arg0)
    _ = W5 m ρ c (Proc.devRef .tc main_arg0) := by stretch_keeps
    _ = W4 m ρ c (Proc.devRef .tc main_arg0) := W5_of_ne m ρ c main_arg0 (by decide)
    _ = _ := W4_arg0 m ρ c
theorem V6_arg13 (c : Dev nD) : V6 m ρ c main_arg13 = m ((c : Thread nD τ).loc main_arg13) :=
  calc W6 m ρ c (Proc.devRef .tc main_arg13)
    _ = W5 m ρ c (Proc.devRef .tc main_arg13) := by stretch_keeps
    _ = W4 m ρ c (Proc.devRef .tc main_arg13) := W5_of_ne m ρ c main_arg13 (by decide)
    _ = _ := W4_arg13 m ρ c
theorem V6_arg15 (c : Dev nD) : V6 m ρ c main_arg15 = m ((c : Thread nD τ).loc main_arg15) :=
  calc W6 m ρ c (Proc.devRef .tc main_arg15)
    _ = W5 m ρ c (Proc.devRef .tc main_arg15) := by stretch_keeps
    _ = W4 m ρ c (Proc.devRef .tc main_arg15) := W5_of_ne m ρ c main_arg15 (by decide)
    _ = _ := W4_arg15 m ρ c
theorem V6_arg17 (c : Dev nD) : V6 m ρ c main_arg17 = m ((c : Thread nD τ).loc main_arg17) :=
  calc W6 m ρ c (Proc.devRef .tc main_arg17)
    _ = W5 m ρ c (Proc.devRef .tc main_arg17) := by stretch_keeps
    _ = W4 m ρ c (Proc.devRef .tc main_arg17) := W5_of_ne m ρ c main_arg17 (by decide)
    _ = _ := W4_arg17 m ρ c
theorem V6_v11 (c : Dev nD) : V6 m ρ c main_v11 = extractStridedSlice S128x128 ![0, 0] (m ((c : Thread nD τ).loc main_arg11)) slices_S256x128_S128x128_0_0 :=
  calc W6 m ρ c (Proc.devRef .tc main_v11)
    _ = W5 m ρ c (Proc.devRef .tc main_v11) := by stretch_keeps
    _ = W4 m ρ c (Proc.devRef .tc main_v11) := W5_of_ne m ρ c main_v11 (by decide)
    _ = _ := W4_v11 m ρ c
theorem V6_v12 (c : Dev nD) : V6 m ρ c main_v12 = extractStridedSlice S128x128 ![128, 0] (m ((c : Thread nD τ).loc main_arg11)) slices_S256x128_S128x128_128_0 :=
  calc W6 m ρ c (Proc.devRef .tc main_v12)
    _ = W5 m ρ c (Proc.devRef .tc main_v12) := by stretch_keeps
    _ = W4 m ρ c (Proc.devRef .tc main_v12) := W5_of_ne m ρ c main_v12 (by decide)
    _ = _ := W4_v12 m ρ c
theorem V6_v17 (c : Dev nD) : V6 m ρ c main_v17 = shapeCast S1x128 (m ((c : Thread nD τ).loc main_arg12)) shapeCasts_S128_S1x128 :=
  calc W6 m ρ c (Proc.devRef .tc main_v17)
    _ = W5 m ρ c (Proc.devRef .tc main_v17) := by stretch_keeps
    _ = W4 m ρ c (Proc.devRef .tc main_v17) := W5_of_ne m ρ c main_v17 (by decide)
    _ = _ := W4_v17 m ρ c
theorem V6_v18 (c : Dev nD) : V6 m ρ c main_v18 = shapeCast S1x128 (m ((c : Thread nD τ).loc main_arg14)) shapeCasts_S128_S1x128 :=
  calc W6 m ρ c (Proc.devRef .tc main_v18)
    _ = W5 m ρ c (Proc.devRef .tc main_v18) := by stretch_keeps
    _ = W4 m ρ c (Proc.devRef .tc main_v18) := W5_of_ne m ρ c main_v18 (by decide)
    _ = _ := W4_v18 m ρ c
theorem V6_v19 (c : Dev nD) : V6 m ρ c main_v19 = shapeCast S1x128 (m ((c : Thread nD τ).loc main_arg16)) shapeCasts_S128_S1x128 :=
  calc W6 m ρ c (Proc.devRef .tc main_v19)
    _ = W5 m ρ c (Proc.devRef .tc main_v19) := by stretch_keeps
    _ = W4 m ρ c (Proc.devRef .tc main_v19) := W5_of_ne m ρ c main_v19 (by decide)
    _ = _ := W4_v19 m ρ c
theorem V6_v20 (c : Dev nD) : V6 m ρ c main_v20 = shapeCast S1x128 (m ((c : Thread nD τ).loc main_arg18)) shapeCasts_S128_S1x128 :=
  calc W6 m ρ c (Proc.devRef .tc main_v20)
    _ = W5 m ρ c (Proc.devRef .tc main_v20) := by stretch_keeps
    _ = W4 m ρ c (Proc.devRef .tc main_v20) := W5_of_ne m ρ c main_v20 (by decide)
    _ = _ := W4_v20 m ρ c

/-- The aggregated messages the second call reads: the scatter-mean, over the source row, of what the first call left in
    its second output array. -/
theorem V6_v33 (c : Dev nD) :
    V6 m ρ c main_v33 = aggOf (srcIdx (m ((c : Thread nD τ).loc main_arg1))) ((dat0 (V4 m ρ) c).arrAt 15 cfg0.N) :=
  calc W6 m ρ c (Proc.devRef .tc main_v33)
    _ = aggOf (W5 m ρ c (Proc.devRef .tc main_v1)) (W5 m ρ c (Proc.devRef .tc main_v21_1)) := agg_stretch (W5 m ρ c)
    _ = _ := by
        rw [show W5 m ρ c (Proc.devRef .tc main_v1) = W4 m ρ c (Proc.devRef .tc main_v1) from W5_of_ne m ρ c main_v1 (by decide),
          show W4 m ρ c (Proc.devRef .tc main_v1) = W3 m ρ c (Proc.devRef .tc main_v1) from by stretch_keeps,
          W3_v1 m ρ c,
          show W5 m ρ c (Proc.devRef .tc main_v21_1) = (dat0 (V4 m ρ) c).arrAt 15 cfg0.N from W5_arr m ρ c 15]

/-! ## Where the results end -/

/-- The new node features end at what the second call leaves in its output array. -/
theorem W7_v34 (c : Dev nD) : W7 m ρ c (Proc.devRef .tc main_v34) = (dat1 (V6 m ρ) c).arrAt 11 cfg1.N := W7_arr m ρ c 11

/-- The new edge features end at what the first call leaves in its first output array: neither the stretch between the
    calls nor the second call writes that array. -/
theorem W7_v21_0 (c : Dev nD) : W7 m ρ c (Proc.devRef .tc main_v21_0) = (dat0 (V4 m ρ) c).arrAt 14 cfg0.N :=
  calc W7 m ρ c (Proc.devRef .tc main_v21_0)
    _ = W6 m ρ c (Proc.devRef .tc main_v21_0) := W7_of_ne m ρ c main_v21_0 (by decide)
    _ = W5 m ρ c (Proc.devRef .tc main_v21_0) := by stretch_keeps
    _ = _ := W5_arr m ρ c 14

end Cert.KernelIdeal.HostFold

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.TakeRows.lean ====
/-
  The kernel's gathers are the reference's, on the index range.

  The kernel gathers with the filling gather of `jnp.take` (a fill value on rows whose wrapped index falls outside
  `[0, 99999]`), the reference with the plain gather of the same wrapped index column. When every index word lies in
  `[−100000, 100000)` no row is filled, and the two are the same array.
-/
import proofs.«424816_j40346922778973_1_alg».proof.Proof.HostFold
import proofs.«424816_j40346922778973_1_alg».proof.Proof.LibTakeFill

noncomputable section

namespace Cert.KernelIdeal.HostFold

open Idealize.ShloMosaic Cert.KernelIdeal Cert.KernelIdeal.Gen

/-- On the index range the filling gather is the plain gather of the wrapped index column. -/
theorem takeRows_eq (x : FVec Ideal S100000x128 .f32) (idx : IVec S500000 32)
    (hidx : ∀ e : S500000.Idx, -(100000 : ℤ) ≤ (idx e).toInt ∧ (idx e).toInt < (100000 : ℤ)) :
    takeRows x idx = gathered x idx := by
  unfold takeRows
  exact Cert.LibTakeFill.take_fill_eq (α := EReal) (E := 500000) (C := 128) 100000 100000#32 99999#32 bcast_S_S500000 bcast_S500000_S500000x1_0
    bcast_S_S500000x1 bcast_S1_S1x1_1 bcast_S1x1_S500000x1_0_1 reducesTo_S500000x1_S500000_d1 h_S_
    bcast_S500000_S500000x128_0 (by decide) (by decide) rfl rfl idx hidx _ _

/-- A row of the edge index inherits the range of the whole index array. -/
theorem srcIdx_range (a1 : IVec S2x500000 32)
    (h : ∀ i : S2x500000.Idx, -(100000 : ℤ) ≤ (a1 i).toInt ∧ (a1 i).toInt < (100000 : ℤ)) :
    ∀ e : S500000.Idx, -(100000 : ℤ) ≤ (srcIdx a1 e).toInt ∧ (srcIdx a1 e).toInt < (100000 : ℤ) :=
  fun _ => h _

theorem dstIdx_range (a1 : IVec S2x500000 32)
    (h : ∀ i : S2x500000.Idx, -(100000 : ℤ) ≤ (a1 i).toInt ∧ (a1 i).toInt < (100000 : ℤ)) :
    ∀ e : S500000.Idx, -(100000 : ℤ) ≤ (dstIdx a1 e).toInt ∧ (dstIdx a1 e).toInt < (100000 : ℤ) :=
  fun _ => h _

end Cert.KernelIdeal.HostFold

end
-- ==== Proof.Spec.lean ====
/-
  The message-passing block, one row at a time, on the extended reals.

  Every stage of the block is a two-layer perceptron applied to each row independently:
  `relu (v · W₁ + b₁) · W₂ + b₂`, where the first layer's input row `v` is a concatenation of two or three rows of
  width 128. A product of a concatenated row with a matrix is the sum of the products of the pieces with the matching
  row-blocks of the matrix; on the extended reals this needs nothing but commutativity and associativity of the sum, so it
  holds at the infinities too. The definitions here write the first layer in that split form; `sum_split3` and
  `sum_split2` are the two regroupings of a sum over 384 or 256 contraction indices into blocks of 128.
-/
import Mathlib.Algebra.BigOperators.Fin
import Mathlib.Data.EReal.Basic
import Idealize.ShloMosaic.Lib.ValueIdx

noncomputable section

namespace Cert.GraphNet

/-- The rectifier on the extended reals. -/
def relu (x : EReal) : EReal := max x 0

/-- A row of width `K` against column `j` of a `K × 128` matrix: `∑ₖ v k · W k j`. -/
def rowDot {K : ℕ} (v : Fin K → EReal) (W : Fin K → Fin 128 → EReal) (j : Fin 128) : EReal := ∑ k : Fin K, v k * W k j

/-- The second layer on a hidden row `h`: `h · W₂ + b₂`. -/
def outLayer (h : Fin 128 → EReal) (W2 : Fin 128 → Fin 128 → EReal) (b2 : Fin 128 → EReal) (j : Fin 128) : EReal :=
  rowDot h W2 j + b2 j

/-- The perceptron on one row: `relu (a · W + b₁) · W₂ + b₂`. -/
def mlp1 (a : Fin 128 → EReal) (W : Fin 128 → Fin 128 → EReal) (b1 : Fin 128 → EReal)
    (W2 : Fin 128 → Fin 128 → EReal) (b2 : Fin 128 → EReal) : Fin 128 → EReal :=
  outLayer (fun k => relu (rowDot a W k + b1 k)) W2 b2

/-- The perceptron on the concatenation of two rows, the first layer split by row-blocks:
    `relu ((a · Wa + b · Wb) + b₁) · W₂ + b₂`. -/
def mlp2 (a b : Fin 128 → EReal) (Wa Wb : Fin 128 → Fin 128 → EReal) (b1 : Fin 128 → EReal)
    (W2 : Fin 128 → Fin 128 → EReal) (b2 : Fin 128 → EReal) : Fin 128 → EReal :=
  outLayer (fun k => relu ((rowDot a Wa k + rowDot b Wb k) + b1 k)) W2 b2

/-- The perceptron on the concatenation of three rows:
    `relu (((a · Wa + b · Wb) + c · Wc) + b₁) · W₂ + b₂`. -/
def mlp3 (a b c : Fin 128 → EReal) (Wa Wb Wc : Fin 128 → Fin 128 → EReal) (b1 : Fin 128 → EReal)
    (W2 : Fin 128 → Fin 128 → EReal) (b2 : Fin 128 → EReal) : Fin 128 → EReal :=
  outLayer (fun k => relu (((rowDot a Wa k + rowDot b Wb k) + rowDot c Wc k) + b1 k)) W2 b2

/-- The node update on one row: the perceptron `γ` on the concatenation of the node's row and its aggregated messages,
    plus the perceptron `β` of that result. -/
def nodeRow (x ag : Fin 128 → EReal) (Gx Ga : Fin 128 → Fin 128 → EReal) (gb1 : Fin 128 → EReal)
    (G2 : Fin 128 → Fin 128 → EReal) (gb2 : Fin 128 → EReal) (B1 : Fin 128 → Fin 128 → EReal) (bb1 : Fin 128 → EReal)
    (B2 : Fin 128 → Fin 128 → EReal) (bb2 : Fin 128 → EReal) : Fin 128 → EReal := fun j =>
  mlp2 x ag Gx Ga gb1 G2 gb2 j + mlp1 (mlp2 x ag Gx Ga gb1 G2 gb2) B1 bb1 B2 bb2 j

/-! ## Arrays as functions of a row and a column -/

open Idealize.ShloMosaic Idealize.ShloMosaic.ValueIdx

/-- The entry of a rank-2 array at row `a`, column `b`. -/
abbrev toRows {R C : ℕ} (X : (⟨2, ![R, C]⟩ : Shape).Idx → EReal) (a : Fin R) (b : Fin C) : EReal := X (ix2 a b)

/-- The rank-2 array whose entry at row `a`, column `b` is `f a b`. -/
def ofRows {R C : ℕ} (f : Fin R → Fin C → EReal) : (⟨2, ![R, C]⟩ : Shape).Idx → EReal :=
  fun i => f ⟨(i 0).val, (i 0).isLt⟩ ⟨(i 1).val, (i 1).isLt⟩

theorem ofRows_ix2 {R C : ℕ} (f : Fin R → Fin C → EReal) (a : Fin R) (b : Fin C) : ofRows f (ix2 a b) = f a b := rfl

/-- Two rank-2 arrays with the same entries are equal. -/
theorem ext_rows {R C : ℕ} {X Y : (⟨2, ![R, C]⟩ : Shape).Idx → EReal} (h : ∀ a b, X (ix2 a b) = Y (ix2 a b)) : X = Y := by
  funext i
  rw [eq_ix2 i]
  exact h _ _

/-- The new edge features: on each edge, the three-piece perceptron of the edge's source row, target row and
    attribute row. -/
def edgeArr (xr xc ea : Fin 500000 → Fin 128 → EReal) (Wr Wc We : Fin 128 → Fin 128 → EReal) (b1 : Fin 128 → EReal)
    (W2 : Fin 128 → Fin 128 → EReal) (b2 : Fin 128 → EReal) : (⟨2, ![500000, 128]⟩ : Shape).Idx → EReal :=
  ofRows fun e j => mlp3 (xr e) (xc e) (ea e) Wr Wc We b1 W2 b2 j

/-- The messages: on each edge, the two-piece perceptron of the edge's target row and its new feature row. -/
def msgArr (xc ne : Fin 500000 → Fin 128 → EReal) (Pc Pe : Fin 128 → Fin 128 → EReal) (b1 : Fin 128 → EReal)
    (P2 : Fin 128 → Fin 128 → EReal) (b2 : Fin 128 → EReal) : (⟨2, ![500000, 128]⟩ : Shape).Idx → EReal :=
  ofRows fun e j => mlp2 (xc e) (ne e) Pc Pe b1 P2 b2 j

/-- The new node features: on each node, `nodeRow` of the node's row and its aggregated messages. -/
def nodeArr (x ag : Fin 100000 → Fin 128 → EReal) (Gx Ga : Fin 128 → Fin 128 → EReal) (gb1 : Fin 128 → EReal)
    (G2 : Fin 128 → Fin 128 → EReal) (gb2 : Fin 128 → EReal) (B1 : Fin 128 → Fin 128 → EReal) (bb1 : Fin 128 → EReal)
    (B2 : Fin 128 → Fin 128 → EReal) (bb2 : Fin 128 → EReal) : (⟨2, ![100000, 128]⟩ : Shape).Idx → EReal :=
  ofRows fun n j => nodeRow (x n) (ag n) Gx Ga gb1 G2 gb2 B1 bb1 B2 bb2 j

/-- A sum over 256 indices is the sum over the first 128 plus the sum over the last 128. -/
theorem sum_split2 (f : Fin 256 → EReal) :
    ∑ i : Fin 256, f i
      = (∑ q : Fin 128, f ⟨q.val, by omega⟩) + ∑ q : Fin 128, f ⟨128 + q.val, by omega⟩ := by
  have h := Fin.sum_univ_add (M := EReal) (a := 128) (b := 128) f
  rw [h]
  rfl

/-- A sum over 384 indices is the sum of the sums over its three blocks of 128. -/
theorem sum_split3 (f : Fin 384 → EReal) :
    ∑ i : Fin 384, f i
      = ((∑ q : Fin 128, f ⟨q.val, by omega⟩) + ∑ q : Fin 128, f ⟨128 + q.val, by omega⟩)
        + ∑ q : Fin 128, f ⟨256 + q.val, by omega⟩ := by
  have h := Fin.sum_univ_add (M := EReal) (a := 256) (b := 128) f
  rw [h]
  have h2 := sum_split2 (fun i : Fin 256 => f (Fin.castAdd 128 i))
  rw [h2]
  rfl

end Cert.GraphNet

end
-- ==== Proof.KernelPay.lean ====
/-
  The kernels' arithmetic, read at an index.

  Each body computes, on a block of 5000 rows, perceptrons whose matrix products are taken block by block against
  128 × 128 weight matrices. Read at row `p`, column `j` of the block, on the extended reals (where a change of float
  format is the identity and a matrix product into a zero accumulator is the plain sum of products), each stored value is
  the row perceptron of `Cert.GraphNet` applied to row `p` of the loaded blocks.
-/
import proofs.«424816_j40346922778973_1_alg».proof.Proof.Gen.KernelIdeal.Skeleton
import proofs.«424816_j40346922778973_1_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic

noncomputable section

namespace Cert.KernelIdeal.Pay

open Idealize.ShloMosaic Idealize.ShloMosaic.ValueIdx Cert.KernelIdeal Cert.KernelIdeal.Gen Cert.GraphNet

/-! ## The block product, the bias row and the zero splat at an index -/

/-- The left operand's index of the block product keeps the output's row. -/
theorem mm_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem mm_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem mm_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's index keeps the output's column. -/
theorem mm_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, read at row `p`, column `j`: `∑ₖ a p k · b k j`. -/
theorem mm_apply {φ₁ φ₂ : FTy} (a : FVec Ideal S5000x128 φ₁) (b : FVec Ideal S128x128 φ₂) (p : Fin 5000) (j : Fin 128) :
    matmul dot_S5000x128_S128x128_S5000x128_1_0_0_1_n_n none a b (constant (F := Ideal) S5000x128 .f32 0x00000000#32) (ix2 p j)
      = ∑ k : Fin 128, a (ix2 p k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun c => Fin.ext (by
    match c with
    | ⟨0, _⟩ => exact mm_lhs_row _ _
    | ⟨1, _⟩ => exact (mm_lhs_col _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun c => Fin.ext (by
    match c with
    | ⟨0, _⟩ => exact (mm_rhs_row _ _).trans hk
    | ⟨1, _⟩ => exact mm_rhs_col _ _)
  rw [el, er]

/-- A bias row spread over the rows of the block reads, at row `p`, column `j`, the row's entry at column `j`. -/
theorem bias_apply (v : FVec Ideal S1x128 .f32) (p : Fin 5000) (j : Fin 128) :
    broadcastTo S5000x128 v broadcasts_S1x128_S5000x128 (ix2 p j) = v (ix2 0 j) := by
  refine broadcastTo_apply v _ _ _ fun c => ?_
  match c with
  | ⟨0, _⟩ => rfl
  | ⟨1, _⟩ => rfl

/-- The splat the rectifier compares with is the extended real `0` at every index. -/
theorem zero_splat_apply (i : S5000x128.Idx) :
    broadcast S5000x128 (Scalar.ofBits (F := Ideal) .f32 0x00000000#32) i = 0 := by
  rw [broadcast_apply]
  exact Ideal.ofBits_zero_f32

/-! ## The three stored values -/

/-- The edge kernel's first stored value (the new edge features) at row `p`, column `j` of the block. -/
theorem edge_apply (v0 v3 v6 : Vec Ideal S5000x128 .f32) (v8 v11 v14 : Vec Ideal S128x128 .f32) (v22 : Vec Ideal S1x128 .f32)
    (v28 : Vec Ideal S128x128 .f32) (v32 : Vec Ideal S1x128 .f32) (p : Fin 5000) (j : Fin 128) :
    k0_pay3 v0 v3 v6 v8 v11 v14 v22 v28 v32 (ix2 p j)
      = mlp3 (toRows v0 p) (toRows v3 p) (toRows v6 p) (toRows v8) (toRows v11) (toRows v14) (toRows v22 0)
          (toRows v28) (toRows v32 0) j := by
  unfold k0_pay3 k0_pay2
  simp only [shapeCast_self, addf_apply, maximumf_apply, truncf_apply, mm_apply, bias_apply, zero_splat_apply]
  rfl

/-- The edge kernel's second stored value (the messages) at row `p`, column `j`, from the target rows `v3` and the
    new edge features `ne` of the block. -/
theorem msg_apply (v3 : Vec Ideal S5000x128 .f32) (ne : FVec Ideal S5000x128 .f32) (v37 v40 : Vec Ideal S128x128 .f32)
    (v47 : Vec Ideal S1x128 .f32) (v53 : Vec Ideal S128x128 .f32) (v57 : Vec Ideal S1x128 .f32) (p : Fin 5000) (j : Fin 128) :
    k0_pay1 (k0_pay2 v3) ne v37 v40 v47 v53 v57 (ix2 p j)
      = mlp2 (toRows v3 p) (toRows ne p) (toRows v37) (toRows v40) (toRows v47 0) (toRows v53) (toRows v57 0) j := by
  unfold k0_pay1 k0_pay2
  simp only [shapeCast_self, addf_apply, maximumf_apply, truncf_apply, mm_apply, bias_apply, zero_splat_apply]
  rfl

/-- The node kernel's stored value at row `p`, column `j` of the block. -/
theorem node_apply (v0 v2 : Vec Ideal S5000x128 .f32) (v5 v8 : Vec Ideal S128x128 .f32) (v14 : Vec Ideal S1x128 .f32)
    (v20 : Vec Ideal S128x128 .f32) (v24 : Vec Ideal S1x128 .f32) (v29 : Vec Ideal S128x128 .f32) (v32 : Vec Ideal S1x128 .f32)
    (v38 : Vec Ideal S128x128 .f32) (v42 : Vec Ideal S1x128 .f32) (p : Fin 5000) (j : Fin 128) :
    k1_pay1 (k1_pay2 v0 v2 v5 v8 v14 v20 v24) (k1_pay3 v0 v2 v5 v8 v14 v20 v24 v29 v32) v38 v42 (ix2 p j)
      = nodeRow (toRows v0 p) (toRows v2 p) (toRows v5) (toRows v8) (toRows v14 0) (toRows v20) (toRows v24 0)
          (toRows v29) (toRows v32 0) (toRows v38) (toRows v42 0) j := by
  unfold k1_pay1 k1_pay3 k1_pay2
  simp only [shapeCast_self, addf_apply, maximumf_apply, truncf_apply, mm_apply, bias_apply, zero_splat_apply]
  rfl

end Cert.KernelIdeal.Pay

end
-- ==== Proof.Blocks.lean ====
/-
  From blocks to arrays: what each pallas_call leaves in its output arrays.

  Every output window's block at grid point `t` is rows `5000 t … 5000 t + 4999` of its array, written back at every
  point, so the blocks tile the array; each input window of 5000 rows moves with it and each weight or bias window is the
  whole of its (small) array at every point. Hence each output array ends holding, row by row, the row perceptron of the
  same rows of the input arrays as the call finds them.
-/
import proofs.«424816_j40346922778973_1_alg».proof.Proof.Gen.KernelIdeal.Frame
import proofs.«424816_j40346922778973_1_alg».proof.Proof.KernelPay
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.GraphNet

variable (V : (c : Dev nD) → (b : Ref sig .tc) → Buf (Elt Ideal) ((c : Thread nD τ).loc b))

/-- The rectangle of a whole block starts at the origin. -/
theorem origin : (![0, 0] : Fin 2 → Nat) = fun _ => 0 := funext fun a => by fin_cases a <;> rfl

/-! ## The first call: 100 points; block `t` is rows `5000 t … 5000 t + 4999` of the 500000 edges

An element of a block sits in its array, on each axis, at the block index times the block's size plus its coordinate
inside the block. The block index of each 5000-row window at point `t` is `(t, 0)`, that of each weight or bias window
`(0, 0)`: both read off the index maps over the 100 points. -/

theorem edge_point_lt (t : Fin cfg0.N) : t.val < 100 := Nat.lt_of_lt_of_eq t.isLt N_0

/-- Row `p` of block `t` as a row of the edge arrays: row `5000 t + p`. -/
def edgeBlockRow (t : Fin cfg0.N) (p : Fin 5000) : Fin 500000 :=
  ⟨t.val * 5000 + p.val, by have := edge_point_lt t; have := p.isLt; omega⟩

/-- Row `p` of the source-feature block at point `t` is row `5000 t + p` of the source features. -/
theorem blk0_0 (c : Dev nD) (t : Fin cfg0.N) (p : Fin 5000) :
    toRows (iblk0 V c 0 t) p = toRows (V c main_v4) (edgeBlockRow t p) := by
  obtain ⟨e0, e1⟩ := (by decide +kernel : ∀ t : Fin grid0.N, win0_0.index t (0 : Fin 2) = t.val ∧ win0_0.index t (1 : Fin 2) = 0) t
  funext k
  refine congrArg (V c main_v4) (funext fun d => Fin.ext ?_)
  match d with
  | ⟨0, _⟩ => show win0_0.index t (0 : Fin 2) * 5000 + 1 * p.val = t.val * 5000 + p.val; omega
  | ⟨1, _⟩ => show win0_0.index t (1 : Fin 2) * 128 + 1 * k.val = k.val; omega

/-- Row `p` of the target-feature block at point `t` is row `5000 t + p` of the target features. -/
theorem blk0_1 (c : Dev nD) (t : Fin cfg0.N) (p : Fin 5000) :
    toRows (iblk0 V c 1 t) p = toRows (V c main_v5) (edgeBlockRow t p) := by
  obtain ⟨e0, e1⟩ := (by decide +kernel : ∀ t : Fin grid0.N, win0_1.index t (0 : Fin 2) = t.val ∧ win0_1.index t (1 : Fin 2) = 0) t
  funext k
  refine congrArg (V c main_v5) (funext fun d => Fin.ext ?_)
  match d with
  | ⟨0, _⟩ => show win0_1.index t (0 : Fin 2) * 5000 + 1 * p.val = t.val * 5000 + p.val; omega
  | ⟨1, _⟩ => show win0_1.index t (1 : Fin 2) * 128 + 1 * k.val = k.val; omega

/-- Row `p` of the edge-attribute block at point `t` is row `5000 t + p` of the edge attributes. -/
theorem blk0_2 (c : Dev nD) (t : Fin cfg0.N) (p : Fin 5000) :
    toRows (iblk0 V c 2 t) p = toRows (V c main_arg2) (edgeBlockRow t p) := by
  obtain ⟨e0, e1⟩ := (by decide +kernel : ∀ t : Fin grid0.N, win0_2.index t (0 : Fin 2) = t.val ∧ win0_2.index t (1 : Fin 2) = 0) t
  funext k
  refine congrArg (V c main_arg2) (funext fun d => Fin.ext ?_)
  match d with
  | ⟨0, _⟩ => show win0_2.index t (0 : Fin 2) * 5000 + 1 * p.val = t.val * 5000 + p.val; omega
  | ⟨1, _⟩ => show win0_2.index t (1 : Fin 2) * 128 + 1 * k.val = k.val; omega

/-- The edge perceptron's first-layer weights for the source rows: the block is the whole matrix at every point. -/
theorem blk0_3 (c : Dev nD) (t : Fin cfg0.N) : toRows (iblk0 V c 3 t) = toRows (V c main_v6) := by
  obtain ⟨e0, e1⟩ := (by decide +kernel : ∀ t : Fin grid0.N, win0_3.index t (0 : Fin 2) = 0 ∧ win0_3.index t (1 : Fin 2) = 0) t
  funext a b
  refine congrArg (V c main_v6) (funext fun d => Fin.ext ?_)
  match d with
  | ⟨0, _⟩ => show win0_3.index t (0 : Fin 2) * 128 + 1 * a.val = a.val; omega
  | ⟨1, _⟩ => show win0_3.index t (1 : Fin 2) * 128 + 1 * b.val = b.val; omega

/-- The edge perceptron's first-layer weights for the target rows: the whole matrix at every point. -/
theorem blk0_4 (c : Dev nD) (t : Fin cfg0.N) : toRows (iblk0 V c 4 t) = toRows (V c main_v7) := by
  obtain ⟨e0, e1⟩ := (by decide +kernel : ∀ t : Fin grid0.N, win0_4.index t (0 : Fin 2) = 0 ∧ win0_4.index t (1 : Fin 2) = 0) t
  funext a b
  refine congrArg (V c main_v7) (funext fun d => Fin.ext ?_)
  match d with
  | ⟨0, _⟩ => show win0_4.index t (0 : Fin 2) * 128 + 1 * a.val = a.val; omega
  | ⟨1, _⟩ => show win0_4.index t (1 : Fin 2) * 128 + 1 * b.val = b.val; omega

/-- The edge perceptron's first-layer weights for the attribute rows: the whole matrix at every point. -/
theorem blk0_5 (c : Dev nD) (t : Fin cfg0.N) : toRows (iblk0 V c 5 t) = toRows (V c main_v8) := by
  obtain ⟨e0, e1⟩ := (by decide +kernel : ∀ t : Fin grid0.N, win0_5.index t (0 : Fin 2) = 0 ∧ win0_5.index t (1 : Fin 2) = 0) t
  funext a b
  refine congrArg (V c main_v8) (funext fun d => Fin.ext ?_)
  match d with
  | ⟨0, _⟩ => show win0_5.index t (0 : Fin 2) * 128 + 1 * a.val = a.val; omega
  | ⟨1, _⟩ => show win0_5.index t (1 : Fin 2) * 128 + 1 * b.val = b.val; omega

/-- The edge perceptron's first bias: the whole row at every point. -/
theorem blk0_6 (c : Dev nD) (t : Fin cfg0.N) : toRows (iblk0 V c 6 t) 0 = toRows (V c main_v13) 0 := by
  obtain ⟨e0, e1⟩ := (by decide +kernel : ∀ t : Fin grid0.N, win0_6.index t (0 : Fin 2) = 0 ∧ win0_6.index t (1 : Fin 2) = 0) t
  funext b
  refine congrArg (V c main_v13) (funext fun d => Fin.ext ?_)
  match d with
  | ⟨0, _⟩ => show win0_6.index t (0 : Fin 2) * 1 + 1 * 0 = 0; omega
  | ⟨1, _⟩ => show win0_6.index t (1 : Fin 2) * 128 + 1 * b.val = b.val; omega

/-- The edge perceptron's second-layer weights: the whole matrix at every point. -/
theorem blk0_7 (c : Dev nD) (t : Fin cfg0.N) : toRows (iblk0 V c 7 t) = toRows (V c main_arg5) := by
  obtain ⟨e0, e1⟩ := (by decide +kernel : ∀ t : Fin grid0.N, win0_7.index t (0 : Fin 2) = 0 ∧ win0_7.index t (1 : Fin 2) = 0) t
  funext a b
  refine congrArg (V c main_arg5) (funext fun d => Fin.ext ?_)
  match d with
  | ⟨0, _⟩ => show win0_7.index t (0 : Fin 2) * 128 + 1 * a.val = a.val; omega
  | ⟨1, _⟩ => show win0_7.index t (1 : Fin 2) * 128 + 1 * b.val = b.val; omega

/-- The edge perceptron's second bias: the whole row at every point. -/
theorem blk0_8 (c : Dev nD) (t : Fin cfg0.N) : toRows (iblk0 V c 8 t) 0 = toRows (V c main_v14) 0 := by
  obtain ⟨e0, e1⟩ := (by decide +kernel : ∀ t : Fin grid0.N, win0_8.index t (0 : Fin 2) = 0 ∧ win0_8.index t (1 : Fin 2) = 0) t
  funext b
  refine congrArg (V c main_v14) (funext fun d => Fin.ext ?_)
  match d with
  | ⟨0, _⟩ => show win0_8.index t (0 : Fin 2) * 1 + 1 * 0 = 0; omega
  | ⟨1, _⟩ => show win0_8.index t (1 : Fin 2) * 128 + 1 * b.val = b.val; omega

/-- The message perceptron's first-layer weights for the target rows: the whole matrix at every point. -/
theorem blk0_9 (c : Dev nD) (t : Fin cfg0.N) : toRows (iblk0 V c 9 t) = toRows (V c main_v9) := by
  obtain ⟨e0, e1⟩ := (by decide +kernel : ∀ t : Fin grid0.N, win0_9.index t (0 : Fin 2) = 0 ∧ win0_9.index t (1 : Fin 2) = 0) t
  funext a b
  refine congrArg (V c main_v9) (funext fun d => Fin.ext ?_)
  match d with
  | ⟨0, _⟩ => show win0_9.index t (0 : Fin 2) * 128 + 1 * a.val = a.val; omega
  | ⟨1, _⟩ => show win0_9.index t (1 : Fin 2) * 128 + 1 * b.val = b.val; omega

/-- The message perceptron's first-layer weights for the new edge rows: the whole matrix at every point. -/
theorem blk0_10 (c : Dev nD) (t : Fin cfg0.N) : toRows (iblk0 V c 10 t) = toRows (V c main_v10) := by
  obtain ⟨e0, e1⟩ := (by decide +kernel : ∀ t : Fin grid0.N, win0_10.index t (0 : Fin 2) = 0 ∧ win0_10.index t (1 : Fin 2) = 0) t
  funext a b
  refine congrArg (V c main_v10) (funext fun d => Fin.ext ?_)
  match d with
  | ⟨0, _⟩ => show win0_10.index t (0 : Fin 2) * 128 + 1 * a.val = a.val; omega
  | ⟨1, _⟩ => show win0_10.index t (1 : Fin 2) * 128 + 1 * b.val = b.val; omega

/-- The message perceptron's first bias: the whole row at every point. -/
theorem blk0_11 (c : Dev nD) (t : Fin cfg0.N) : toRows (iblk0 V c 11 t) 0 = toRows (V c main_v15) 0 := by
  obtain ⟨e0, e1⟩ := (by decide +kernel : ∀ t : Fin grid0.N, win0_11.index t (0 : Fin 2) = 0 ∧ win0_11.index t (1 : Fin 2) = 0) t
  funext b
  refine congrArg (V c main_v15) (funext fun d => Fin.ext ?_)
  match d with
  | ⟨0, _⟩ => show win0_11.index t (0 : Fin 2) * 1 + 1 * 0 = 0; omega
  | ⟨1, _⟩ => show win0_11.index t (1 : Fin 2) * 128 + 1 * b.val = b.val; omega

/-- The message perceptron's second-layer weights: the whole matrix at every point. -/
theorem blk0_12 (c : Dev nD) (t : Fin cfg0.N) : toRows (iblk0 V c 12 t) = toRows (V c main_arg9) := by
  obtain ⟨e0, e1⟩ := (by decide +kernel : ∀ t : Fin grid0.N, win0_12.index t (0 : Fin 2) = 0 ∧ win0_12.index t (1 : Fin 2) = 0) t
  funext a b
  refine congrArg (V c main_arg9) (funext fun d => Fin.ext ?_)
  match d with
  | ⟨0, _⟩ => show win0_12.index t (0 : Fin 2) * 128 + 1 * a.val = a.val; omega
  | ⟨1, _⟩ => show win0_12.index t (1 : Fin 2) * 128 + 1 * b.val = b.val; omega

/-- The message perceptron's second bias: the whole row at every point. -/
theorem blk0_13 (c : Dev nD) (t : Fin cfg0.N) : toRows (iblk0 V c 13 t) 0 = toRows (V c main_v16) 0 := by
  obtain ⟨e0, e1⟩ := (by decide +kernel : ∀ t : Fin grid0.N, win0_13.index t (0 : Fin 2) = 0 ∧ win0_13.index t (1 : Fin 2) = 0) t
  funext b
  refine congrArg (V c main_v16) (funext fun d => Fin.ext ?_)
  match d with
  | ⟨0, _⟩ => show win0_13.index t (0 : Fin 2) * 1 + 1 * 0 = 0; omega
  | ⟨1, _⟩ => show win0_13.index t (1 : Fin 2) * 128 + 1 * b.val = b.val; omega

/-- Element `(p, j)` of the new-edge-feature block at point `t` is element `(5000 t + p, j)` of its array. -/
theorem emb0_14 (t : Fin cfg0.N) (p : Fin 5000) (j : Fin 128) :
    ((cfg0.win 14).blk t).view.emb (ix2 p j) = ix2 (edgeBlockRow t p) j := by
  obtain ⟨e0, e1⟩ := (by decide +kernel : ∀ t : Fin grid0.N, win0_14.index t (0 : Fin 2) = t.val ∧ win0_14.index t (1 : Fin 2) = 0) t
  funext d; apply Fin.ext
  match d with
  | ⟨0, _⟩ => show win0_14.index t (0 : Fin 2) * 5000 + 1 * p.val = t.val * 5000 + p.val; omega
  | ⟨1, _⟩ => show win0_14.index t (1 : Fin 2) * 128 + 1 * j.val = j.val; omega

/-- Element `(p, j)` of the message block at point `t` is element `(5000 t + p, j)` of its array. -/
theorem emb0_15 (t : Fin cfg0.N) (p : Fin 5000) (j : Fin 128) :
    ((cfg0.win 15).blk t).view.emb (ix2 p j) = ix2 (edgeBlockRow t p) j := by
  obtain ⟨e0, e1⟩ := (by decide +kernel : ∀ t : Fin grid0.N, win0_15.index t (0 : Fin 2) = t.val ∧ win0_15.index t (1 : Fin 2) = 0) t
  funext d; apply Fin.ext
  match d with
  | ⟨0, _⟩ => show win0_15.index t (0 : Fin 2) * 5000 + 1 * p.val = t.val * 5000 + p.val; omega
  | ⟨1, _⟩ => show win0_15.index t (1 : Fin 2) * 128 + 1 * j.val = j.val; omega

/-- Row `p` of what the body computes for the first output at point `t` is row `5000 t + p` of the edge perceptron of
    the arrays as the call finds them. -/
theorem edge_rows (c : Dev nD) (t : Fin cfg0.N) (p : Fin 5000) :
    toRows (k0_pay3 (iblk0 V c 0 t) (iblk0 V c 1 t) (iblk0 V c 2 t) (iblk0 V c 3 t) (iblk0 V c 4 t) (iblk0 V c 5 t)
        (iblk0 V c 6 t) (iblk0 V c 7 t) (iblk0 V c 8 t)) p
      = toRows (edgeArr (toRows (V c main_v4)) (toRows (V c main_v5)) (toRows (V c main_arg2)) (toRows (V c main_v6))
          (toRows (V c main_v7)) (toRows (V c main_v8)) (toRows (V c main_v13) 0) (toRows (V c main_arg5))
          (toRows (V c main_v14) 0)) (edgeBlockRow t p) := by
  funext k
  refine (Pay.edge_apply (iblk0 V c 0 t) (iblk0 V c 1 t) (iblk0 V c 2 t) (iblk0 V c 3 t) (iblk0 V c 4 t) (iblk0 V c 5 t)
        (iblk0 V c 6 t) (iblk0 V c 7 t) (iblk0 V c 8 t) p k).trans ?_
  rw [blk0_0, blk0_1, blk0_2, blk0_3, blk0_4, blk0_5, blk0_6, blk0_7, blk0_8]
  rfl

/-- What point `t` writes back to the first output array is block `t` of the edge perceptron's array. -/
theorem flushed_edge (c : Dev nD) (t : Fin cfg0.N) :
    (dat0 (F := Ideal) V c).flushed 14 t = ((cfg0.win 14).blk t).view.read (Elt Ideal)
      (edgeArr (toRows (V c main_v4)) (toRows (V c main_v5)) (toRows (V c main_arg2)) (toRows (V c main_v6))
          (toRows (V c main_v7)) (toRows (V c main_v8)) (toRows (V c main_v13) 0) (toRows (V c main_arg5))
          (toRows (V c main_v14) 0)) := by
  show (cfg0.win 14).cut (grid0.coords t) ((dat0 (F := Ideal) V c).after 14 t) = _
  rw [after0_14]
  unfold out0_14
  rw [View.canon_unit_zero origin]
  simp only [View.ld_unit_zero (S := S5000x128) origin, View.ld_unit_zero (S := S128x128) origin,
    View.ld_unit_zero (S := S1x128) origin]
  funext y
  obtain ⟨p, j, rfl⟩ : ∃ (p : Fin 5000) (j : Fin 128), y = ix2 p j := ⟨y 0, y 1, eq_ix2 y⟩
  show k0_pay3 (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p j)
      = edgeArr (toRows (V c main_v4)) (toRows (V c main_v5)) (toRows (V c main_arg2)) (toRows (V c main_v6))
          (toRows (V c main_v7)) (toRows (V c main_v8)) (toRows (V c main_v13) 0) (toRows (V c main_arg5))
          (toRows (V c main_v14) 0) (((cfg0.win 14).blk t).view.emb (ix2 p j))
  rw [emb0_14 t p j]
  exact congrFun (edge_rows V c t p) j

/-- What point `t` writes back to the second output array is block `t` of the message perceptron's array, whose second
    input rows are the new edge features just computed. -/
theorem flushed_msg (c : Dev nD) (t : Fin cfg0.N) :
    (dat0 (F := Ideal) V c).flushed 15 t = ((cfg0.win 15).blk t).view.read (Elt Ideal)
      (msgArr (toRows (V c main_v5))
          (toRows (edgeArr (toRows (V c main_v4)) (toRows (V c main_v5)) (toRows (V c main_arg2)) (toRows (V c main_v6))
            (toRows (V c main_v7)) (toRows (V c main_v8)) (toRows (V c main_v13) 0) (toRows (V c main_arg5))
            (toRows (V c main_v14) 0)))
          (toRows (V c main_v9)) (toRows (V c main_v10)) (toRows (V c main_v15) 0) (toRows (V c main_arg9))
          (toRows (V c main_v16) 0)) := by
  show (cfg0.win 15).cut (grid0.coords t) ((dat0 (F := Ideal) V c).after 15 t) = _
  rw [after0_15]
  unfold out0_15
  rw [View.canon_unit_zero origin]
  simp only [View.ld_unit_zero (S := S5000x128) origin, View.ld_unit_zero (S := S128x128) origin,
    View.ld_unit_zero (S := S1x128) origin]
  funext y
  obtain ⟨p, j, rfl⟩ : ∃ (p : Fin 5000) (j : Fin 128), y = ix2 p j := ⟨y 0, y 1, eq_ix2 y⟩
  show k0_pay1 (k0_pay2 (iblk0 V c 1 t))
        (k0_pay3 (iblk0 V c 0 t) (iblk0 V c 1 t) (iblk0 V c 2 t) (iblk0 V c 3 t) (iblk0 V c 4 t) (iblk0 V c 5 t)
          (iblk0 V c 6 t) (iblk0 V c 7 t) (iblk0 V c 8 t))
        (iblk0 V c 9 t) (iblk0 V c 10 t) (iblk0 V c 11 t) (iblk0 V c 12 t) (iblk0 V c 13 t) (ix2 p j)
      = msgArr (toRows (V c main_v5))
          (toRows (edgeArr (toRows (V c main_v4)) (toRows (V c main_v5)) (toRows (V c main_arg2)) (toRows (V c main_v6))
            (toRows (V c main_v7)) (toRows (V c main_v8)) (toRows (V c main_v13) 0) (toRows (V c main_arg5))
            (toRows (V c main_v14) 0)))
          (toRows (V c main_v9)) (toRows (V c main_v10)) (toRows (V c main_v15) 0) (toRows (V c main_arg9))
          (toRows (V c main_v16) 0) (((cfg0.win 15).blk t).view.emb (ix2 p j))
  rw [emb0_15 t p j]
  refine (Pay.msg_apply (iblk0 V c 1 t)
        (k0_pay3 (iblk0 V c 0 t) (iblk0 V c 1 t) (iblk0 V c 2 t) (iblk0 V c 3 t) (iblk0 V c 4 t) (iblk0 V c 5 t)
          (iblk0 V c 6 t) (iblk0 V c 7 t) (iblk0 V c 8 t))
        (iblk0 V c 9 t) (iblk0 V c 10 t) (iblk0 V c 11 t) (iblk0 V c 12 t) (iblk0 V c 13 t) p j).trans ?_
  rw [blk0_1, edge_rows, blk0_9, blk0_10, blk0_11, blk0_12, blk0_13]
  rfl

/-- An index of the first output array is in point `t`'s block iff each coordinate is in the block's range on its axis. -/
theorem mem_blk0_14 (t : Fin cfg0.N) (i : S500000x128.Idx) :
    i ∈ ((cfg0.win 14).blk t).view.set ↔ ∀ a : Fin 2, win0_14.index t a * S5000x128.size a ≤ (i a).val ∧ (i a).val < win0_14.index t a * S5000x128.size a + S5000x128.size a := by
  show i ∈ ((View.whole main_v21_0).slice (win0_14.rect t)).set ↔ _
  rw [View.set_slice_whole, Rect.mem_set_unit]
  exact Iff.rfl

/-- An index of the second output array is in point `t`'s block iff each coordinate is in the block's range on its axis. -/
theorem mem_blk0_15 (t : Fin cfg0.N) (i : S500000x128.Idx) :
    i ∈ ((cfg0.win 15).blk t).view.set ↔ ∀ a : Fin 2, win0_15.index t a * S5000x128.size a ≤ (i a).val ∧ (i a).val < win0_15.index t a * S5000x128.size a + S5000x128.size a := by
  show i ∈ ((View.whole main_v21_1).slice (win0_15.rect t)).set ↔ _
  rw [View.set_slice_whole, Rect.mem_set_unit]
  exact Iff.rfl

/-- Every row `r` of the first output array is in the block of point `r / 5000`, which is written back. -/
theorem cover_edge (i : S500000x128.Idx) :
    ∃ t : Fin cfg0.N, (cfg0.win 14).flush t = true ∧ i ∈ ((cfg0.win 14).blk t).view.set := by
  have hi0 : (i 0).val < 500000 := (i 0).isLt
  have hi1 : (i 1).val < 128 := (i 1).isLt
  have hq : (i 0).val / 5000 < cfg0.N := by rw [show cfg0.N = 100 from N_0]; omega
  obtain ⟨e0, e1⟩ := (by decide +kernel : ∀ t : Fin grid0.N, win0_14.index t (0 : Fin 2) = t.val ∧ win0_14.index t (1 : Fin 2) = 0) ⟨(i 0).val / 5000, hq⟩
  refine ⟨⟨(i 0).val / 5000, hq⟩, flush0_14 _, ?_⟩
  rw [mem_blk0_14]
  intro a
  match a with
  | ⟨0, _⟩ =>
    show win0_14.index ⟨(i 0).val / 5000, hq⟩ (0 : Fin 2) * 5000 ≤ (i 0).val ∧ (i 0).val < win0_14.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_14.index ⟨(i 0).val / 5000, hq⟩ (1 : Fin 2) * 128 ≤ (i 1).val ∧ (i 1).val < win0_14.index ⟨(i 0).val / 5000, hq⟩ (1 : Fin 2) * 128 + 128
    rw [e1]; omega

/-- Every row `r` of the second output array is in the block of point `r / 5000`, which is written back. -/
theorem cover_msg (i : S500000x128.Idx) :
    ∃ t : Fin cfg0.N, (cfg0.win 15).flush t = true ∧ i ∈ ((cfg0.win 15).blk t).view.set := by
  have hi0 : (i 0).val < 500000 := (i 0).isLt
  have hi1 : (i 1).val < 128 := (i 1).isLt
  have hq : (i 0).val / 5000 < cfg0.N := by rw [show cfg0.N = 100 from N_0]; omega
  obtain ⟨e0, e1⟩ := (by decide +kernel : ∀ t : Fin grid0.N, win0_15.index t (0 : Fin 2) = t.val ∧ win0_15.index t (1 : Fin 2) = 0) ⟨(i 0).val / 5000, hq⟩
  refine ⟨⟨(i 0).val / 5000, hq⟩, flush0_15 _, ?_⟩
  rw [mem_blk0_15]
  intro a
  match a with
  | ⟨0, _⟩ =>
    show win0_15.index ⟨(i 0).val / 5000, hq⟩ (0 : Fin 2) * 5000 ≤ (i 0).val ∧ (i 0).val < win0_15.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_15.index ⟨(i 0).val / 5000, hq⟩ (1 : Fin 2) * 128 ≤ (i 1).val ∧ (i 1).val < win0_15.index ⟨(i 0).val / 5000, hq⟩ (1 : Fin 2) * 128 + 128
    rw [e1]; omega

/-- The first call's first output array (the new edge features) after the call. -/
theorem final_edge (c : Dev nD) :
    (dat0 (F := Ideal) V c).arrAt 14 cfg0.N
      = edgeArr (toRows (V c main_v4)) (toRows (V c main_v5)) (toRows (V c main_arg2)) (toRows (V c main_v6))
          (toRows (V c main_v7)) (toRows (V c main_v8)) (toRows (V c main_v13) 0) (toRows (V c main_arg5))
          (toRows (V c main_v14) 0) :=
  (dat0 (F := Ideal) V c).arrAt_eq_of_cover 14 _ (fun t _ => flushed_edge V c t) cover_edge

/-- The first call's second output array (the messages) after the call. -/
theorem final_msg (c : Dev nD) :
    (dat0 (F := Ideal) V c).arrAt 15 cfg0.N
      = msgArr (toRows (V c main_v5))
          (toRows (edgeArr (toRows (V c main_v4)) (toRows (V c main_v5)) (toRows (V c main_arg2)) (toRows (V c main_v6))
            (toRows (V c main_v7)) (toRows (V c main_v8)) (toRows (V c main_v13) 0) (toRows (V c main_arg5))
            (toRows (V c main_v14) 0)))
          (toRows (V c main_v9)) (toRows (V c main_v10)) (toRows (V c main_v15) 0) (toRows (V c main_arg9))
          (toRows (V c main_v16) 0) :=
  (dat0 (F := Ideal) V c).arrAt_eq_of_cover 15 _ (fun t _ => flushed_msg V c t) cover_msg

/-! ## The second call: 20 points; block `t` is rows `5000 t … 5000 t + 4999` of the 100000 nodes -/

theorem node_point_lt (t : Fin cfg1.N) : t.val < 20 := Nat.lt_of_lt_of_eq t.isLt N_1

/-- Row `p` of block `t` as a row of the node arrays: row `5000 t + p`. -/
def nodeBlockRow (t : Fin cfg1.N) (p : Fin 5000) : Fin 100000 :=
  ⟨t.val * 5000 + p.val, by have := node_point_lt t; have := p.isLt; omega⟩

/-- Row `p` of the node-feature block at point `t` is row `5000 t + p` of the node features. -/
theorem blk1_0 (c : Dev nD) (t : Fin cfg1.N) (p : Fin 5000) :
    toRows (iblk1 V c 0 t) p = toRows (V c main_arg0) (nodeBlockRow t p) := by
  obtain ⟨e0, e1⟩ := (by decide +kernel : ∀ t : Fin grid1.N, win1_0.index t (0 : Fin 2) = t.val ∧ win1_0.index t (1 : Fin 2) = 0) t
  funext k
  refine congrArg (V c main_arg0) (funext fun d => Fin.ext ?_)
  match d with
  | ⟨0, _⟩ => show win1_0.index t (0 : Fin 2) * 5000 + 1 * p.val = t.val * 5000 + p.val; omega
  | ⟨1, _⟩ => show win1_0.index t (1 : Fin 2) * 128 + 1 * k.val = k.val; omega

/-- Row `p` of the aggregated-message block at point `t` is row `5000 t + p` of the aggregated messages. -/
theorem blk1_1 (c : Dev nD) (t : Fin cfg1.N) (p : Fin 5000) :
    toRows (iblk1 V c 1 t) p = toRows (V c main_v33) (nodeBlockRow t p) := by
  obtain ⟨e0, e1⟩ := (by decide +kernel : ∀ t : Fin grid1.N, win1_1.index t (0 : Fin 2) = t.val ∧ win1_1.index t (1 : Fin 2) = 0) t
  funext k
  refine congrArg (V c main_v33) (funext fun d => Fin.ext ?_)
  match d with
  | ⟨0, _⟩ => show win1_1.index t (0 : Fin 2) * 5000 + 1 * p.val = t.val * 5000 + p.val; omega
  | ⟨1, _⟩ => show win1_1.index t (1 : Fin 2) * 128 + 1 * k.val = k.val; omega

/-- The first perceptron's first-layer weights for the node rows: the whole matrix at every point. -/
theorem blk1_2 (c : Dev nD) (t : Fin cfg1.N) : toRows (iblk1 V c 2 t) = toRows (V c main_v11) := by
  obtain ⟨e0, e1⟩ := (by decide +kernel : ∀ t : Fin grid1.N, win1_2.index t (0 : Fin 2) = 0 ∧ win1_2.index t (1 : Fin 2) = 0) t
  funext a b
  refine congrArg (V c main_v11) (funext fun d => Fin.ext ?_)
  match d with
  | ⟨0, _⟩ => show win1_2.index t (0 : Fin 2) * 128 + 1 * a.val = a.val; omega
  | ⟨1, _⟩ => show win1_2.index t (1 : Fin 2) * 128 + 1 * b.val = b.val; omega

/-- The first perceptron's first-layer weights for the aggregated rows: the whole matrix at every point. -/
theorem blk1_3 (c : Dev nD) (t : Fin cfg1.N) : toRows (iblk1 V c 3 t) = toRows (V c main_v12) := by
  obtain ⟨e0, e1⟩ := (by decide +kernel : ∀ t : Fin grid1.N, win1_3.index t (0 : Fin 2) = 0 ∧ win1_3.index t (1 : Fin 2) = 0) t
  funext a b
  refine congrArg (V c main_v12) (funext fun d => Fin.ext ?_)
  match d with
  | ⟨0, _⟩ => show win1_3.index t (0 : Fin 2) * 128 + 1 * a.val = a.val; omega
  | ⟨1, _⟩ => show win1_3.index t (1 : Fin 2) * 128 + 1 * b.val = b.val; omega

/-- The first perceptron's first bias: the whole row at every point. -/
theorem blk1_4 (c : Dev nD) (t : Fin cfg1.N) : toRows (iblk1 V c 4 t) 0 = toRows (V c main_v17) 0 := by
  obtain ⟨e0, e1⟩ := (by decide +kernel : ∀ t : Fin grid1.N, win1_4.index t (0 : Fin 2) = 0 ∧ win1_4.index t (1 : Fin 2) = 0) t
  funext b
  refine congrArg (V c main_v17) (funext fun d => Fin.ext ?_)
  match d with
  | ⟨0, _⟩ => show win1_4.index t (0 : Fin 2) * 1 + 1 * 0 = 0; omega
  | ⟨1, _⟩ => show win1_4.index t (1 : Fin 2) * 128 + 1 * b.val = b.val; omega

/-- The first perceptron's second-layer weights: the whole matrix at every point. -/
theorem blk1_5 (c : Dev nD) (t : Fin cfg1.N) : toRows (iblk1 V c 5 t) = toRows (V c main_arg13) := by
  obtain ⟨e0, e1⟩ := (by decide +kernel : ∀ t : Fin grid1.N, win1_5.index t (0 : Fin 2) = 0 ∧ win1_5.index t (1 : Fin 2) = 0) t
  funext a b
  refine congrArg (V c main_arg13) (funext fun d => Fin.ext ?_)
  match d with
  | ⟨0, _⟩ => show win1_5.index t (0 : Fin 2) * 128 + 1 * a.val = a.val; omega
  | ⟨1, _⟩ => show win1_5.index t (1 : Fin 2) * 128 + 1 * b.val = b.val; omega

/-- The first perceptron's second bias: the whole row at every point. -/
theorem blk1_6 (c : Dev nD) (t : Fin cfg1.N) : toRows (iblk1 V c 6 t) 0 = toRows (V c main_v18) 0 := by
  obtain ⟨e0, e1⟩ := (by decide +kernel : ∀ t : Fin grid1.N, win1_6.index t (0 : Fin 2) = 0 ∧ win1_6.index t (1 : Fin 2) = 0) t
  funext b
  refine congrArg (V c main_v18) (funext fun d => Fin.ext ?_)
  match d with
  | ⟨0, _⟩ => show win1_6.index t (0 : Fin 2) * 1 + 1 * 0 = 0; omega
  | ⟨1, _⟩ => show win1_6.index t (1 : Fin 2) * 128 + 1 * b.val = b.val; omega

/-- The second perceptron's first-layer weights: the whole matrix at every point. -/
theorem blk1_7 (c : Dev nD) (t : Fin cfg1.N) : toRows (iblk1 V c 7 t) = toRows (V c main_arg15) := by
  obtain ⟨e0, e1⟩ := (by decide +kernel : ∀ t : Fin grid1.N, win1_7.index t (0 : Fin 2) = 0 ∧ win1_7.index t (1 : Fin 2) = 0) t
  funext a b
  refine congrArg (V c main_arg15) (funext fun d => Fin.ext ?_)
  match d with
  | ⟨0, _⟩ => show win1_7.index t (0 : Fin 2) * 128 + 1 * a.val = a.val; omega
  | ⟨1, _⟩ => show win1_7.index t (1 : Fin 2) * 128 + 1 * b.val = b.val; omega

/-- The second perceptron's first bias: the whole row at every point. -/
theorem blk1_8 (c : Dev nD) (t : Fin cfg1.N) : toRows (iblk1 V c 8 t) 0 = toRows (V c main_v19) 0 := by
  obtain ⟨e0, e1⟩ := (by decide +kernel : ∀ t : Fin grid1.N, win1_8.index t (0 : Fin 2) = 0 ∧ win1_8.index t (1 : Fin 2) = 0) t
  funext b
  refine congrArg (V c main_v19) (funext fun d => Fin.ext ?_)
  match d with
  | ⟨0, _⟩ => show win1_8.index t (0 : Fin 2) * 1 + 1 * 0 = 0; omega
  | ⟨1, _⟩ => show win1_8.index t (1 : Fin 2) * 128 + 1 * b.val = b.val; omega

/-- The second perceptron's second-layer weights: the whole matrix at every point. -/
theorem blk1_9 (c : Dev nD) (t : Fin cfg1.N) : toRows (iblk1 V c 9 t) = toRows (V c main_arg17) := by
  obtain ⟨e0, e1⟩ := (by decide +kernel : ∀ t : Fin grid1.N, win1_9.index t (0 : Fin 2) = 0 ∧ win1_9.index t (1 : Fin 2) = 0) t
  funext a b
  refine congrArg (V c main_arg17) (funext fun d => Fin.ext ?_)
  match d with
  | ⟨0, _⟩ => show win1_9.index t (0 : Fin 2) * 128 + 1 * a.val = a.val; omega
  | ⟨1, _⟩ => show win1_9.index t (1 : Fin 2) * 128 + 1 * b.val = b.val; omega

/-- The second perceptron's second bias: the whole row at every point. -/
theorem blk1_10 (c : Dev nD) (t : Fin cfg1.N) : toRows (iblk1 V c 10 t) 0 = toRows (V c main_v20) 0 := by
  obtain ⟨e0, e1⟩ := (by decide +kernel : ∀ t : Fin grid1.N, win1_10.index t (0 : Fin 2) = 0 ∧ win1_10.index t (1 : Fin 2) = 0) t
  funext b
  refine congrArg (V c main_v20) (funext fun d => Fin.ext ?_)
  match d with
  | ⟨0, _⟩ => show win1_10.index t (0 : Fin 2) * 1 + 1 * 0 = 0; omega
  | ⟨1, _⟩ => show win1_10.index t (1 : Fin 2) * 128 + 1 * b.val = b.val; omega

/-- Element `(p, j)` of the new-node-feature block at point `t` is element `(5000 t + p, j)` of its array. -/
theorem emb1_11 (t : Fin cfg1.N) (p : Fin 5000) (j : Fin 128) :
    ((cfg1.win 11).blk t).view.emb (ix2 p j) = ix2 (nodeBlockRow t p) j := by
  obtain ⟨e0, e1⟩ := (by decide +kernel : ∀ t : Fin grid1.N, win1_11.index t (0 : Fin 2) = t.val ∧ win1_11.index t (1 : Fin 2) = 0) t
  funext d; apply Fin.ext
  match d with
  | ⟨0, _⟩ => show win1_11.index t (0 : Fin 2) * 5000 + 1 * p.val = t.val * 5000 + p.val; omega
  | ⟨1, _⟩ => show win1_11.index t (1 : Fin 2) * 128 + 1 * j.val = j.val; omega

/-- What point `t` writes back to the output array is block `t` of the node update's array. -/
theorem flushed_node (c : Dev nD) (t : Fin cfg1.N) :
    (dat1 (F := Ideal) V c).flushed 11 t = ((cfg1.win 11).blk t).view.read (Elt Ideal)
      (nodeArr (toRows (V c main_arg0)) (toRows (V c main_v33)) (toRows (V c main_v11)) (toRows (V c main_v12))
          (toRows (V c main_v17) 0) (toRows (V c main_arg13)) (toRows (V c main_v18) 0) (toRows (V c main_arg15))
          (toRows (V c main_v19) 0) (toRows (V c main_arg17)) (toRows (V c main_v20) 0)) := by
  show (cfg1.win 11).cut (grid1.coords t) ((dat1 (F := Ideal) V c).after 11 t) = _
  rw [after1_11]
  unfold out1_11
  rw [View.canon_unit_zero origin]
  simp only [View.ld_unit_zero (S := S5000x128) origin, View.ld_unit_zero (S := S128x128) origin,
    View.ld_unit_zero (S := S1x128) origin]
  funext y
  obtain ⟨p, j, rfl⟩ : ∃ (p : Fin 5000) (j : Fin 128), y = ix2 p j := ⟨y 0, y 1, eq_ix2 y⟩
  show k1_pay1
        (k1_pay2 (iblk1 V c 0 t) (iblk1 V c 1 t) (iblk1 V c 2 t) (iblk1 V c 3 t) (iblk1 V c 4 t) (iblk1 V c 5 t) (iblk1 V c 6 t))
        (k1_pay3 (iblk1 V c 0 t) (iblk1 V c 1 t) (iblk1 V c 2 t) (iblk1 V c 3 t) (iblk1 V c 4 t) (iblk1 V c 5 t) (iblk1 V c 6 t)
          (iblk1 V c 7 t) (iblk1 V c 8 t))
        (iblk1 V c 9 t) (iblk1 V c 10 t) (ix2 p j)
      = nodeArr (toRows (V c main_arg0)) (toRows (V c main_v33)) (toRows (V c main_v11)) (toRows (V c main_v12))
          (toRows (V c main_v17) 0) (toRows (V c main_arg13)) (toRows (V c main_v18) 0) (toRows (V c main_arg15))
          (toRows (V c main_v19) 0) (toRows (V c main_arg17)) (toRows (V c main_v20) 0)
          (((cfg1.win 11).blk t).view.emb (ix2 p j))
  rw [emb1_11 t p j]
  refine (Pay.node_apply (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) p j).trans ?_
  rw [blk1_0, blk1_1, blk1_2, blk1_3, blk1_4, blk1_5, blk1_6, blk1_7, blk1_8, blk1_9, blk1_10]
  rfl

/-- An index of the output array is in point `t`'s block iff each coordinate is in the block's range on its axis. -/
theorem mem_blk1_11 (t : Fin cfg1.N) (i : S100000x128.Idx) :
    i ∈ ((cfg1.win 11).blk t).view.set ↔ ∀ a : Fin 2, win1_11.index t a * S5000x128.size a ≤ (i a).val ∧ (i a).val < win1_11.index t a * S5000x128.size a + S5000x128.size a := by
  show i ∈ ((View.whole main_v34).slice (win1_11.rect t)).set ↔ _
  rw [View.set_slice_whole, Rect.mem_set_unit]
  exact Iff.rfl

/-- Every row `r` of the output array is in the block of point `r / 5000`, which is written back. -/
theorem cover_node (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  have hq : (i 0).val / 5000 < cfg1.N := by rw [show cfg1.N = 20 from N_1]; omega
  obtain ⟨e0, e1⟩ := (by decide +kernel : ∀ t : Fin grid1.N, win1_11.index t (0 : Fin 2) = t.val ∧ win1_11.index t (1 : Fin 2) = 0) ⟨(i 0).val / 5000, hq⟩
  refine ⟨⟨(i 0).val / 5000, hq⟩, flush1_11 _, ?_⟩
  rw [mem_blk1_11]
  intro a
  match a with
  | ⟨0, _⟩ =>
    show win1_11.index ⟨(i 0).val / 5000, hq⟩ (0 : Fin 2) * 5000 ≤ (i 0).val ∧ (i 0).val < win1_11.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_11.index ⟨(i 0).val / 5000, hq⟩ (1 : Fin 2) * 128 ≤ (i 1).val ∧ (i 1).val < win1_11.index ⟨(i 0).val / 5000, hq⟩ (1 : Fin 2) * 128 + 128
    rw [e1]; omega

/-- The second call's output array (the new node features) after the call. -/
theorem final_node (c : Dev nD) :
    (dat1 (F := Ideal) V c).arrAt 11 cfg1.N
      = nodeArr (toRows (V c main_arg0)) (toRows (V c main_v33)) (toRows (V c main_v11)) (toRows (V c main_v12))
          (toRows (V c main_v17) 0) (toRows (V c main_arg13)) (toRows (V c main_v18) 0) (toRows (V c main_arg15))
          (toRows (V c main_v19) 0) (toRows (V c main_arg17)) (toRows (V c main_v20) 0) :=
  (dat1 (F := Ideal) V c).arrAt_eq_of_cover 11 _ (fun t _ => flushed_node V c t) cover_node

end Cert.KernelIdeal.Blocks

end
-- ==== Proof.Rows.lean ====
/-
  Views of the weight and bias arrays that the two programs share.

  The reference multiplies a concatenated row by a whole `K × 128` matrix, the kernel multiplies the pieces by the
  matrix's row-blocks of 128 rows, sliced on the host; and the reference adds a bias vector of 128 entries where the kernel
  adds a `1 × 128` row. `blockRows W o` is the block of rows `o … o + 127` of `W`, `vecOf b` the bias as a function of
  the column.
-/
import proofs.«424816_j40346922778973_1_alg».proof.Proof.Spec
import Idealize.ShloMosaic.PureOps.ShapeOps
import Idealize.ShloMosaic.Lib.ValueIdx
import Idealize.ShloMosaic.Lib.Pipeline.Value

noncomputable section

namespace Cert.GraphNet

open Idealize.ShloMosaic Idealize.ShloMosaic.ValueIdx

/-- Rows `o … o + 127` of a `K × 128` matrix, as a `128 × 128` matrix. -/
abbrev blockRows {K : ℕ} (W : (⟨2, ![K, 128]⟩ : Shape).Idx → EReal) (o : ℕ) (h : o + 128 ≤ K) : Fin 128 → Fin 128 → EReal :=
  fun q k => W (ix2 (⟨o + q.val, by omega⟩ : Fin K) k)

/-- A vector of 128 entries as a function of the column. -/
abbrev vecOf (b : (⟨1, ![128]⟩ : Shape).Idx → EReal) : Fin 128 → EReal := fun k => b (ix1 k)

/-- The host's slice of rows `o … o + 127` of a matrix, read by rows, is that row-block. -/
theorem toRows_slice {K : ℕ} (W : (⟨2, ![K, 128]⟩ : Shape).Idx → EReal) (o : ℕ) (h : o + 128 ≤ K)
    (hs : (⟨2, ![K, 128]⟩ : Shape).Slices ![o, 0] (⟨2, ![128, 128]⟩ : Shape)) :
    toRows (extractStridedSlice (⟨2, ![128, 128]⟩ : Shape) ![o, 0] W hs) = blockRows W o h := by
  funext q k
  refine extractStridedSlice_apply _ _ _ (ix2 q k) (ix2 (⟨o + q.val, by omega⟩ : Fin K) k) fun a => ?_
  match a with
  | ⟨0, _⟩ => rfl
  | ⟨1, _⟩ => exact (Nat.zero_add _).symm

/-- The host's reshape of a vector of 128 entries to a `1 × 128` row, read at its one row, is the vector. -/
theorem toRows_reshape (b : (⟨1, ![128]⟩ : Shape).Idx → EReal)
    (hc : (⟨1, ![128]⟩ : Shape).ShapeCasts (⟨2, ![1, 128]⟩ : Shape)) :
    toRows (shapeCast (⟨2, ![1, 128]⟩ : Shape) b hc) 0 = vecOf b := by
  funext k
  refine shapeCast_apply b hc (ix2 (0 : Fin 1) k) (ix1 k) ?_
  rw [Shape.rowMajor_val_one, Shape.rowMajor_val_two]
  show k.val = 0 * 128 + k.val
  omega

end Cert.GraphNet

end
-- ==== Proof.KernelValue.lean ====
/-
  The kernel's results as functions of the arguments.

  Composed: the first call is entered with the gathered source rows, the gathered target rows, the edge attributes, the
  row-blocks of the first-layer matrices and the bias rows, and leaves the new edge features and the messages; the host
  takes the scatter-mean of the messages over the source row; the second call is entered with the node features and that
  mean and leaves the new node features. On the index range the gathers are the plain gathers of the wrapped index.
-/
import proofs.«424816_j40346922778973_1_alg».proof.Proof.HostFold
import proofs.«424816_j40346922778973_1_alg».proof.Proof.TakeRows
import proofs.«424816_j40346922778973_1_alg».proof.Proof.Blocks
import proofs.«424816_j40346922778973_1_alg».proof.Proof.Rows

noncomputable section

namespace Cert.KernelIdeal.KValue

open Idealize.ShloMosaic Idealize.ShloMosaic.TcCoe Idealize.SL.Sem
open Cert.KernelIdeal Cert.KernelIdeal.Gen Cert.KernelIdeal.HostFold Cert.GraphNet

/-- Every word of the edge index lies in `[−100000, 100000)` as a signed integer. -/
abbrev InRange (a1 : IVec S2x500000 32) : Prop :=
  ∀ i : S2x500000.Idx, -(100000 : ℤ) ≤ (a1 i).toInt ∧ (a1 i).toInt < (100000 : ℤ)

/-- The new edge features, from the arguments. -/
def edgesOf (x : FVec Ideal S100000x128 .f32) (a1 : IVec S2x500000 32) (ea : FVec Ideal S500000x128 .f32)
    (ew1 : FVec Ideal S384x128 .f32) (eb1 : FVec Ideal S128 .f32) (ew2 : FVec Ideal S128x128 .f32) (eb2 : FVec Ideal S128 .f32) :
    FVec Ideal S500000x128 .f32 :=
  edgeArr (toRows (gathered x (srcIdx a1))) (toRows (gathered x (dstIdx a1))) (toRows ea)
    (blockRows ew1 0 (by omega)) (blockRows ew1 128 (by omega)) (blockRows ew1 256 (by omega)) (vecOf eb1) (toRows ew2) (vecOf eb2)

/-- The messages, from the arguments and the new edge features `ne`. -/
def msgsOf (x : FVec Ideal S100000x128 .f32) (a1 : IVec S2x500000 32) (ne : FVec Ideal S500000x128 .f32)
    (pw1 : FVec Ideal S256x128 .f32) (pb1 : FVec Ideal S128 .f32) (pw2 : FVec Ideal S128x128 .f32) (pb2 : FVec Ideal S128 .f32) :
    FVec Ideal S500000x128 .f32 :=
  msgArr (toRows (gathered x (dstIdx a1))) (toRows ne)
    (blockRows pw1 0 (by omega)) (blockRows pw1 128 (by omega)) (vecOf pb1) (toRows pw2) (vecOf pb2)

/-- The new node features, from the arguments and the aggregated messages `ag`. -/
def nodesOf (x : FVec Ideal S100000x128 .f32) (ag : FVec Ideal S100000x128 .f32)
    (gw1 : FVec Ideal S256x128 .f32) (gb1 : FVec Ideal S128 .f32) (gw2 : FVec Ideal S128x128 .f32) (gb2 : FVec Ideal S128 .f32)
    (bw1 : FVec Ideal S128x128 .f32) (bb1 : FVec Ideal S128 .f32) (bw2 : FVec Ideal S128x128 .f32) (bb2 : FVec Ideal S128 .f32) :
    FVec Ideal S100000x128 .f32 :=
  nodeArr (toRows x) (toRows ag) (blockRows gw1 0 (by omega)) (blockRows gw1 128 (by omega)) (vecOf gb1) (toRows gw2) (vecOf gb2)
    (toRows bw1) (vecOf bb1) (toRows bw2) (vecOf bb2)

variable (m : (ℓ : Loc nD τ sig) → Buf (Elt Ideal) ℓ) (ρ : Dev nD → PrngReg)

set_option maxHeartbeats 4000000 in
/-- What the first call leaves in its first output array. -/
theorem edge_array (c : Dev nD) (h : InRange (m ((c : Thread nD τ).loc main_arg1))) :
    (dat0 (V4 m ρ) c).arrAt 14 cfg0.N
      = edgesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Blocks.final_edge (V4 m ρ) c, V4_v4, V4_v5, V4_arg2, V4_v6, V4_v7, V4_v8, V4_v13, V4_arg5, V4_v14,
    takeRows_eq _ _ (srcIdx_range _ h), takeRows_eq _ _ (dstIdx_range _ h),
    toRows_slice (K := 384) _ 0 (by omega), toRows_slice (K := 384) _ 128 (by omega), toRows_slice (K := 384) _ 256 (by omega),
    toRows_reshape, toRows_reshape]
  rfl

set_option maxHeartbeats 4000000 in
/-- What the first call leaves in its second output array. -/
theorem msg_array (c : Dev nD) (h : InRange (m ((c : Thread nD τ).loc main_arg1))) :
    (dat0 (V4 m ρ) c).arrAt 15 cfg0.N
      = msgsOf (m ((c : Thread nD τ).loc main_arg0)) (m ((c : Thread nD τ).loc main_arg1))
          (edgesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
          (m ((c : Thread nD τ).loc main_arg7)) (m ((c : Thread nD τ).loc main_arg8)) (m ((c : Thread nD τ).loc main_arg9)) (m ((c : Thread nD τ).loc main_arg10)) := by
  rw [Blocks.final_msg (V4 m ρ) c, V4_v4, V4_v5, V4_arg2, V4_v6, V4_v7, V4_v8, V4_v13, V4_arg5, V4_v14, V4_v9, V4_v10, V4_v15, V4_arg9, V4_v16,
    takeRows_eq _ _ (srcIdx_range _ h), takeRows_eq _ _ (dstIdx_range _ h),
    toRows_slice (K := 384) _ 0 (by omega), toRows_slice (K := 384) _ 128 (by omega), toRows_slice (K := 384) _ 256 (by omega),
    toRows_slice (K := 256) _ 0 (by omega), toRows_slice (K := 256) _ 128 (by omega),
    toRows_reshape, toRows_reshape, toRows_reshape, toRows_reshape]
  rfl

/-- The new edge features end as `edgesOf` of the arguments. -/
theorem kernel_edges (c : Dev nD) (h : InRange (m ((c : Thread nD τ).loc main_arg1))) :
    W7 m ρ c (Proc.devRef .tc main_v21_0)
      = edgesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W7_v21_0 m ρ c).trans (edge_array m ρ c h)

set_option maxHeartbeats 4000000 in
/-- The new node features end as `nodesOf` of the arguments and the scatter-mean of the messages. -/
theorem kernel_nodes (c : Dev nD) (h : InRange (m ((c : Thread nD τ).loc main_arg1))) :
    W7 m ρ c (Proc.devRef .tc main_v34)
      = nodesOf (m ((c : Thread nD τ).loc main_arg0))
          (aggOf (srcIdx (m ((c : Thread nD τ).loc main_arg1)))
            (msgsOf (m ((c : Thread nD τ).loc main_arg0)) (m ((c : Thread nD τ).loc main_arg1))
              (edgesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
              (m ((c : Thread nD τ).loc main_arg7)) (m ((c : Thread nD τ).loc main_arg8)) (m ((c : Thread nD τ).loc main_arg9)) (m ((c : Thread nD τ).loc main_arg10))))
          (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [W7_v34, Blocks.final_node (V6 m ρ) c, V6_arg0, V6_v33, V6_v11, V6_v12, V6_v17, V6_arg13, V6_v18, V6_arg15, V6_v19, V6_arg17, V6_v20,
    msg_array m ρ c h,
    toRows_slice (K := 256) _ 0 (by omega), toRows_slice (K := 256) _ 128 (by omega),
    toRows_reshape, toRows_reshape, toRows_reshape, toRows_reshape]
  rfl

end Cert.KernelIdeal.KValue

end
-- ==== Proof.IndexRange.lean ====
/-
  The index range, read out of the precondition.

  The precondition is a conjunction of rank-0 bits: one "every entry is finite" bit per float input, and last the two bits
  "every word of the edge index is at least −100000" and "every word of the edge index is below 100000". If the
  conjunction is the bit 1 then each conjunct is, and a reduction by `and` over an array of bits is 1 only if every bit
  is 1; so every word of the edge index, read as a signed 32-bit integer, lies in `[−100000, 100000)`.
-/
import proofs.«424816_j40346922778973_1_alg».proof.Pre_finite_inputs
import Idealize.ShloMosaic.Lib.ReduceAll
import Idealize.ShloMosaic.Lib.StableHlo.Predicate
import Idealize.ShloMosaic.Lib.ValueIdx

noncomputable section

namespace Cert.IndexRange

open Idealize.ShloMosaic Cert.Pre_finite_inputs

variable [Cert.Pre_finite_inputs.Facts]

/-- The rank-0 shape has exactly one index. -/
instance scalarIdx_subsingleton : Subsingleton S_.Idx := ⟨fun a b => funext fun d => d.elim0⟩

/-- The lower bound's word, read as a signed integer, is `−100000`. -/
theorem lower_word_toInt : (4294867296#32 : BitVec 32).toInt = -100000 := by decide

/-- The upper bound's word, read as a signed integer, is `100000`. -/
theorem upper_word_toInt : (100000#32 : BitVec 32).toInt = 100000 := by decide

/-- The last part of the precondition alone: if its conjunction of bits is 1 then so are its last two conjuncts, the two
    reductions by `and` of the word compares against `−100000` and `100000`; so every compare bit is 1, and every word
    of the edge index lies in `[−100000, 100000)` as a signed integer. -/
theorem last_part_range {F : FTy → Type} [FloatOps F] (a1 : IVec S2x500000 32) (v83 : IVec S_ 1) (v84 : FVec F S128 .f32)
    (c32 : FVec F S_ .f32) (h : fn_part5 (F := F) a1 v83 v84 c32 = fun _ => 1#1) :
    ∀ i : S2x500000.Idx, -(100000 : ℤ) ≤ (a1 i).toInt ∧ (a1 i).toInt < (100000 : ℤ) := by
  intro i
  have h0 := congrFun h ValueIdx.ix0
  unfold fn_part5 at h0
  dsimp only at h0
  obtain ⟨h92, h95⟩ := IntOp.andi_eq_one.1 h0
  obtain ⟨_, h91⟩ := IntOp.andi_eq_one.1 h92
  have ge := IntOp.cmpi_sge.1 (Host.reduce_andi_all _ _ _ _ _ h91 i)
  have lt := IntOp.cmpi_slt.1 (Host.reduce_andi_all _ _ _ _ _ h95 i)
  rw [StableHlo.Predicate.bcast_scalar _ Facts.h_S_] at ge lt
  exact ⟨le_of_eq_of_le lower_word_toInt.symm ge, lt_of_lt_of_eq lt upper_word_toInt⟩

/-- Under the precondition every word of the edge index lies in `[−100000, 100000)` as a signed integer. -/
theorem index_range {F : FTy → Type} [FloatOps F] (a0 : FVec F S100000x128 .f32) (a1 : IVec S2x500000 32) (a2 : FVec F S500000x128 .f32) (a3 : FVec F S384x128 .f32) (a4 : FVec F S128 .f32) (a5 : FVec F S128x128 .f32) (a6 : FVec F S128 .f32) (a7 : FVec F S256x128 .f32) (a8 : FVec F S128 .f32) (a9 : FVec F S128x128 .f32) (a10 : FVec F S128 .f32) (a11 : FVec F S256x128 .f32) (a12 : FVec F S128 .f32) (a13 : FVec F S128x128 .f32) (a14 : FVec F S128 .f32) (a15 : FVec F S128x128 .f32) (a16 : FVec F S128 .f32) (a17 : FVec F S128x128 .f32) (a18 : FVec F S128 .f32)
    (h : Cert.Pre_finite_inputs.fn (F := F) a0 a1 a2 a3 a4 a5 a6 a7 a8 a9 a10 a11 a12 a13 a14 a15 a16 a17 a18 = fun _ => 1#1) :
    ∀ i : S2x500000.Idx, -(100000 : ℤ) ≤ (a1 i).toInt ∧ (a1 i).toInt < (100000 : ℤ) := by
  unfold Cert.Pre_finite_inputs.fn fn_part1 fn_part2 fn_part3 fn_part4 at h
  exact last_part_range a1 _ _ _ h

end Cert.IndexRange

end
-- ==== Proof.RefSide.lean ====
/-
  The reference, stage by stage, as the row perceptrons.

  The reference concatenates the gathered source rows, the gathered target rows and the edge attributes along the
  columns and multiplies by the whole first-layer matrix; read at an index, the product with a concatenated row is the sum
  over the 384 (or 256) joined columns, which splits into the sums over the pieces against the matrix's row-blocks. The
  gathers and the scatter-mean are not opened: the gathered rows and the aggregated messages enter as arrays.
-/
import proofs.«424816_j40346922778973_1_alg».proof.Proof.ReadStages
import proofs.«424816_j40346922778973_1_alg».proof.Proof.Rows
import Idealize.ShloMosaic.PureOps.Ideal.Laws
import Idealize.ShloMosaic.Lib.ValueIdx
import Idealize.ShloMosaic.Lib.ValueLayout
import Idealize.ShloMosaic.Lib.Pipeline.Value
import proofs.«424816_j40346922778973_1_alg».proof.Proof.Spec
import Mathlib.Algebra.BigOperators.Group.Finset.Basic

noncomputable section

namespace Cert.ReferenceIdeal.RefValue

open Idealize.ShloMosaic Idealize.ShloMosaic.ValueIdx Cert.ReferenceIdeal Cert.ReferenceIdeal.Gen Cert.ReferenceIdeal.ReadP Cert.GraphNet

/-! ## Joined arrays read at an index, and a joined row against a matrix -/

section Pieces
variable {α : Type} {R : ℕ}

/-- Three arrays of 128 columns joined along the columns, read in the first 128 columns: the first array. -/
theorem concat3_fst (A B C : (⟨2, ![R, 128]⟩ : Shape).Idx → α)
    (h : Shape.Concatenates [(⟨2, ![R, 128]⟩ : Shape), ⟨2, ![R, 128]⟩, ⟨2, ![R, 128]⟩] (⟨2, ![R, 384]⟩ : Shape) 1)
    (e : Fin R) (q : Fin 128) (hq : q.val < 384) :
    concatenate (⟨2, ![R, 384]⟩ : Shape) 1 [⟨⟨2, ![R, 128]⟩, A⟩, ⟨⟨2, ![R, 128]⟩, B⟩, ⟨⟨2, ![R, 128]⟩, C⟩] h (ix2 e (⟨q.val, hq⟩ : Fin 384))
      = A (ix2 e q) := by
  refine concatenate_apply_piece 1 ([⟨⟨2, ![R, 128]⟩, A⟩, ⟨⟨2, ![R, 128]⟩, B⟩, ⟨⟨2, ![R, 128]⟩, C⟩] : List ((s : Shape) × (s.Idx → α))) h _ 0 (show (0 : ℕ) < 3 by omega) _ A rfl rfl 0 rfl (ix2 e q) (fun b hb => ?_) ?_
  · match b with
    | ⟨0, _⟩ => rfl
    | ⟨1, _⟩ => exact absurd rfl hb
  · exact Nat.zero_add _

/-- … in the middle 128 columns: the second array. -/
theorem concat3_snd (A B C : (⟨2, ![R, 128]⟩ : Shape).Idx → α)
    (h : Shape.Concatenates [(⟨2, ![R, 128]⟩ : Shape), ⟨2, ![R, 128]⟩, ⟨2, ![R, 128]⟩] (⟨2, ![R, 384]⟩ : Shape) 1)
    (e : Fin R) (q : Fin 128) (hq : 128 + q.val < 384) :
    concatenate (⟨2, ![R, 384]⟩ : Shape) 1 [⟨⟨2, ![R, 128]⟩, A⟩, ⟨⟨2, ![R, 128]⟩, B⟩, ⟨⟨2, ![R, 128]⟩, C⟩] h (ix2 e (⟨128 + q.val, hq⟩ : Fin 384))
      = B (ix2 e q) := by
  refine concatenate_apply_piece 1 ([⟨⟨2, ![R, 128]⟩, A⟩, ⟨⟨2, ![R, 128]⟩, B⟩, ⟨⟨2, ![R, 128]⟩, C⟩] : List ((s : Shape) × (s.Idx → α))) h _ 1 (show (1 : ℕ) < 3 by omega) _ B rfl rfl 128 rfl (ix2 e q) (fun b hb => ?_) ?_
  · match b with
    | ⟨0, _⟩ => rfl
    | ⟨1, _⟩ => exact absurd rfl hb
  · rfl

/-- … in the last 128 columns: the third array. -/
theorem concat3_thd (A B C : (⟨2, ![R, 128]⟩ : Shape).Idx → α)
    (h : Shape.Concatenates [(⟨2, ![R, 128]⟩ : Shape), ⟨2, ![R, 128]⟩, ⟨2, ![R, 128]⟩] (⟨2, ![R, 384]⟩ : Shape) 1)
    (e : Fin R) (q : Fin 128) (hq : 256 + q.val < 384) :
    concatenate (⟨2, ![R, 384]⟩ : Shape) 1 [⟨⟨2, ![R, 128]⟩, A⟩, ⟨⟨2, ![R, 128]⟩, B⟩, ⟨⟨2, ![R, 128]⟩, C⟩] h (ix2 e (⟨256 + q.val, hq⟩ : Fin 384))
      = C (ix2 e q) := by
  refine concatenate_apply_piece 1 ([⟨⟨2, ![R, 128]⟩, A⟩, ⟨⟨2, ![R, 128]⟩, B⟩, ⟨⟨2, ![R, 128]⟩, C⟩] : List ((s : Shape) × (s.Idx → α))) h _ 2 (show (2 : ℕ) < 3 by omega) _ C rfl rfl 256 rfl (ix2 e q) (fun b hb => ?_) ?_
  · match b with
    | ⟨0, _⟩ => rfl
    | ⟨1, _⟩ => exact absurd rfl hb
  · rfl

/-- Two arrays of 128 columns joined along the columns, read in the first 128 columns: the first array. -/
theorem concat2_fst (A B : (⟨2, ![R, 128]⟩ : Shape).Idx → α)
    (h : Shape.Concatenates [(⟨2, ![R, 128]⟩ : Shape), ⟨2, ![R, 128]⟩] (⟨2, ![R, 256]⟩ : Shape) 1)
    (e : Fin R) (q : Fin 128) (hq : q.val < 256) :
    concatenate (⟨2, ![R, 256]⟩ : Shape) 1 [⟨⟨2, ![R, 128]⟩, A⟩, ⟨⟨2, ![R, 128]⟩, B⟩] h (ix2 e (⟨q.val, hq⟩ : Fin 256))
      = A (ix2 e q) := by
  refine concatenate_apply_piece 1 ([⟨⟨2, ![R, 128]⟩, A⟩, ⟨⟨2, ![R, 128]⟩, B⟩] : List ((s : Shape) × (s.Idx → α))) h _ 0 (show (0 : ℕ) < 2 by omega) _ A rfl rfl 0 rfl (ix2 e q) (fun b hb => ?_) ?_
  · match b with
    | ⟨0, _⟩ => rfl
    | ⟨1, _⟩ => exact absurd rfl hb
  · exact Nat.zero_add _

/-- … in the last 128 columns: the second array. -/
theorem concat2_snd (A B : (⟨2, ![R, 128]⟩ : Shape).Idx → α)
    (h : Shape.Concatenates [(⟨2, ![R, 128]⟩ : Shape), ⟨2, ![R, 128]⟩] (⟨2, ![R, 256]⟩ : Shape) 1)
    (e : Fin R) (q : Fin 128) (hq : 128 + q.val < 256) :
    concatenate (⟨2, ![R, 256]⟩ : Shape) 1 [⟨⟨2, ![R, 128]⟩, A⟩, ⟨⟨2, ![R, 128]⟩, B⟩] h (ix2 e (⟨128 + q.val, hq⟩ : Fin 256))
      = B (ix2 e q) := by
  refine concatenate_apply_piece 1 ([⟨⟨2, ![R, 128]⟩, A⟩, ⟨⟨2, ![R, 128]⟩, B⟩] : List ((s : Shape) × (s.Idx → α))) h _ 1 (show (1 : ℕ) < 2 by omega) _ B rfl rfl 128 rfl (ix2 e q) (fun b hb => ?_) ?_
  · match b with
    | ⟨0, _⟩ => rfl
    | ⟨1, _⟩ => exact absurd rfl hb
  · rfl

end Pieces

/-- A row of three joined pieces against a `384 × 128` matrix: the sum over the 384 joined columns is the sum of the three
    pieces' products with the matrix's three row-blocks. -/
theorem firstLayer3 {R : ℕ} (A B C : (⟨2, ![R, 128]⟩ : Shape).Idx → EReal) (W : (⟨2, ![384, 128]⟩ : Shape).Idx → EReal)
    (h : Shape.Concatenates [(⟨2, ![R, 128]⟩ : Shape), ⟨2, ![R, 128]⟩, ⟨2, ![R, 128]⟩] (⟨2, ![R, 384]⟩ : Shape) 1)
    (e : Fin R) (k : Fin 128) :
    ∑ c : Fin 384, concatenate (⟨2, ![R, 384]⟩ : Shape) 1 [⟨⟨2, ![R, 128]⟩, A⟩, ⟨⟨2, ![R, 128]⟩, B⟩, ⟨⟨2, ![R, 128]⟩, C⟩] h (ix2 e c) * W (ix2 c k)
      = (rowDot (toRows A e) (blockRows W 0 (by omega)) k + rowDot (toRows B e) (blockRows W 128 (by omega)) k)
          + rowDot (toRows C e) (blockRows W 256 (by omega)) k := by
  rw [sum_split3]
  refine congrArg₂ (· + ·) (congrArg₂ (· + ·) ?_ ?_) ?_
  · refine Finset.sum_congr rfl fun q _ => ?_
    rw [concat3_fst]
    exact congrArg (fun r => A (ix2 e q) * W (ix2 r k)) (Fin.ext (Nat.zero_add _).symm)
  · refine Finset.sum_congr rfl fun q _ => ?_
    rw [concat3_snd]
  · refine Finset.sum_congr rfl fun q _ => ?_
    rw [concat3_thd]

/-- A row of two joined pieces against a `256 × 128` matrix likewise, with the matrix's two row-blocks. -/
theorem firstLayer2 {R : ℕ} (A B : (⟨2, ![R, 128]⟩ : Shape).Idx → EReal) (W : (⟨2, ![256, 128]⟩ : Shape).Idx → EReal)
    (h : Shape.Concatenates [(⟨2, ![R, 128]⟩ : Shape), ⟨2, ![R, 128]⟩] (⟨2, ![R, 256]⟩ : Shape) 1)
    (e : Fin R) (k : Fin 128) :
    ∑ c : Fin 256, concatenate (⟨2, ![R, 256]⟩ : Shape) 1 [⟨⟨2, ![R, 128]⟩, A⟩, ⟨⟨2, ![R, 128]⟩, B⟩] h (ix2 e c) * W (ix2 c k)
      = rowDot (toRows A e) (blockRows W 0 (by omega)) k + rowDot (toRows B e) (blockRows W 128 (by omega)) k := by
  rw [sum_split2]
  refine congrArg₂ (· + ·) ?_ ?_
  · refine Finset.sum_congr rfl fun q _ => ?_
    rw [concat2_fst]
    exact congrArg (fun r => A (ix2 e q) * W (ix2 r k)) (Fin.ext (Nat.zero_add _).symm)
  · refine Finset.sum_congr rfl fun q _ => ?_
    rw [concat2_snd]

/-! ## The reference's index functions at `(e, j)` -/

/-- At row `e` the left index of stage 19's contraction runs along that row … -/
theorem lidx19 (e : Fin 500000) (j : Fin 128) : lidx_main_v19 (ix2 e j) = fun c : Fin 384 => ix2 e c :=
  funext fun c => funext fun a => Fin.ext (by match a with | ⟨0, _⟩ => rfl | ⟨1, _⟩ => rfl)
/-- … and the right index down column `j` of the matrix. -/
theorem ridx19 (e : Fin 500000) (j : Fin 128) : ridx_main_v19 (ix2 e j) = fun c : Fin 384 => ix2 c j :=
  funext fun c => funext fun a => Fin.ext (by match a with | ⟨0, _⟩ => rfl | ⟨1, _⟩ => rfl)

/-- At row `e` the left index of stage 24's contraction runs along that row … -/
theorem lidx24 (e : Fin 500000) (j : Fin 128) : lidx_main_v24 (ix2 e j) = fun c : Fin 128 => ix2 e c :=
  funext fun c => funext fun a => Fin.ext (by match a with | ⟨0, _⟩ => rfl | ⟨1, _⟩ => rfl)
/-- … and the right index down column `j` of the matrix. -/
theorem ridx24 (e : Fin 500000) (j : Fin 128) : ridx_main_v24 (ix2 e j) = fun c : Fin 128 => ix2 c j :=
  funext fun c => funext fun a => Fin.ext (by match a with | ⟨0, _⟩ => rfl | ⟨1, _⟩ => rfl)

/-- At row `e` the left index of stage 29's contraction runs along that row … -/
theorem lidx29 (e : Fin 500000) (j : Fin 128) : lidx_main_v29 (ix2 e j) = fun c : Fin 256 => ix2 e c :=
  funext fun c => funext fun a => Fin.ext (by match a with | ⟨0, _⟩ => rfl | ⟨1, _⟩ => rfl)
/-- … and the right index down column `j` of the matrix. -/
theorem ridx29 (e : Fin 500000) (j : Fin 128) : ridx_main_v29 (ix2 e j) = fun c : Fin 256 => ix2 c j :=
  funext fun c => funext fun a => Fin.ext (by match a with | ⟨0, _⟩ => rfl | ⟨1, _⟩ => rfl)

/-- At row `e` the left index of stage 34's contraction runs along that row … -/
theorem lidx34 (e : Fin 500000) (j : Fin 128) : lidx_main_v34 (ix2 e j) = fun c : Fin 128 => ix2 e c :=
  funext fun c => funext fun a => Fin.ext (by match a with | ⟨0, _⟩ => rfl | ⟨1, _⟩ => rfl)
/-- … and the right index down column `j` of the matrix. -/
theorem ridx34 (e : Fin 500000) (j : Fin 128) : ridx_main_v34 (ix2 e j) = fun c : Fin 128 => ix2 c j :=
  funext fun c => funext fun a => Fin.ext (by match a with | ⟨0, _⟩ => rfl | ⟨1, _⟩ => rfl)

/-- At row `e` the left index of stage 51's contraction runs along that row … -/
theorem lidx51 (e : Fin 100000) (j : Fin 128) : lidx_main_v51 (ix2 e j) = fun c : Fin 256 => ix2 e c :=
  funext fun c => funext fun a => Fin.ext (by match a with | ⟨0, _⟩ => rfl | ⟨1, _⟩ => rfl)
/-- … and the right index down column `j` of the matrix. -/
theorem ridx51 (e : Fin 100000) (j : Fin 128) : ridx_main_v51 (ix2 e j) = fun c : Fin 256 => ix2 c j :=
  funext fun c => funext fun a => Fin.ext (by match a with | ⟨0, _⟩ => rfl | ⟨1, _⟩ => rfl)

/-- At row `e` the left index of stage 56's contraction runs along that row … -/
theorem lidx56 (e : Fin 100000) (j : Fin 128) : lidx_main_v56 (ix2 e j) = fun c : Fin 128 => ix2 e c :=
  funext fun c => funext fun a => Fin.ext (by match a with | ⟨0, _⟩ => rfl | ⟨1, _⟩ => rfl)
/-- … and the right index down column `j` of the matrix. -/
theorem ridx56 (e : Fin 100000) (j : Fin 128) : ridx_main_v56 (ix2 e j) = fun c : Fin 128 => ix2 c j :=
  funext fun c => funext fun a => Fin.ext (by match a with | ⟨0, _⟩ => rfl | ⟨1, _⟩ => rfl)

/-- At row `e` the left index of stage 60's contraction runs along that row … -/
theorem lidx60 (e : Fin 100000) (j : Fin 128) : lidx_main_v60 (ix2 e j) = fun c : Fin 128 => ix2 e c :=
  funext fun c => funext fun a => Fin.ext (by match a with | ⟨0, _⟩ => rfl | ⟨1, _⟩ => rfl)
/-- … and the right index down column `j` of the matrix. -/
theorem ridx60 (e : Fin 100000) (j : Fin 128) : ridx_main_v60 (ix2 e j) = fun c : Fin 128 => ix2 c j :=
  funext fun c => funext fun a => Fin.ext (by match a with | ⟨0, _⟩ => rfl | ⟨1, _⟩ => rfl)

/-- At row `e` the left index of stage 65's contraction runs along that row … -/
theorem lidx65 (e : Fin 100000) (j : Fin 128) : lidx_main_v65 (ix2 e j) = fun c : Fin 128 => ix2 e c :=
  funext fun c => funext fun a => Fin.ext (by match a with | ⟨0, _⟩ => rfl | ⟨1, _⟩ => rfl)
/-- … and the right index down column `j` of the matrix. -/
theorem ridx65 (e : Fin 100000) (j : Fin 128) : ridx_main_v65 (ix2 e j) = fun c : Fin 128 => ix2 c j :=
  funext fun c => funext fun a => Fin.ext (by match a with | ⟨0, _⟩ => rfl | ⟨1, _⟩ => rfl)

/-- The bias of stage 21, spread over the rows, is read at its column. -/
theorem bias21 (e : Fin 500000) (j : Fin 128) : idx_main_v20 (idx_main_v21 (ix2 e j)) = ix1 j :=
  funext fun a => Fin.ext (by match a with | ⟨0, _⟩ => rfl)

/-- The bias of stage 26, spread over the rows, is read at its column. -/
theorem bias26 (e : Fin 500000) (j : Fin 128) : idx_main_v25 (idx_main_v26 (ix2 e j)) = ix1 j :=
  funext fun a => Fin.ext (by match a with | ⟨0, _⟩ => rfl)

/-- The bias of stage 31, spread over the rows, is read at its column. -/
theorem bias31 (e : Fin 500000) (j : Fin 128) : idx_main_v30 (idx_main_v31 (ix2 e j)) = ix1 j :=
  funext fun a => Fin.ext (by match a with | ⟨0, _⟩ => rfl)

/-- The bias of stage 36, spread over the rows, is read at its column. -/
theorem bias36 (e : Fin 500000) (j : Fin 128) : idx_main_v35 (idx_main_v36 (ix2 e j)) = ix1 j :=
  funext fun a => Fin.ext (by match a with | ⟨0, _⟩ => rfl)

/-- The bias of stage 53, spread over the rows, is read at its column. -/
theorem bias53 (e : Fin 100000) (j : Fin 128) : idx_main_v52 (idx_main_v53 (ix2 e j)) = ix1 j :=
  funext fun a => Fin.ext (by match a with | ⟨0, _⟩ => rfl)

/-- The bias of stage 58, spread over the rows, is read at its column. -/
theorem bias58 (e : Fin 100000) (j : Fin 128) : idx_main_v57 (idx_main_v58 (ix2 e j)) = ix1 j :=
  funext fun a => Fin.ext (by match a with | ⟨0, _⟩ => rfl)

/-- The bias of stage 62, spread over the rows, is read at its column. -/
theorem bias62 (e : Fin 100000) (j : Fin 128) : idx_main_v61 (idx_main_v62 (ix2 e j)) = ix1 j :=
  funext fun a => Fin.ext (by match a with | ⟨0, _⟩ => rfl)

/-- The bias of stage 67, spread over the rows, is read at its column. -/
theorem bias67 (e : Fin 100000) (j : Fin 128) : idx_main_v66 (idx_main_v67 (ix2 e j)) = ix1 j :=
  funext fun a => Fin.ext (by match a with | ⟨0, _⟩ => rfl)

/-! ## The three stages -/

/-- The hidden row of the edge perceptron at edge `e`, column `k`. -/
theorem edge_hidden (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (e : Fin 500000) (k : Fin 128) :
    val_main_v23 (F := Ideal) x0 x1 x2 x3 x4 (ix2 e k)
      = relu (((rowDot (toRows (val_main_v10 (F := Ideal) x0 x1) e) (blockRows x3 0 (by omega)) k
          + rowDot (toRows (val_main_v17 (F := Ideal) x0 x1) e) (blockRows x3 128 (by omega)) k)
          + rowDot (toRows x2 e) (blockRows x3 256 (by omega)) k) + vecOf x4 k) := by
  rw [val_main_v23_apply, val_main_v22_apply, val_main_v19_apply, val_main_v21_apply, val_main_v20_apply,
    val_main_call0_v0_apply, val_main_call0_cst_apply, lidx19, ridx19, bias21]
  unfold val_main_v18
  generalize val_main_v10 (F := Ideal) x0 x1 = A
  generalize val_main_v17 (F := Ideal) x0 x1 = B
  rw [firstLayer3 A B x2 x3 _ e k]
  simp only [Ideal.addf_def, Ideal.maximumf_def, Ideal.ofBits_def, Ideal.ofBits_zero_f32]
  rfl

/-- The reference's new edge features are the three-piece perceptron of the gathered source rows, the gathered target
    rows and the edge attributes, against the three row-blocks of the first-layer matrix. -/
theorem new_edge_eq (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v27 (F := Ideal) x0 x1 x2 x3 x4 x5 x6
      = edgeArr (toRows (val_main_v10 (F := Ideal) x0 x1)) (toRows (val_main_v17 (F := Ideal) x0 x1)) (toRows x2)
          (blockRows x3 0 (by omega)) (blockRows x3 128 (by omega)) (blockRows x3 256 (by omega)) (vecOf x4) (toRows x5) (vecOf x6) := by
  refine ext_rows fun e j => ?_
  rw [val_main_v27_apply, val_main_v24_apply, val_main_v26_apply, val_main_v25_apply, lidx24, ridx24, bias26]
  simp only [edge_hidden, Ideal.addf_def]
  generalize val_main_v10 (F := Ideal) x0 x1 = A
  generalize val_main_v17 (F := Ideal) x0 x1 = B
  rfl

/-- The hidden row of the message perceptron at edge `e`, column `k`. -/
theorem msg_hidden (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (e : Fin 500000) (k : Fin 128) :
    val_main_v33 (F := Ideal) x0 x1 x2 x3 x4 x5 x6 x7 x8 (ix2 e k)
      = relu ((rowDot (toRows (val_main_v17 (F := Ideal) x0 x1) e) (blockRows x7 0 (by omega)) k
          + rowDot (toRows (val_main_v27 (F := Ideal) x0 x1 x2 x3 x4 x5 x6) e) (blockRows x7 128 (by omega)) k) + vecOf x8 k) := by
  rw [val_main_v33_apply, val_main_v32_apply, val_main_v29_apply, val_main_v31_apply, val_main_v30_apply,
    val_main_call1_v0_apply, val_main_call1_cst_apply, lidx29, ridx29, bias31]
  unfold val_main_v28
  generalize val_main_v17 (F := Ideal) x0 x1 = B
  generalize val_main_v27 (F := Ideal) x0 x1 x2 x3 x4 x5 x6 = N
  rw [firstLayer2 B N x7 _ e k]
  simp only [Ideal.addf_def, Ideal.maximumf_def, Ideal.ofBits_def, Ideal.ofBits_zero_f32]
  rfl

/-- The reference's messages are the two-piece perceptron of the gathered target rows and the new edge features. -/
theorem messages_eq (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v37 (F := Ideal) x0 x1 x2 x3 x4 x5 x6 x7 x8 x9 x10
      = msgArr (toRows (val_main_v17 (F := Ideal) x0 x1)) (toRows (val_main_v27 (F := Ideal) x0 x1 x2 x3 x4 x5 x6))
          (blockRows x7 0 (by omega)) (blockRows x7 128 (by omega)) (vecOf x8) (toRows x9) (vecOf x10) := by
  refine ext_rows fun e j => ?_
  rw [val_main_v37_apply, val_main_v34_apply, val_main_v36_apply, val_main_v35_apply, lidx34, ridx34, bias36]
  simp only [msg_hidden, Ideal.addf_def]
  generalize val_main_v17 (F := Ideal) x0 x1 = B
  generalize val_main_v27 (F := Ideal) x0 x1 x2 x3 x4 x5 x6 = N
  rfl

/-- The hidden row of the node perceptron `γ` at node `n`, column `k`. -/
theorem node_hidden1 (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (n : Fin 100000) (k : Fin 128) :
    val_main_v55 (F := Ideal) x0 x1 x2 x3 x4 x5 x6 x7 x8 x9 x10 x11 x12 (ix2 n k)
      = relu ((rowDot (toRows x0 n) (blockRows x11 0 (by omega)) k
          + rowDot (toRows (val_main_v49 (F := Ideal) x0 x1 x2 x3 x4 x5 x6 x7 x8 x9 x10) n) (blockRows x11 128 (by omega)) k) + vecOf x12 k) := by
  rw [val_main_v55_apply, val_main_v54_apply, val_main_v51_apply, val_main_v53_apply, val_main_v52_apply,
    val_main_call2_v0_apply, val_main_call2_cst_apply, lidx51, ridx51, bias53]
  unfold val_main_v50
  generalize val_main_v49 (F := Ideal) x0 x1 x2 x3 x4 x5 x6 x7 x8 x9 x10 = G
  rw [firstLayer2 x0 G x11 _ n k]
  simp only [Ideal.addf_def, Ideal.maximumf_def, Ideal.ofBits_def, Ideal.ofBits_zero_f32]
  rfl

/-- The perceptron `γ` of the node's row and its aggregated messages, at node `n`, column `j`. -/
theorem node_gamma (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (n : Fin 100000) (j : Fin 128) :
    val_main_v59 (F := Ideal) x0 x1 x2 x3 x4 x5 x6 x7 x8 x9 x10 x11 x12 x13 x14 (ix2 n j)
      = mlp2 (toRows x0 n) (toRows (val_main_v49 (F := Ideal) x0 x1 x2 x3 x4 x5 x6 x7 x8 x9 x10) n) (blockRows x11 0 (by omega)) (blockRows x11 128 (by omega)) (vecOf x12) (toRows x13) (vecOf x14) j := by
  rw [val_main_v59_apply, val_main_v56_apply, val_main_v58_apply, val_main_v57_apply, lidx56, ridx56, bias58]
  simp only [node_hidden1, Ideal.addf_def]
  generalize val_main_v49 (F := Ideal) x0 x1 x2 x3 x4 x5 x6 x7 x8 x9 x10 = G
  rfl

/-- The hidden row of the node perceptron `β`, fed the row of `γ`, at node `n`, column `k`. -/
theorem node_hidden2 (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (n : Fin 100000) (k : Fin 128) :
    val_main_v64 (F := Ideal) x0 x1 x2 x3 x4 x5 x6 x7 x8 x9 x10 x11 x12 x13 x14 x15 x16 (ix2 n k)
      = relu (rowDot (mlp2 (toRows x0 n) (toRows (val_main_v49 (F := Ideal) x0 x1 x2 x3 x4 x5 x6 x7 x8 x9 x10) n) (blockRows x11 0 (by omega)) (blockRows x11 128 (by omega)) (vecOf x12) (toRows x13) (vecOf x14)) (toRows x15) k + vecOf x16 k) := by
  rw [val_main_v64_apply, val_main_v63_apply, val_main_v60_apply, val_main_v62_apply, val_main_v61_apply,
    val_main_call3_v0_apply, val_main_call3_cst_apply, lidx60, ridx60, bias62]
  simp only [node_gamma, Ideal.addf_def, Ideal.maximumf_def, Ideal.ofBits_def, Ideal.ofBits_zero_f32]
  generalize val_main_v49 (F := Ideal) x0 x1 x2 x3 x4 x5 x6 x7 x8 x9 x10 = G
  rfl

/-- The reference's new node features are `nodeRow`, row by row, of the node features and the aggregated messages. -/
theorem node_eq (x0 : (⟨S100000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v69 (F := Ideal) x0 x1 x2 x3 x4 x5 x6 x7 x8 x9 x10 x11 x12 x13 x14 x15 x16 x17 x18
      = nodeArr (toRows x0) (toRows (val_main_v49 (F := Ideal) x0 x1 x2 x3 x4 x5 x6 x7 x8 x9 x10))
          (blockRows x11 0 (by omega)) (blockRows x11 128 (by omega)) (vecOf x12) (toRows x13) (vecOf x14) (toRows x15) (vecOf x16)
          (toRows x17) (vecOf x18) := by
  refine ext_rows fun n j => ?_
  rw [val_main_v69_apply, val_main_v68_apply, val_main_v65_apply, val_main_v67_apply, val_main_v66_apply, lidx65, ridx65, bias67]
  simp only [node_hidden2, node_gamma, Ideal.addf_def]
  generalize val_main_v49 (F := Ideal) x0 x1 x2 x3 x4 x5 x6 x7 x8 x9 x10 = G
  rfl

end Cert.ReferenceIdeal.RefValue

end
-- ==== Proof.Bridge.lean ====
/-
  The two programs compute one function.

  The reference's stages, written over its own shape and dimension records, against the kernel side's: the reference
  wraps and gathers by the same operations as the kernel's host code does once no row is filled, and takes the
  scatter-mean by the same operations; its perceptrons are the row perceptrons against the same row-blocks. So the
  reference's new edge features, messages, aggregated messages and new node features are `edgesOf`, `msgsOf`, `aggOf` and
  `nodesOf` of the same arguments.
-/
import proofs.«424816_j40346922778973_1_alg».proof.Proof.RefSide
import proofs.«424816_j40346922778973_1_alg».proof.Proof.KernelValue

noncomputable section

namespace Cert.Bridge

open Idealize.ShloMosaic Cert.GraphNet
open Cert.KernelIdeal.HostFold Cert.KernelIdeal.KValue
open Cert.ReferenceIdeal.ReadP Cert.ReferenceIdeal.RefValue

/-- The reference's gathered source rows are the plain gather by the wrapped source row. -/
theorem ref_src (x0 : (⟨Cert.ReferenceIdeal.S100000x128, .f32⟩ : BufTy).Contents (Elt Ideal)) (x1 : (⟨Cert.ReferenceIdeal.S2x500000, .i32⟩ : BufTy).Contents (Elt Ideal)) : val_main_v10 (F := Ideal) x0 x1 = gathered x0 (srcIdx x1) := by
  unfold val_main_v10 val_main_v9 val_main_v8 val_main_v7 val_main_v6 val_main_c_0 val_main_v5 val_main_v4 val_main_c val_main_v1 val_main_v0
  rfl

/-- The reference's gathered target rows are the plain gather by the wrapped target row. -/
theorem ref_dst (x0 : (⟨Cert.ReferenceIdeal.S100000x128, .f32⟩ : BufTy).Contents (Elt Ideal)) (x1 : (⟨Cert.ReferenceIdeal.S2x500000, .i32⟩ : BufTy).Contents (Elt Ideal)) : val_main_v17 (F := Ideal) x0 x1 = gathered x0 (dstIdx x1) := by
  unfold val_main_v17 val_main_v16 val_main_v15 val_main_v14 val_main_v13 val_main_c_2 val_main_v12 val_main_v11 val_main_c_1 val_main_v3 val_main_v2
  rfl

/-- The reference's new edge features. -/
theorem ref_edges (x0 : (⟨Cert.ReferenceIdeal.S100000x128, .f32⟩ : BufTy).Contents (Elt Ideal)) (x1 : (⟨Cert.ReferenceIdeal.S2x500000, .i32⟩ : BufTy).Contents (Elt Ideal)) (x2 : (⟨Cert.ReferenceIdeal.S500000x128, .f32⟩ : BufTy).Contents (Elt Ideal)) (x3 : (⟨Cert.ReferenceIdeal.S384x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) : val_main_v27 (F := Ideal) x0 x1 x2 x3 x4 x5 x6 = edgesOf x0 x1 x2 x3 x4 x5 x6 := by
  rw [new_edge_eq, ref_src, ref_dst]
  rfl

/-- The reference's messages. -/
theorem ref_msgs (x0 : (⟨Cert.ReferenceIdeal.S100000x128, .f32⟩ : BufTy).Contents (Elt Ideal)) (x1 : (⟨Cert.ReferenceIdeal.S2x500000, .i32⟩ : BufTy).Contents (Elt Ideal)) (x2 : (⟨Cert.ReferenceIdeal.S500000x128, .f32⟩ : BufTy).Contents (Elt Ideal)) (x3 : (⟨Cert.ReferenceIdeal.S384x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) :
    val_main_v37 (F := Ideal) x0 x1 x2 x3 x4 x5 x6 x7 x8 x9 x10 = msgsOf x0 x1 (edgesOf x0 x1 x2 x3 x4 x5 x6) x7 x8 x9 x10 := by
  rw [messages_eq, ref_dst, ref_edges]
  rfl

/-- The reference's aggregated messages: the same scatter-mean over the source row. -/
theorem ref_agg (x0 : (⟨Cert.ReferenceIdeal.S100000x128, .f32⟩ : BufTy).Contents (Elt Ideal)) (x1 : (⟨Cert.ReferenceIdeal.S2x500000, .i32⟩ : BufTy).Contents (Elt Ideal)) (x2 : (⟨Cert.ReferenceIdeal.S500000x128, .f32⟩ : BufTy).Contents (Elt Ideal)) (x3 : (⟨Cert.ReferenceIdeal.S384x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) :
    val_main_v49 (F := Ideal) x0 x1 x2 x3 x4 x5 x6 x7 x8 x9 x10 = aggOf (srcIdx x1) (msgsOf x0 x1 (edgesOf x0 x1 x2 x3 x4 x5 x6) x7 x8 x9 x10) := by
  unfold val_main_v49 val_main_v40
  rw [ref_msgs]
  unfold val_main_v48 val_main_v47 val_main_v46 val_main_v45 val_main_cst_5 val_main_v44 val_main_v43 val_main_v42 val_main_cst_4 val_main_v41 val_main_cst_3 val_main_v39 val_main_v38 val_main_cst val_main_v1 val_main_v0
  rfl

/-- The reference's new node features. -/
theorem ref_nodes (x0 : (⟨Cert.ReferenceIdeal.S100000x128, .f32⟩ : BufTy).Contents (Elt Ideal)) (x1 : (⟨Cert.ReferenceIdeal.S2x500000, .i32⟩ : BufTy).Contents (Elt Ideal)) (x2 : (⟨Cert.ReferenceIdeal.S500000x128, .f32⟩ : BufTy).Contents (Elt Ideal)) (x3 : (⟨Cert.ReferenceIdeal.S384x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S256x128, .f32⟩ : BufTy).Contents (Elt Ideal)) (x12 : (⟨Cert.ReferenceIdeal.S128, .f32⟩ : BufTy).Contents (Elt Ideal)) (x13 : (⟨Cert.ReferenceIdeal.S128x128, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)) :
    val_main_v69 (F := Ideal) x0 x1 x2 x3 x4 x5 x6 x7 x8 x9 x10 x11 x12 x13 x14 x15 x16 x17 x18
      = nodesOf x0 (aggOf (srcIdx x1) (msgsOf x0 x1 (edgesOf x0 x1 x2 x3 x4 x5 x6) x7 x8 x9 x10)) x11 x12 x13 x14 x15 x16 x17 x18 := by
  rw [node_eq, ref_agg]
  rfl

/-- The same, along equalities of the arguments (the two programs start from memories that agree on them). -/
theorem ref_edges_of_eq {x0 y0 : (⟨Cert.ReferenceIdeal.S100000x128, .f32⟩ : BufTy).Contents (Elt Ideal)} {x1 y1 : (⟨Cert.ReferenceIdeal.S2x500000, .i32⟩ : BufTy).Contents (Elt Ideal)} {x2 y2 : (⟨Cert.ReferenceIdeal.S500000x128, .f32⟩ : BufTy).Contents (Elt Ideal)} {x3 y3 : (⟨Cert.ReferenceIdeal.S384x128, .f32⟩ : BufTy).Contents (Elt Ideal)} {x4 y4 : (⟨Cert.ReferenceIdeal.S128, .f32⟩ : BufTy).Contents (Elt Ideal)} {x5 y5 : (⟨Cert.ReferenceIdeal.S128x128, .f32⟩ : BufTy).Contents (Elt Ideal)} {x6 y6 : (⟨Cert.ReferenceIdeal.S128, .f32⟩ : BufTy).Contents (Elt Ideal)} (h0 : x0 = y0) (h1 : x1 = y1) (h2 : x2 = y2) (h3 : x3 = y3) (h4 : x4 = y4) (h5 : x5 = y5) (h6 : x6 = y6) :
    val_main_v27 (F := Ideal) x0 x1 x2 x3 x4 x5 x6 = edgesOf y0 y1 y2 y3 y4 y5 y6 := by
  subst h0 h1 h2 h3 h4 h5 h6
  exact ref_edges _ _ _ _ _ _ _

theorem ref_nodes_of_eq {x0 y0 : (⟨Cert.ReferenceIdeal.S100000x128, .f32⟩ : BufTy).Contents (Elt Ideal)} {x1 y1 : (⟨Cert.ReferenceIdeal.S2x500000, .i32⟩ : BufTy).Contents (Elt Ideal)} {x2 y2 : (⟨Cert.ReferenceIdeal.S500000x128, .f32⟩ : BufTy).Contents (Elt Ideal)} {x3 y3 : (⟨Cert.ReferenceIdeal.S384x128, .f32⟩ : BufTy).Contents (Elt Ideal)} {x4 y4 : (⟨Cert.ReferenceIdeal.S128, .f32⟩ : BufTy).Contents (Elt Ideal)} {x5 y5 : (⟨Cert.ReferenceIdeal.S128x128, .f32⟩ : BufTy).Contents (Elt Ideal)} {x6 y6 : (⟨Cert.ReferenceIdeal.S128, .f32⟩ : BufTy).Contents (Elt Ideal)} {x7 y7 : (⟨Cert.ReferenceIdeal.S256x128, .f32⟩ : BufTy).Contents (Elt Ideal)} {x8 y8 : (⟨Cert.ReferenceIdeal.S128, .f32⟩ : BufTy).Contents (Elt Ideal)} {x9 y9 : (⟨Cert.ReferenceIdeal.S128x128, .f32⟩ : BufTy).Contents (Elt Ideal)} {x10 y10 : (⟨Cert.ReferenceIdeal.S128, .f32⟩ : BufTy).Contents (Elt Ideal)} {x11 y11 : (⟨Cert.ReferenceIdeal.S256x128, .f32⟩ : BufTy).Contents (Elt Ideal)} {x12 y12 : (⟨Cert.ReferenceIdeal.S128, .f32⟩ : BufTy).Contents (Elt Ideal)} {x13 y13 : (⟨Cert.ReferenceIdeal.S128x128, .f32⟩ : BufTy).Contents (Elt Ideal)} {x14 y14 : (⟨Cert.ReferenceIdeal.S128, .f32⟩ : BufTy).Contents (Elt Ideal)} {x15 y15 : (⟨Cert.ReferenceIdeal.S128x128, .f32⟩ : BufTy).Contents (Elt Ideal)} {x16 y16 : (⟨Cert.ReferenceIdeal.S128, .f32⟩ : BufTy).Contents (Elt Ideal)} {x17 y17 : (⟨Cert.ReferenceIdeal.S128x128, .f32⟩ : BufTy).Contents (Elt Ideal)} {x18 y18 : (⟨Cert.ReferenceIdeal.S128, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) :
    val_main_v69 (F := Ideal) x0 x1 x2 x3 x4 x5 x6 x7 x8 x9 x10 x11 x12 x13 x14 x15 x16 x17 x18
      = nodesOf y0 (aggOf (srcIdx y1) (msgsOf y0 y1 (edgesOf y0 y1 y2 y3 y4 y5 y6) y7 y8 y9 y10)) y11 y12 y13 y14 y15 y16 y17 y18 := by
  subst h0 h1 h2 h3 h4 h5 h6 h7 h8 h9 h10 h11 h12 h13 h14 h15 h16 h17 h18
  exact ref_nodes _ _ _ _ _ _ _ _ _ _ _ _ _ _ _ _ _ _ _

end Cert.Bridge

end
-- ==== Proof.RefRun.lean ====
/-
  The reference's run, read back stretch by stretch.

  The reference is a straight line of 86 host operations. Cut before each of its three concatenations and before the
  scatter-mean, it is five stretches; from any contents each stretch leaves, in the buffers the next one reads, a fixed
  term of what it found, and composed they are the stages `val_main_v27` (the new edge features) and `val_main_v69` (the
  new node features) of the launch contents. No operation writes an argument array.
-/
import proofs.«424816_j40346922778973_1_alg».proof.Proof.RunOps
import proofs.«424816_j40346922778973_1_alg».proof.Proof.ReadStages
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## What each later stretch computes from the buffers it reads -/

/-- The edge perceptron on the concatenation of the two gathered node rows and the edge attributes. -/
def edgeStage (a b x2 : (⟨S500000x128, .f32⟩ : BufTy).Contents (Elt F)) (x3 : (⟨S384x128, .f32⟩ : BufTy).Contents (Elt F)) (x4 : (⟨S128, .f32⟩ : BufTy).Contents (Elt F))
    (x5 : (⟨S128x128, .f32⟩ : BufTy).Contents (Elt F)) (x6 : (⟨S128, .f32⟩ : BufTy).Contents (Elt F)) : (⟨S500000x128, .f32⟩ : BufTy).Contents (Elt F) :=
  addf (Host.dotGeneral dot_S500000x128_S128x128_S500000x128_1_0_0_1_n_n none
      (maximumf
        (addf (Host.dotGeneral dot_S500000x384_S384x128_S500000x128_1_0_0_1_n_n none
            (concatenate S500000x384 1 [⟨S500000x128, a⟩, ⟨S500000x128, b⟩, ⟨S500000x128, x2⟩] concatenates_S500000x128_S500000x128_S500000x128_S500000x384_d1) x3)
          (ReadP.val_main_v21 (F := F) x4))
        (ReadP.val_main_call0_v0 (F := F))) x5)
    (ReadP.val_main_v26 (F := F) x6)

/-- The message perceptron on the concatenation of the target rows and the new edge features. -/
def msgStage (b ne : (⟨S500000x128, .f32⟩ : BufTy).Contents (Elt F)) (x7 : (⟨S256x128, .f32⟩ : BufTy).Contents (Elt F)) (x8 : (⟨S128, .f32⟩ : BufTy).Contents (Elt F))
    (x9 : (⟨S128x128, .f32⟩ : BufTy).Contents (Elt F)) (x10 : (⟨S128, .f32⟩ : BufTy).Contents (Elt F)) : (⟨S500000x128, .f32⟩ : BufTy).Contents (Elt F) :=
  addf (Host.dotGeneral dot_S500000x128_S128x128_S500000x128_1_0_0_1_n_n none
      (maximumf
        (addf (Host.dotGeneral dot_S500000x256_S256x128_S500000x128_1_0_0_1_n_n none
            (concatenate S500000x256 1 [⟨S500000x128, b⟩, ⟨S500000x128, ne⟩] concatenates_S500000x128_S500000x128_S500000x256_d1) x7)
          (ReadP.val_main_v31 (F := F) x8))
        (ReadP.val_main_call1_v0 (F := F))) x9)
    (ReadP.val_main_v36 (F := F) x10)

/-- The scatter-mean of the message rows over the source index: the sums by index divided by the larger of the
    count of each index and one. -/
def aggStage (src : (⟨S500000, .i32⟩ : BufTy).Contents (Elt F)) (msg : (⟨S500000x128, .f32⟩ : BufTy).Contents (Elt F)) : (⟨S100000x128, .f32⟩ : BufTy).Contents (Elt F) :=
  Host.divf
    (Host.scatterAdd scatter_S100000x128_S500000x1_S500000x128_1_0_0_1 (ReadP.val_main_v38 (F := F))
      (broadcastInDim S500000x1 ![0] bcast_S500000_S500000x1_0 src) msg)
    (broadcastInDim S100000x128 ![0, 1] bcast_S100000x1_S100000x128_0_1
      (broadcastInDim S100000x1 ![0] bcast_S100000_S100000x1_0
        (maximumf
          (Host.scatterAdd scatter_S100000_S500000x1_S500000_n_0_0_1 (ReadP.val_main_v42 (F := F))
            (broadcastInDim S500000x1 ![0] bcast_S500000_S500000x1_0 src) (ReadP.val_main_v41 (F := F)))
          (ReadP.val_main_v45 (F := F)))))

/-- The first node perceptron on the concatenation of the node rows and the aggregated messages. -/
def gammaStage (x0 ag : (⟨S100000x128, .f32⟩ : BufTy).Contents (Elt F)) (x11 : (⟨S256x128, .f32⟩ : BufTy).Contents (Elt F)) (x12 : (⟨S128, .f32⟩ : BufTy).Contents (Elt F))
    (x13 : (⟨S128x128, .f32⟩ : BufTy).Contents (Elt F)) (x14 : (⟨S128, .f32⟩ : BufTy).Contents (Elt F)) : (⟨S100000x128, .f32⟩ : BufTy).Contents (Elt F) :=
  addf (Host.dotGeneral dot_S100000x128_S128x128_S100000x128_1_0_0_1_n_n none
      (maximumf
        (addf (Host.dotGeneral dot_S100000x256_S256x128_S100000x128_1_0_0_1_n_n none
            (concatenate S100000x256 1 [⟨S100000x128, x0⟩, ⟨S100000x128, ag⟩] concatenates_S100000x128_S100000x128_S100000x256_d1) x11)
          (ReadP.val_main_v53 (F := F) x12))
        (ReadP.val_main_call2_v0 (F := F))) x13)
    (ReadP.val_main_v58 (F := F) x14)

/-- The node update: the first perceptron's rows plus the second perceptron of them. -/
def nodeStage (x0 ag : (⟨S100000x128, .f32⟩ : BufTy).Contents (Elt F)) (x11 : (⟨S256x128, .f32⟩ : BufTy).Contents (Elt F)) (x12 : (⟨S128, .f32⟩ : BufTy).Contents (Elt F))
    (x13 : (⟨S128x128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F))
    (x17 : (⟨S128x128, .f32⟩ : BufTy).Contents (Elt F)) (x18 : (⟨S128, .f32⟩ : BufTy).Contents (Elt F)) : (⟨S100000x128, .f32⟩ : BufTy).Contents (Elt F) :=
  addf (gammaStage (F := F) x0 ag x11 x12 x13 x14)
    (addf (Host.dotGeneral dot_S100000x128_S128x128_S100000x128_1_0_0_1_n_n none
        (maximumf
          (addf (Host.dotGeneral dot_S100000x128_S128x128_S100000x128_1_0_0_1_n_n none (gammaStage (F := F) x0 ag x11 x12 x13 x14) x15)
            (ReadP.val_main_v62 (F := F) x16))
          (ReadP.val_main_call3_v0 (F := F))) x17)
      (ReadP.val_main_v67 (F := F) x18))

/-! ## The stages of the reference, as those terms of the earlier stages -/

theorem val27_eq (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) :
    ReadP.val_main_v27 (F := F) x0 x1 x2 x3 x4 x5 x6 = edgeStage (F := F) (ReadP.val_main_v10 (F := F) x0 x1) (ReadP.val_main_v17 (F := F) x0 x1) x2 x3 x4 x5 x6 := rfl

theorem val37_eq (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    ReadP.val_main_v37 (F := F) x0 x1 x2 x3 x4 x5 x6 x7 x8 x9 x10 = msgStage (F := F) (ReadP.val_main_v17 (F := F) x0 x1) (ReadP.val_main_v27 (F := F) x0 x1 x2 x3 x4 x5 x6) x7 x8 x9 x10 := rfl

theorem val49_eq (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    ReadP.val_main_v49 (F := F) x0 x1 x2 x3 x4 x5 x6 x7 x8 x9 x10 = aggStage (F := F) (ReadP.val_main_v1 (F := F) x1) (ReadP.val_main_v37 (F := F) x0 x1 x2 x3 x4 x5 x6 x7 x8 x9 x10) := rfl

theorem val69_eq (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S128x128, .f32⟩ : BufTy).Contents (Elt F)) (x18 : (⟨S128, .f32⟩ : BufTy).Contents (Elt F)) :
    ReadP.val_main_v69 (F := F) x0 x1 x2 x3 x4 x5 x6 x7 x8 x9 x10 x11 x12 x13 x14 x15 x16 x17 x18 = nodeStage (F := F) x0 (ReadP.val_main_v49 (F := F) x0 x1 x2 x3 x4 x5 x6 x7 x8 x9 x10) x11 x12 x13 x14 x15 x16 x17 x18 := rfl

/-! ## The five stretches of the operation list -/

/-- The index rows, their wrapping and the two gathers. -/
abbrev opsA : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    nullary main_c (constantI S_ 32 0#32),
    unary main_c main_v4 (broadcastInDim S500000 ![] bcast_S_S500000 : (⟨S_, .i32⟩ : BufTy).Contents (Elt F) → (⟨S500000, .i32⟩ : BufTy).Contents (Elt F)),
    binary main_v1 main_v4 main_v5 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v6 (broadcastInDim S500000 ![] bcast_S_S500000 : (⟨S_, .i32⟩ : BufTy).Contents (Elt F) → (⟨S500000, .i32⟩ : BufTy).Contents (Elt F)),
    binary main_v1 main_v6 main_v7 (addi : (⟨S500000, .i32⟩ : BufTy).Contents (Elt F) → (⟨S500000, .i32⟩ : BufTy).Contents (Elt F) → (⟨S500000, .i32⟩ : BufTy).Contents (Elt F)),
    ternary main_v5 main_v7 main_v1 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v8 main_v9 (broadcastInDim S500000x1 ![0] bcast_S500000_S500000x1_0 : (⟨S500000, .i32⟩ : BufTy).Contents (Elt F) → (⟨S500000x1, .i32⟩ : BufTy).Contents (Elt F)),
    binary main_arg0 main_v9 main_v10 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_1 (constantI S_ 32 0#32),
    unary main_c_1 main_v11 (broadcastInDim S500000 ![] bcast_S_S500000 : (⟨S_, .i32⟩ : BufTy).Contents (Elt F) → (⟨S500000, .i32⟩ : BufTy).Contents (Elt F)),
    binary main_v3 main_v11 main_v12 (cmpi .slt : (⟨S500000, .i32⟩ : BufTy).Contents (Elt F) → (⟨S500000, .i32⟩ : BufTy).Contents (Elt F) → (⟨S500000, .i1⟩ : BufTy).Contents (Elt F)),
    nullary main_c_2 (constantI S_ 32 100000#32),
    unary main_c_2 main_v13 (broadcastInDim S500000 ![] bcast_S_S500000 : (⟨S_, .i32⟩ : BufTy).Contents (Elt F) → (⟨S500000, .i32⟩ : BufTy).Contents (Elt F)),
    binary main_v3 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_v3 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v15 main_v16 (broadcastInDim S500000x1 ![0] bcast_S500000_S500000x1_0 : (⟨S500000, .i32⟩ : BufTy).Contents (Elt F) → (⟨S500000x1, .i32⟩ : BufTy).Contents (Elt F)),
    binary main_arg0 main_v16 main_v17 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) ]

/-- The edge perceptron on the concatenated rows. -/
abbrev opsB : List (HloOp τ sig (Elt F)) :=
  [ nary ![main_v10, main_v17, main_arg2] main_v18 (fun u => concatenate S500000x384 1 [⟨S500000x128, u 0⟩, ⟨S500000x128, u 1⟩, ⟨S500000x128, u 2⟩] concatenates_S500000x128_S500000x128_S500000x128_S500000x384_d1),
    binary main_v18 main_arg3 main_v19 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S500000x128 ![0, 1] bcast_S1x128_S500000x128_0_1 : (⟨S1x128, .f32⟩ : BufTy).Contents (Elt F) → (⟨S500000x128, .f32⟩ : BufTy).Contents (Elt F)),
    binary main_v19 main_v21 main_v22 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S500000x128, .f32⟩) main_call0_v0) (broadcastInDim S500000x128 ![] bcast_S_S500000x128),
    TRef.binary (TRef.of (T := ⟨S500000x128, .f32⟩) main_v22) (TRef.of (T := ⟨S500000x128, .f32⟩) main_call0_v0) (TRef.of (T := ⟨S500000x128, .f32⟩) main_v23) maximumf,
    binary main_v23 main_arg5 main_v24 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg6 main_v25 (broadcastInDim S1x128 ![1] bcast_S128_S1x128_1 : (⟨S128, .f32⟩ : BufTy).Contents (Elt F) → (⟨S1x128, .f32⟩ : BufTy).Contents (Elt F)),
    unary main_v25 main_v26 (broadcastInDim S500000x128 ![0, 1] bcast_S1x128_S500000x128_0_1 : (⟨S1x128, .f32⟩ : BufTy).Contents (Elt F) → (⟨S500000x128, .f32⟩ : BufTy).Contents (Elt F)),
    binary main_v24 main_v26 main_v27 (addf : (⟨S500000x128, .f32⟩ : BufTy).Contents (Elt F) → (⟨S500000x128, .f32⟩ : BufTy).Contents (Elt F) → (⟨S500000x128, .f32⟩ : BufTy).Contents (Elt F)) ]

/-- The message perceptron on the concatenated rows. -/
abbrev opsC : List (HloOp τ sig (Elt F)) :=
  [ binary main_v17 main_v27 main_v28 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    binary main_v28 main_arg7 main_v29 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg8 main_v30 (broadcastInDim S1x128 ![1] bcast_S128_S1x128_1 : (⟨S128, .f32⟩ : BufTy).Contents (Elt F) → (⟨S1x128, .f32⟩ : BufTy).Contents (Elt F)),
    unary main_v30 main_v31 (broadcastInDim S500000x128 ![0, 1] bcast_S1x128_S500000x128_0_1 : (⟨S1x128, .f32⟩ : BufTy).Contents (Elt F) → (⟨S500000x128, .f32⟩ : BufTy).Contents (Elt F)),
    binary main_v29 main_v31 main_v32 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x128, .f32⟩) main_call1_v0) (broadcastInDim S500000x128 ![] bcast_S_S500000x128),
    TRef.binary (TRef.of (T := ⟨S500000x128, .f32⟩) main_v32) (TRef.of (T := ⟨S500000x128, .f32⟩) main_call1_v0) (TRef.of (T := ⟨S500000x128, .f32⟩) main_v33) maximumf,
    binary main_v33 main_arg9 main_v34 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg10 main_v35 (broadcastInDim S1x128 ![1] bcast_S128_S1x128_1 : (⟨S128, .f32⟩ : BufTy).Contents (Elt F) → (⟨S1x128, .f32⟩ : BufTy).Contents (Elt F)),
    unary main_v35 main_v36 (broadcastInDim S500000x128 ![0, 1] bcast_S1x128_S500000x128_0_1 : (⟨S1x128, .f32⟩ : BufTy).Contents (Elt F) → (⟨S500000x128, .f32⟩ : BufTy).Contents (Elt F)),
    binary main_v34 main_v36 main_v37 (addf : (⟨S500000x128, .f32⟩ : BufTy).Contents (Elt F) → (⟨S500000x128, .f32⟩ : BufTy).Contents (Elt F) → (⟨S500000x128, .f32⟩ : BufTy).Contents (Elt F)) ]

/-- The scatter-mean of the messages over the source index. -/
abbrev opsD : List (HloOp τ sig (Elt F)) :=
  [ nullary main_cst (constant S_ .f32 0x00000000#32),
    unary main_cst main_v38 (broadcastInDim S100000x128 ![] bcast_S_S100000x128 : (⟨S_, .f32⟩ : BufTy).Contents (Elt F) → (⟨S100000x128, .f32⟩ : BufTy).Contents (Elt F)),
    unary main_v1 main_v39 (broadcastInDim S500000x1 ![0] bcast_S500000_S500000x1_0 : (⟨S500000, .i32⟩ : BufTy).Contents (Elt F) → (⟨S500000x1, .i32⟩ : BufTy).Contents (Elt F)),
    ternary main_v38 main_v39 main_v37 main_v40 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_3 (constant S_ .f32 0x3F800000#32),
    unary main_cst_3 main_v41 (broadcastInDim S500000 ![] bcast_S_S500000 : (⟨S_, .f32⟩ : BufTy).Contents (Elt F) → (⟨S500000, .f32⟩ : BufTy).Contents (Elt F)),
    nullary main_cst_4 (constant S_ .f32 0x00000000#32),
    unary main_cst_4 main_v42 (broadcastInDim S100000 ![] bcast_S_S100000 : (⟨S_, .f32⟩ : BufTy).Contents (Elt F) → (⟨S100000, .f32⟩ : BufTy).Contents (Elt F)),
    unary main_v1 main_v43 (broadcastInDim S500000x1 ![0] bcast_S500000_S500000x1_0 : (⟨S500000, .i32⟩ : BufTy).Contents (Elt F) → (⟨S500000x1, .i32⟩ : BufTy).Contents (Elt F)),
    ternary main_v42 main_v43 main_v41 main_v44 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_5 (constant S_ .f32 0x3F800000#32),
    unary main_cst_5 main_v45 (broadcastInDim S100000 ![] bcast_S_S100000 : (⟨S_, .f32⟩ : BufTy).Contents (Elt F) → (⟨S100000, .f32⟩ : BufTy).Contents (Elt F)),
    binary main_v44 main_v45 main_v46 (maximumf : (⟨S100000, .f32⟩ : BufTy).Contents (Elt F) → (⟨S100000, .f32⟩ : BufTy).Contents (Elt F) → (⟨S100000, .f32⟩ : BufTy).Contents (Elt F)),
    unary main_v46 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x128 ![0, 1] bcast_S100000x1_S100000x128_0_1 : (⟨S100000x1, .f32⟩ : BufTy).Contents (Elt F) → (⟨S100000x128, .f32⟩ : BufTy).Contents (Elt F)),
    binary main_v40 main_v48 main_v49 (Host.divf : (⟨S100000x128, .f32⟩ : BufTy).Contents (Elt F) → (⟨S100000x128, .f32⟩ : BufTy).Contents (Elt F) → (⟨S100000x128, .f32⟩ : BufTy).Contents (Elt F)) ]

/-- The node update on the concatenated rows. -/
abbrev opsE : List (HloOp τ sig (Elt F)) :=
  [ binary main_arg0 main_v49 main_v50 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v50 main_arg11 main_v51 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg12 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v51 main_v53 main_v54 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v54) (TRef.of (T := ⟨S100000x128, .f32⟩) main_call2_v0) (TRef.of (T := ⟨S100000x128, .f32⟩) main_v55) maximumf,
    binary main_v55 main_arg13 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg14 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    binary main_v59 main_arg15 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v63) (TRef.of (T := ⟨S100000x128, .f32⟩) main_call3_v0) (TRef.of (T := ⟨S100000x128, .f32⟩) main_v64) maximumf,
    binary main_v64 main_arg17 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    binary main_v59 main_v68 main_v69 (addf : (⟨S100000x128, .f32⟩ : BufTy).Contents (Elt F) → (⟨S100000x128, .f32⟩ : BufTy).Contents (Elt F) → (⟨S100000x128, .f32⟩ : BufTy).Contents (Elt F)) ]

/-! ## The buffers each stretch writes, and that it keeps the others -/

/-- A buffer on a list is in the list's set of device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

abbrev writtenA : List (Ref sig .tc) :=
  [main_v0, main_v1, main_v2, main_v3, main_c, main_v4, main_v5, main_c_0, main_v6, main_v7, main_v8, main_v9, main_v10,
    main_c_1, main_v11, main_v12, main_c_2, main_v13, main_v14, main_v15, main_v16, main_v17]
abbrev writtenB : List (Ref sig .tc) :=
  [main_v18, main_v19, main_v20, main_v21, main_v22, main_call0_cst, main_call0_v0, main_v23, main_v24, main_v25, main_v26,
    main_v27]
abbrev writtenC : List (Ref sig .tc) :=
  [main_v28, main_v29, main_v30, main_v31, main_v32, main_call1_cst, main_call1_v0, main_v33, main_v34, main_v35, main_v36,
    main_v37]
abbrev writtenD : List (Ref sig .tc) :=
  [main_cst, main_v38, main_v39, main_v40, main_cst_3, main_v41, main_cst_4, main_v42, main_v43, main_v44, main_cst_5,
    main_v45, main_v46, main_v47, main_v48, main_v49]
abbrev writtenE : List (Ref sig .tc) :=
  [main_v50, main_v51, main_v52, main_v53, main_v54, main_call2_cst, main_call2_v0, main_v55, main_v56, main_v57, main_v58,
    main_v59, main_v60, main_v61, main_v62, main_v63, main_call3_cst, main_call3_v0, main_v64, main_v65, main_v66, main_v67,
    main_v68, main_v69]
/-- Every buffer some operation of the reference writes. -/
abbrev written : List (Ref sig .tc) := writtenA ++ (writtenB ++ (writtenC ++ (writtenD ++ writtenE)))

theorem writesA : (opsA (F := F)).Forall fun op => op.writes ⊆ (writtenA.map (Proc.devRef (τ := τ) .tc)).toFinset := by
  simp only [opsA, List.Forall, nullary_writes, unary_writes, binary_writes, ternary_writes, reshape_writes, nary_writes]
  repeat' apply And.intro
  all_goals exact single_sub (by decide)
theorem writesB : (opsB (F := F)).Forall fun op => op.writes ⊆ (writtenB.map (Proc.devRef (τ := τ) .tc)).toFinset := by
  simp only [opsB, List.Forall, nullary_writes, unary_writes, binary_writes, ternary_writes, reshape_writes, nary_writes]
  repeat' apply And.intro
  all_goals exact single_sub (by decide)
theorem writesC : (opsC (F := F)).Forall fun op => op.writes ⊆ (writtenC.map (Proc.devRef (τ := τ) .tc)).toFinset := by
  simp only [opsC, List.Forall, nullary_writes, unary_writes, binary_writes, ternary_writes, reshape_writes, nary_writes]
  repeat' apply And.intro
  all_goals exact single_sub (by decide)
theorem writesD : (opsD (F := F)).Forall fun op => op.writes ⊆ (writtenD.map (Proc.devRef (τ := τ) .tc)).toFinset := by
  simp only [opsD, List.Forall, nullary_writes, unary_writes, binary_writes, ternary_writes, reshape_writes, nary_writes]
  repeat' apply And.intro
  all_goals exact single_sub (by decide)
theorem writesE : (opsE (F := F)).Forall fun op => op.writes ⊆ (writtenE.map (Proc.devRef (τ := τ) .tc)).toFinset := by
  simp only [opsE, List.Forall, nullary_writes, unary_writes, binary_writes, ternary_writes, reshape_writes, nary_writes]
  repeat' apply And.intro
  all_goals exact single_sub (by decide)

section Keeps
variable (U : Valuation τ sig (Elt F)) {r : Ref sig .tc}

theorem keepsA (hr : r ∉ writtenA) : StableHlo.after (opsA (F := F)) U (Proc.devRef .tc r) = U (Proc.devRef .tc r) :=
  after_of_writes_sub _ U writesA hr
theorem keepsB (hr : r ∉ writtenB) : StableHlo.after (opsB (F := F)) U (Proc.devRef .tc r) = U (Proc.devRef .tc r) :=
  after_of_writes_sub _ U writesB hr
theorem keepsC (hr : r ∉ writtenC) : StableHlo.after (opsC (F := F)) U (Proc.devRef .tc r) = U (Proc.devRef .tc r) :=
  after_of_writes_sub _ U writesC hr
theorem keepsD (hr : r ∉ writtenD) : StableHlo.after (opsD (F := F)) U (Proc.devRef .tc r) = U (Proc.devRef .tc r) :=
  after_of_writes_sub _ U writesD hr
theorem keepsE (hr : r ∉ writtenE) : StableHlo.after (opsE (F := F)) U (Proc.devRef .tc r) = U (Proc.devRef .tc r) :=
  after_of_writes_sub _ U writesE hr

/-- A buffer no operation writes, across the first two, three, four and all five stretches. -/
theorem keeps2 (hr : r ∉ written) :
    StableHlo.after (opsB (F := F)) (StableHlo.after (opsA (F := F)) U) (Proc.devRef .tc r) = U (Proc.devRef .tc r) :=
  (keepsB _ fun h => hr (List.mem_append_right _ (List.mem_append_left _ h))).trans
    (keepsA U fun h => hr (List.mem_append_left _ h))
theorem keeps3 (hr : r ∉ written) :
    StableHlo.after (opsC (F := F)) (StableHlo.after (opsB (F := F)) (StableHlo.after (opsA (F := F)) U)) (Proc.devRef .tc r)
      = U (Proc.devRef .tc r) :=
  (keepsC _ fun h => hr (List.mem_append_right _ (List.mem_append_right _ (List.mem_append_left _ h)))).trans (keeps2 U hr)
theorem keeps4 (hr : r ∉ written) :
    StableHlo.after (opsD (F := F)) (StableHlo.after (opsC (F := F)) (StableHlo.after (opsB (F := F)) (StableHlo.after (opsA (F := F)) U)))
        (Proc.devRef .tc r)
      = U (Proc.devRef .tc r) :=
  (keepsD _ fun h => hr (List.mem_append_right _ (List.mem_append_right _ (List.mem_append_right _ (List.mem_append_left _ h))))).trans
    (keeps3 U hr)
theorem keeps5 (hr : r ∉ written) :
    StableHlo.after (opsE (F := F))
        (StableHlo.after (opsD (F := F)) (StableHlo.after (opsC (F := F)) (StableHlo.after (opsB (F := F)) (StableHlo.after (opsA (F := F)) U))))
        (Proc.devRef .tc r)
      = U (Proc.devRef .tc r) :=
  (keepsE _ fun h => hr (List.mem_append_right _ (List.mem_append_right _ (List.mem_append_right _ (List.mem_append_right _ h))))).trans
    (keeps4 U hr)

end Keeps

/-! ## Each stretch, from any contents -/

section Stretches
variable (U : Valuation τ sig (Elt F))

set_option maxHeartbeats 1000000 in
theorem stretchA_v10 : StableHlo.after (opsA (F := F)) U (Proc.devRef .tc main_v10)
    = ReadP.val_main_v10 (F := F) (U (Proc.devRef .tc main_arg0)) (U (Proc.devRef .tc main_arg1)) := by
  generalize hT : ReadP.val_main_v10 (F := F) (U (Proc.devRef .tc main_arg0)) (U (Proc.devRef .tc main_arg1)) = T
  simp only [opsA]
  after_results_simp
  try simp only [TRef.ofBuf, TRef.toBuf, cast_eq]
  subst hT
  rfl

set_option maxHeartbeats 1000000 in
theorem stretchA_v17 : StableHlo.after (opsA (F := F)) U (Proc.devRef .tc main_v17)
    = ReadP.val_main_v17 (F := F) (U (Proc.devRef .tc main_arg0)) (U (Proc.devRef .tc main_arg1)) := by
  generalize hT : ReadP.val_main_v17 (F := F) (U (Proc.devRef .tc main_arg0)) (U (Proc.devRef .tc main_arg1)) = T
  simp only [opsA]
  after_results_simp
  try simp only [TRef.ofBuf, TRef.toBuf, cast_eq]
  subst hT
  rfl

theorem stretchA_v1 : StableHlo.after (opsA (F := F)) U (Proc.devRef .tc main_v1)
    = ReadP.val_main_v1 (F := F) (U (Proc.devRef .tc main_arg1)) := by
  generalize hT : ReadP.val_main_v1 (F := F) (U (Proc.devRef .tc main_arg1)) = T
  simp only [opsA]
  after_results_simp
  try simp only [TRef.ofBuf, TRef.toBuf, cast_eq]
  subst hT
  rfl

set_option maxHeartbeats 1000000 in
theorem stretchB_v27 : StableHlo.after (opsB (F := F)) U (Proc.devRef .tc main_v27)
    = edgeStage (F := F) (U (Proc.devRef .tc main_v10)) (U (Proc.devRef .tc main_v17)) (U (Proc.devRef .tc main_arg2)) (U (Proc.devRef .tc main_arg3)) (U (Proc.devRef .tc main_arg4)) (U (Proc.devRef .tc main_arg5)) (U (Proc.devRef .tc main_arg6)) := by
  generalize hT : edgeStage (F := F) (U (Proc.devRef .tc main_v10)) (U (Proc.devRef .tc main_v17)) (U (Proc.devRef .tc main_arg2)) (U (Proc.devRef .tc main_arg3)) (U (Proc.devRef .tc main_arg4)) (U (Proc.devRef .tc main_arg5)) (U (Proc.devRef .tc main_arg6)) = T
  simp only [opsB]
  after_results_simp
  try simp only [TRef.ofBuf, TRef.toBuf, cast_eq]
  subst hT
  rfl

set_option maxHeartbeats 1000000 in
theorem stretchC_v37 : StableHlo.after (opsC (F := F)) U (Proc.devRef .tc main_v37)
    = msgStage (F := F) (U (Proc.devRef .tc main_v17)) (U (Proc.devRef .tc main_v27)) (U (Proc.devRef .tc main_arg7)) (U (Proc.devRef .tc main_arg8)) (U (Proc.devRef .tc main_arg9)) (U (Proc.devRef .tc main_arg10)) := by
  generalize hT : msgStage (F := F) (U (Proc.devRef .tc main_v17)) (U (Proc.devRef .tc main_v27)) (U (Proc.devRef .tc main_arg7)) (U (Proc.devRef .tc main_arg8)) (U (Proc.devRef .tc main_arg9)) (U (Proc.devRef .tc main_arg10)) = T
  simp only [opsC]
  after_results_simp
  try simp only [TRef.ofBuf, TRef.toBuf, cast_eq]
  subst hT
  rfl

set_option maxHeartbeats 1000000 in
theorem stretchD_v49 : StableHlo.after (opsD (F := F)) U (Proc.devRef .tc main_v49)
    = aggStage (F := F) (U (Proc.devRef .tc main_v1)) (U (Proc.devRef .tc main_v37)) := by
  generalize hT : aggStage (F := F) (U (Proc.devRef .tc main_v1)) (U (Proc.devRef .tc main_v37)) = T
  simp only [opsD]
  after_results_simp
  try simp only [TRef.ofBuf, TRef.toBuf, cast_eq]
  subst hT
  rfl

set_option maxHeartbeats 2000000 in
theorem stretchE_v69 : StableHlo.after (opsE (F := F)) U (Proc.devRef .tc main_v69)
    = nodeStage (F := F) (U (Proc.devRef .tc main_arg0)) (U (Proc.devRef .tc main_v49)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  generalize hT : nodeStage (F := F) (U (Proc.devRef .tc main_arg0)) (U (Proc.devRef .tc main_v49)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) = T
  simp only [opsE]
  after_results_simp
  try simp only [TRef.ofBuf, TRef.toBuf, cast_eq]
  subst hT
  rfl

end Stretches

/-! ## The stretches composed: the stages of the contents the first stretch starts from -/

section Fold
variable (V : Valuation τ sig (Elt F))

/-- After the first two stretches the new edge features are at their stage. -/
theorem fold_v27 :
    StableHlo.after (opsB (F := F)) (StableHlo.after (opsA (F := F)) V) (Proc.devRef .tc main_v27)
      = ReadP.val_main_v27 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  generalize hT : ReadP.val_main_v27 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) = T
  rw [stretchB_v27, stretchA_v10, stretchA_v17, keepsA V (r := main_arg2) (by decide),
    keepsA V (r := main_arg3) (by decide),
    keepsA V (r := main_arg4) (by decide),
    keepsA V (r := main_arg5) (by decide),
    keepsA V (r := main_arg6) (by decide)]
  subst hT
  exact (val27_eq _ _ _ _ _ _ _).symm

/-- After the first three stretches the messages are at their stage. -/
theorem fold_v37 :
    StableHlo.after (opsC (F := F)) (StableHlo.after (opsB (F := F)) (StableHlo.after (opsA (F := F)) V)) (Proc.devRef .tc main_v37)
      = ReadP.val_main_v37 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  generalize hT : ReadP.val_main_v37 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) = T
  rw [stretchC_v37, fold_v27, keepsB _ (r := main_v17) (by decide), stretchA_v17,
    keeps2 V (r := main_arg7) (by decide),
    keeps2 V (r := main_arg8) (by decide),
    keeps2 V (r := main_arg9) (by decide),
    keeps2 V (r := main_arg10) (by decide)]
  subst hT
  exact (val37_eq _ _ _ _ _ _ _ _ _ _ _).symm

/-- After the first four stretches the aggregated messages are at their stage. -/
theorem fold_v49 :
    StableHlo.after (opsD (F := F)) (StableHlo.after (opsC (F := F)) (StableHlo.after (opsB (F := F)) (StableHlo.after (opsA (F := F)) V))) (Proc.devRef .tc main_v49)
      = ReadP.val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  generalize hT : ReadP.val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) = T
  rw [stretchD_v49, fold_v37, keepsC _ (r := main_v1) (by decide), keepsB _ (r := main_v1) (by decide), stretchA_v1]
  subst hT
  exact (val49_eq _ _ _ _ _ _ _ _ _ _ _).symm

/-- After all five stretches the new node features are at their stage. -/
theorem fold_v69 :
    StableHlo.after (opsE (F := F)) (StableHlo.after (opsD (F := F)) (StableHlo.after (opsC (F := F)) (StableHlo.after (opsB (F := F)) (StableHlo.after (opsA (F := F)) V)))) (Proc.devRef .tc main_v69)
      = ReadP.val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  generalize hT : ReadP.val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) = T
  rw [stretchE_v69, fold_v49, keeps4 V (r := main_arg0) (by decide),
    keeps4 V (r := main_arg11) (by decide),
    keeps4 V (r := main_arg12) (by decide),
    keeps4 V (r := main_arg13) (by decide),
    keeps4 V (r := main_arg14) (by decide),
    keeps4 V (r := main_arg15) (by decide),
    keeps4 V (r := main_arg16) (by decide),
    keeps4 V (r := main_arg17) (by decide),
    keeps4 V (r := main_arg18) (by decide)]
  subst hT
  exact (val69_eq _ _ _ _ _ _ _ _ _ _ _ _ _ _ _ _ _ _ _).symm

/-- The last three stretches keep the new edge features. -/
theorem fold_v27_end :
    StableHlo.after (opsE (F := F)) (StableHlo.after (opsD (F := F)) (StableHlo.after (opsC (F := F)) (StableHlo.after (opsB (F := F)) (StableHlo.after (opsA (F := F)) V)))) (Proc.devRef .tc main_v27)
      = ReadP.val_main_v27 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [keepsE _ (r := main_v27) (by decide), keepsD _ (r := main_v27) (by decide), keepsC _ (r := main_v27) (by decide), fold_v27]

end Fold

/-! ## The whole line is the five stretches in a row -/

theorem ops_split : (ops (F := F)) = opsA ++ opsB ++ opsC ++ opsD ++ opsE := rfl

theorem after_ops (V : Valuation τ sig (Elt F)) :
    StableHlo.after (ops (F := F)) V = StableHlo.after (opsE (F := F)) (StableHlo.after (opsD (F := F)) (StableHlo.after (opsC (F := F)) (StableHlo.after (opsB (F := F)) (StableHlo.after (opsA (F := F)) V)))) := by
  rw [ops_split, StableHlo.after_append, StableHlo.after_append, StableHlo.after_append, StableHlo.after_append]

/-- From any memory with zero counters every weakly fair execution of the reference terminates with its two results at
    the stages of the launch contents and the argument arrays unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = Cert.ReferenceIdeal.ReadP.val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v27) = Cert.ReferenceIdeal.ReadP.val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    ⟨(h c main_v69).trans ((congrFun (after_ops _) _).trans (fold_v69 _)),
      (h c main_v27).trans ((congrFun (after_ops _) _).trans (fold_v27_end _)),
      (h c main_arg0).trans ((congrFun (after_ops _) _).trans (keeps5 _ (r := main_arg0) (by decide))),
      (h c main_arg1).trans ((congrFun (after_ops _) _).trans (keeps5 _ (r := main_arg1) (by decide))),
      (h c main_arg2).trans ((congrFun (after_ops _) _).trans (keeps5 _ (r := main_arg2) (by decide))),
      (h c main_arg3).trans ((congrFun (after_ops _) _).trans (keeps5 _ (r := main_arg3) (by decide))),
      (h c main_arg4).trans ((congrFun (after_ops _) _).trans (keeps5 _ (r := main_arg4) (by decide))),
      (h c main_arg5).trans ((congrFun (after_ops _) _).trans (keeps5 _ (r := main_arg5) (by decide))),
      (h c main_arg6).trans ((congrFun (after_ops _) _).trans (keeps5 _ (r := main_arg6) (by decide))),
      (h c main_arg7).trans ((congrFun (after_ops _) _).trans (keeps5 _ (r := main_arg7) (by decide))),
      (h c main_arg8).trans ((congrFun (after_ops _) _).trans (keeps5 _ (r := main_arg8) (by decide))),
      (h c main_arg9).trans ((congrFun (after_ops _) _).trans (keeps5 _ (r := main_arg9) (by decide))),
      (h c main_arg10).trans ((congrFun (after_ops _) _).trans (keeps5 _ (r := main_arg10) (by decide))),
      (h c main_arg11).trans ((congrFun (after_ops _) _).trans (keeps5 _ (r := main_arg11) (by decide))),
      (h c main_arg12).trans ((congrFun (after_ops _) _).trans (keeps5 _ (r := main_arg12) (by decide))),
      (h c main_arg13).trans ((congrFun (after_ops _) _).trans (keeps5 _ (r := main_arg13) (by decide))),
      (h c main_arg14).trans ((congrFun (after_ops _) _).trans (keeps5 _ (r := main_arg14) (by decide))),
      (h c main_arg15).trans ((congrFun (after_ops _) _).trans (keeps5 _ (r := main_arg15) (by decide))),
      (h c main_arg16).trans ((congrFun (after_ops _) _).trans (keeps5 _ (r := main_arg16) (by decide))),
      (h c main_arg17).trans ((congrFun (after_ops _) _).trans (keeps5 _ (r := main_arg17) (by decide))),
      (h c main_arg18).trans ((congrFun (after_ops _) _).trans (keeps5 _ (r := main_arg18) (by decide)))⟩)
    (run_seq scopedRefs_eq scopedSems_eq defs main (fun _ => ops) main_eq (fun _ => ops_sub) m ρ)

end Cert.ReferenceIdeal.RefRun

end
-- ==== Proof.lean ====
/-
  A graph-network block: per-edge perceptrons, a scatter-mean of the messages onto the source nodes, a per-node update.

  The kernel computes it in two calls over blocks of 5000 rows, with the gathers of the node rows and the scatter-mean
  left to the host; the reference computes it on whole arrays. On the extended reals both are the same function of the
  arguments, index by index, as soon as every word of the edge index addresses a node — `−100000 ≤ i < 100000`, a negative
  word counting from the end —, which the precondition states: outside that range the reference's own indexing leaves the
  node array, and the kernel's gather (which fills such rows) and the reference's (which does not) part ways.

  Inside the range: the kernel's filling gathers are the reference's plain gathers of the wrapped index; each call's
  output blocks tile its output arrays, and at row `p`, column `j` of a block the stored value is the row perceptron of
  row `p` of the input blocks, its first layer a sum of products against the row-blocks of the first-layer matrix; the
  reference multiplies the concatenated row by the whole matrix, and a sum over 384 or 256 joined columns is the sum of the
  sums over its blocks of 128 — commutativity and associativity of the sum only, so nothing here needs the inputs finite.
  The scatter-mean is the same host computation in both programs, applied to equal messages.
-/
import proofs.«424816_j40346922778973_1_alg».proof.Defs
import proofs.«424816_j40346922778973_1_alg».proof.Proof.Gen.Kernel
import proofs.«424816_j40346922778973_1_alg».proof.Proof.Gen.Kernel.Frame
import proofs.«424816_j40346922778973_1_alg».proof.Proof.Gen.KernelIdeal
import proofs.«424816_j40346922778973_1_alg».proof.Proof.Gen.KernelIdeal.Frame
import proofs.«424816_j40346922778973_1_alg».proof.Proof.Gen.ReferenceIdeal
import proofs.«424816_j40346922778973_1_alg».proof.Proof.Gen.Pre_finite_inputs
import proofs.«424816_j40346922778973_1_alg».proof.Proof.KernelRun
import proofs.«424816_j40346922778973_1_alg».proof.Proof.KernelValue
import proofs.«424816_j40346922778973_1_alg».proof.Proof.IndexRange
import proofs.«424816_j40346922778973_1_alg».proof.Proof.Bridge
import proofs.«424816_j40346922778973_1_alg».proof.Proof.RefRun
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.RefRun.ref_run (F := Ideal) m ρ)

/-- The idealization rewrote no operation. -/
theorem preserves : Cert.preserves_Kernel_KernelIdeal := trivial

set_option maxHeartbeats 2000000 in
/-- From memories agreeing on the arguments, under the precondition, the two idealized programs end with the same new
    node features and the same new edge features: `nodesOf` and `edgesOf` of the arguments. -/
theorem algebraic : Cert.algebraic_KernelIdeal_ReferenceIdeal := by
  intro m ρ m' ρ' hpre hagree
  have hrange : ∀ c : Dev Cert.KernelIdeal.nD, Cert.KernelIdeal.KValue.InRange (m ((c.tc : Thread Cert.KernelIdeal.nD Cert.KernelIdeal.τ).loc Cert.KernelIdeal.main_arg1)) :=
    fun c => Cert.IndexRange.index_range (F := Ideal) _ _ _ _ _ _ _ _ _ _ _ _ _ _ _ _ _ _ _ (hpre c)
  refine ⟨fun c => Cert.KernelIdeal.KValue.nodesOf (m ((c.tc : Thread Cert.KernelIdeal.nD Cert.KernelIdeal.τ).loc Cert.KernelIdeal.main_arg0)) (Cert.KernelIdeal.HostFold.aggOf (Cert.KernelIdeal.HostFold.srcIdx (m ((c.tc : Thread Cert.KernelIdeal.nD Cert.KernelIdeal.τ).loc Cert.KernelIdeal.main_arg1))) (Cert.KernelIdeal.KValue.msgsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.KValue.edgesOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.KernelIdeal.KValue.edgesOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.kernel_nodes m ρ c (hrange c)),
        (h c).2.1.trans (Cert.KernelIdeal.KValue.kernel_edges m ρ c (hrange c)), (h c).2.2⟩)
      (Cert.KernelIdeal.Gen.run_named m ρ)
  · refine (θ_run Cert.ReferenceIdeal.defs _ _).mono (fun r h c => ⟨(h c).1.trans ?_, (h c).2.1.trans ?_, (h c).2.2⟩)
      (Cert.ReferenceIdeal.RefRun.ref_run (F := Ideal) m' ρ')
    · obtain ⟨e0, e1, e2, e3, e4, e5, e6, e7, e8, e9, e10, e11, e12, e13, e14, e15, e16, e17, e18⟩ := hagree c
      exact Cert.Bridge.ref_nodes_of_eq e0 e1 e2 e3 e4 e5 e6 e7 e8 e9 e10 e11 e12 e13 e14 e15 e16 e17 e18
    · obtain ⟨e0, e1, e2, e3, e4, e5, e6, e7, e8, e9, e10, e11, e12, e13, e14, e15, e16, e17, e18⟩ := hagree c
      exact Cert.Bridge.ref_edges_of_eq e0 e1 e2 e3 e4 e5 e6

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
